-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S128x512 : Shape := ⟨2, ![128, 512]⟩
abbrev S512 : Shape := ⟨1, ![512]⟩
abbrev S512x512 : Shape := ⟨2, ![512, 512]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512x512 .f32) (main_arg9 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S512 .f32) (main_arg6 : FVec F S512x512 .f32) (main_arg7 : FVec F S512 .f32) (main_arg8 : FVec F S512x512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S8192x128 .f32) (main_arg1 : IVec S8192x16 32) (main_arg2 : FVec F S128x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S8192x128 : Shape := ⟨2, ![8192, 128]⟩
abbrev S8192x16 : Shape := ⟨2, ![8192, 16]⟩
abbrev S128x512 : Shape := ⟨2, ![128, 512]⟩
abbrev S512 : Shape := ⟨1, ![512]⟩
abbrev S512x512 : Shape := ⟨2, ![512, 512]⟩
abbrev S8192 : Shape := ⟨1, ![8192]⟩
abbrev S8192x1 : Shape := ⟨2, ![8192, 1]⟩
abbrev S_ : Shape := ⟨0, ![]⟩
abbrev S8192x8192 : Shape := ⟨2, ![8192, 8192]⟩
abbrev S131072 : Shape := ⟨1, ![131072]⟩
abbrev S131072x1 : Shape := ⟨2, ![131072, 1]⟩
abbrev S131072x2 : Shape := ⟨2, ![131072, 2]⟩
abbrev S1x8192 : Shape := ⟨2, ![1, 8192]⟩
abbrev S1x512 : Shape := ⟨2, ![1, 512]⟩
abbrev S8192x512 : Shape := ⟨2, ![8192, 512]⟩
abbrev S2048x128 : Shape := ⟨2, ![2048, 128]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 85
  | .vmem => 33
  | .smem => 0
  | _ => 0

abbrev bufTy : (tb : Table) → Fin (tcTables nBuf tb) → BufTy
  | .hbm, ⟨0, _⟩ => ⟨S8192x128, .f32⟩
  | .hbm, ⟨1, _⟩ => ⟨S8192x16, .i32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8192, .i32⟩
  | .hbm, ⟨11, _⟩ => ⟨S8192x1, .i32⟩
  | .hbm, ⟨12, _⟩ => ⟨S8192x16, .i32⟩
  | .hbm, ⟨13, _⟩ => ⟨S_, .i32⟩
  | .hbm, ⟨14, _⟩ => ⟨S8192x16, .i32⟩
  | .hbm, ⟨15, _⟩ => ⟨S8192x16, .i1⟩
  | .hbm, ⟨16, _⟩ => ⟨S_, .i32⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S8192x16, .f32⟩
  | .hbm, ⟨21, _⟩ => ⟨S_, .f32⟩
  | .hbm, ⟨22, _⟩ => ⟨S8192x8192, .f32⟩
  | .hbm, ⟨23, _⟩ => ⟨S131072, .i32⟩
  | .hbm, ⟨24, _⟩ => ⟨S131072, .i32⟩
  | .hbm, ⟨25, _⟩ => ⟨S131072, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072x1, .i32⟩
  | .hbm, ⟨42, _⟩ => ⟨S131072x2, .i32⟩
  | .hbm, ⟨43, _⟩ => ⟨S8192x8192, .f32⟩
  | .hbm, ⟨44, _⟩ => ⟨S8192x8192, .i32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .i1⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S1x8192, .f32⟩
  | .hbm, ⟨68, _⟩ => ⟨S8192x8192, .f32⟩
  | .hbm, ⟨69, _⟩ => ⟨S8192x8192, .f32⟩
  | .hbm, ⟨70, _⟩ => ⟨S8192x8192, .bf16⟩
  | .hbm, ⟨71, _⟩ => ⟨S1x512, .f32⟩
  | .hbm, ⟨72, _⟩ => ⟨S8192x512, .f32⟩
  | .hbm, ⟨73, _⟩ => ⟨S8192x512, .bf16⟩
  | .hbm, ⟨74, _⟩ => ⟨S512x512, .bf16⟩
  | .hbm, ⟨75, _⟩ => ⟨S1x512, .f32⟩
  | .hbm, ⟨76, _⟩ => ⟨S8192x512, .f32⟩
  | .hbm, ⟨77, _⟩ => ⟨S8192x512, .bf16⟩
  | .hbm, ⟨78, _⟩ => ⟨S512x512, .bf16⟩
  | .hbm, ⟨79, _⟩ => ⟨S1x512, .f32⟩
  | .hbm, ⟨80, _⟩ => ⟨S8192x512, .f32⟩
  | .hbm, ⟨81, _⟩ => ⟨S8192x512, .bf16⟩
  | .hbm, ⟨82, _⟩ => ⟨S512x512, .bf16⟩
  | .hbm, ⟨83, _⟩ => ⟨S1x512, .f32⟩
  | .hbm, ⟨84, _⟩ => ⟨S8192x512, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x1024, .bf16⟩
  | .local _ .vmem, ⟨7, _⟩ => ⟨S2048x1024, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x1024, .bf16⟩
  | .local _ .vmem, ⟨16, _⟩ => ⟨S2048x1024, .bf16⟩
  | .local _ .vmem, ⟨17, _⟩ => ⟨S1024x512, .bf16⟩
  | .local _ .vmem, ⟨18, _⟩ => ⟨S1024x512, .bf16⟩
  | .local _ .vmem, ⟨19, _⟩ => ⟨S512x512, .bf16⟩
  | .local _ .vmem, ⟨20, _⟩ => ⟨S1x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x1024, .bf16⟩
  | .local _ .vmem, ⟨25, _⟩ => ⟨S2048x1024, .bf16⟩
  | .local _ .vmem, ⟨26, _⟩ => ⟨S1024x512, .bf16⟩
  | .local _ .vmem, ⟨27, _⟩ => ⟨S1024x512, .bf16⟩
  | .local _ .vmem, ⟨28, _⟩ => ⟨S512x512, .bf16⟩
  | .local _ .vmem, ⟨29, _⟩ => ⟨S1x512, .f32⟩
  | .local _ .vmem, ⟨30, _⟩ => ⟨S2048x512, .f32⟩
  | .local _ .vmem, ⟨31, _⟩ => ⟨S2048x512, .f32⟩
  | .local _ .vmem, ⟨32, _⟩ => ⟨S2048x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2048x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  bcast_S_S8192x8192 : S_.BroadcastsInDim S8192x8192 (![] : Fin 0 → Fin S8192x8192.rank)
  shapeCasts_S8192x16_S131072 : S8192x16.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bitsLt_bf16_f32 : FTy.bits .bf16 < FTy.bits .f32
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  scatter_S8192x8192_S131072x2_S131072_n_01_01_1_wf : ScatterDims.WF S8192x8192 S131072x2 S131072 [] [0, 1] [0, 1] 1
  dot_S2048x128_S128x512_S2048x512_1_0_0_1_n_n_wf : DotDims.WF S2048x128 S128x512 S2048x512 [1] [0] [0] [1] [] []
  dot_S2048x1024_S1024x512_S2048x512_1_0_0_1_n_n_wf : DotDims.WF S2048x1024 S1024x512 S2048x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S8192x512.size a
  hwx1_4 : ∀ i : grid1.Coords, EltTy.bits .f32 = 32 ∨ (Rect.block (s := S8192x512) S2048x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .bf16 = 32 ∨ (Rect.block (s := S8192x512) S1024x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S8192x512.size a
  hwx2_4 : ∀ i : grid2.Coords, EltTy.bits .f32 = 32 ∨ (Rect.block (s := S8192x512) S2048x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .bf16 = 32 ∨ (Rect.block (s := S8192x8192) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .bf16 = 32 ∨ (Rect.block (s := S8192x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .bf16 = 32 ∨ (Rect.block (s := S512x512) S512x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x512.size a ≤ S8192x512.size a
  hwx3_4 : ∀ i : grid3.Coords, EltTy.bits .f32 = 32 ∨ (Rect.block (s := S8192x512) S2048x512.size (cc3_transform_4 i) (hinb3_4 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v44) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v44) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S2048x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x16 : Shape := ⟨2, ![8192, 16]⟩
abbrev S128x512 : Shape := ⟨2, ![128, 512]⟩
abbrev S512 : Shape := ⟨1, ![512]⟩
abbrev S512x512 : Shape := ⟨2, ![512, 512]⟩
abbrev S8192 : Shape := ⟨1, ![8192]⟩
abbrev S8192x1 : Shape := ⟨2, ![8192, 1]⟩
abbrev S_ : Shape := ⟨0, ![]⟩
abbrev S8192x8192 : Shape := ⟨2, ![8192, 8192]⟩
abbrev S131072 : Shape := ⟨1, ![131072]⟩
abbrev S131072x1 : Shape := ⟨2, ![131072, 1]⟩
abbrev S131072x2 : Shape := ⟨2, ![131072, 2]⟩
abbrev S1x8192 : Shape := ⟨2, ![1, 8192]⟩
abbrev S8192x512 : Shape := ⟨2, ![8192, 512]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .i32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8192, .i32⟩
  | .hbm, ⟨11, _⟩ => ⟨S8192x1, .i32⟩
  | .hbm, ⟨12, _⟩ => ⟨S8192x16, .i32⟩
  | .hbm, ⟨13, _⟩ => ⟨S_, .i32⟩
  | .hbm, ⟨14, _⟩ => ⟨S8192x16, .i32⟩
  | .hbm, ⟨15, _⟩ => ⟨S8192x16, .i1⟩
  | .hbm, ⟨16, _⟩ => ⟨S_, .i32⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S8192x16, .f32⟩
  | .hbm, ⟨21, _⟩ => ⟨S_, .f32⟩
  | .hbm, ⟨22, _⟩ => ⟨S8192x8192, .f32⟩
  | .hbm, ⟨23, _⟩ => ⟨S131072, .i32⟩
  | .hbm, ⟨24, _⟩ => ⟨S131072, .i32⟩
  | .hbm, ⟨25, _⟩ => ⟨S131072, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072x1, .i32⟩
  | .hbm, ⟨42, _⟩ => ⟨S131072x2, .i32⟩
  | .hbm, ⟨43, _⟩ => ⟨S8192x8192, .f32⟩
  | .hbm, ⟨44, _⟩ => ⟨S8192x8192, .i32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .i1⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S1x8192, .f32⟩
  | .hbm, ⟨68, _⟩ => ⟨S8192x8192, .f32⟩
  | .hbm, ⟨69, _⟩ => ⟨S8192x8192, .f32⟩
  | .hbm, ⟨70, _⟩ => ⟨S8192x512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S1x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S1x512, .f32⟩
  | .hbm, ⟨93, _⟩ => ⟨S8192x512, .f32⟩
  | .hbm, ⟨94, _⟩ => ⟨S8192x512, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  bcast_S_S8192x8192 : S_.BroadcastsInDim S8192x8192 (![] : Fin 0 → Fin S8192x8192.rank)
  shapeCasts_S8192x16_S131072 : S8192x16.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  scatter_S8192x8192_S131072x2_S131072_n_01_01_1_wf : ScatterDims.WF S8192x8192 S131072x2 S131072 [] [0, 1] [0, 1] 1
  dot_S8192x128_S128x512_S8192x512_1_0_0_1_n_n_wf : DotDims.WF S8192x128 S128x512 S8192x512 [1] [0] [0] [1] [] []
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.KBDefs0.lean ====
/-
  Region 0 of the kernel program (the embedding layer): what the pipeline's proof data say about it.
  The body multiplies a 2048-row block of the node features by the whole embedding matrix (a matrix
  product into a zero accumulator) and adds the bias row, broadcast down the rows; it stores the
  2048 x 512 result block whole.  Everything is stated at a parameter `V`: the contents of the
  TensorCore's buffers when the region is entered.
-/
import proofs.«125958_j34282428956966_1_alg».proof.Proof.Gen.Kernel.Launch
import proofs.«125958_j34282428956966_1_alg».proof.Proof.Gen.Kernel.Skeleton
import proofs.«125958_j34282428956966_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 0 finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S2048x128 := Rect.unit (s := S2048x128) ![0, 0] S2048x128.size inb_S2048x128_S2048x128_0_0
abbrev rW0 : Rect S128x512 := Rect.unit (s := S128x512) ![0, 0] S128x512.size inb_S128x512_S128x512_0_0
abbrev rB0 : Rect S1x512 := Rect.unit (s := S1x512) ![0, 0] S1x512.size inb_S1x512_S1x512_0_0
abbrev rO0 : Rect S2048x512 := Rect.unit (s := S2048x512) ![0, 0] S2048x512.size inb_S2048x512_S2048x512_0_0

/-- What the body leaves in the output window's staging buffer: its one store, of the product of the
    feature block with the weights plus the bias row, as a list of pieces. -/
def outR0 (x : Vec F S2048x128 .f32) (w : Vec F S128x512 .f32) (b : Vec F S1x512 .f32) : Vec F S2048x512 .f32 :=
  View.canon [⟨rO0, k0_pay1 (View.ld x rX0) (View.ld w rW0) (View.ld b rB0)⟩]

/-- The proof data of pipeline 0 on core `c`: the arrays as the region finds them; after the body at
    point `t` each input's buffer at its block and the output's at `outR0` of the input blocks; the
    invariant is the scoped buffers and the generator register, untouched; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => outR0 (iblkR0 V c 0 t) (iblkR0 V c 1 t) (iblkR0 V c 2 t)
  Φ _ := Pipeline.ΦA spec0 c
  q _ := fullShare
  owed _ := 0

theorem A_eqR0 (c : Dev nD) (w : Fin cfg0.W) : (datR0 V c).A w = V c (Pipeline.arrRef spec0 w) := by
  dsimp only [datR0]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) :
    (datR0 V c).after 3 t = outR0 (iblkR0 V c 0 t) (iblkR0 V c 1 t) (iblkR0 V c 2 t) := by dsimp only [datR0]

end Cert.Kernel.H

end
-- ==== Proof.KBDefs1.lean ====
/-
  Region 1 of the kernel program (a graph-convolution layer): what the pipeline's proof data say about it.
  The grid is 4 row blocks by 8 column blocks, point t = 8 i + k.  At every point the body adds to a
  2048 x 512 accumulator, kept in a scratch buffer across points, the product of the (i, k) block of the
  normalized adjacency matrix with the k-th row block of the features; at k = 0 it first clears the
  accumulator; at k = 7 it multiplies the accumulator by the layer's weights, adds the bias row (and
  applies the rectifier where the layer has one) and stores the output block, which is idle elsewhere.
  Everything is stated at a parameter `V`: the buffers' contents when the region is entered.
-/
import proofs.«125958_j34282428956966_1_alg».proof.Proof.Gen.Kernel.Launch
import proofs.«125958_j34282428956966_1_alg».proof.Proof.Gen.Kernel.Skeleton
import proofs.«125958_j34282428956966_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 1 finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a whole memref. -/
abbrev scMR1 : Memref sig .tc .vmem S2048x512 .f32 := Memref.whole cc1_scratch0

/-- The accumulator after a point with k = 0: cleared, then the block product added. -/
def accAR1 (a : Vec F S2048x1024 .bf16) (x : Vec F S1024x512 .bf16) : Vec F S2048x512 .f32 :=
  k1_pay2 (k1_pay1 (F := F)) a x
/-- The accumulator after a point with k > 0: the block product added to what the point before left. -/
def accBR1 (s : Vec F S2048x512 .f32) (a : Vec F S2048x1024 .bf16) (x : Vec F S1024x512 .bf16) : Vec F S2048x512 .f32 :=
  k1_pay2 s a x
/-- The output block stored at k = 7 from the finished accumulator `s`. -/
def outCR1 (s : Vec F S2048x512 .f32) (w : Vec F S512x512 .bf16) (b : Vec F S1x512 .f32) : Vec F S2048x512 .f32 :=
  k1_pay3 s w b

/-- What the output window's staging buffer (first component; a placeholder where the window is idle) and the
    accumulator (second component) hold after the body at position `n`, by recursion on the position. -/
def outsAtR1 (c : Dev nD) : (n : ℕ) → n < cfg1.N → Vec F S2048x512 .f32 × Vec F S2048x512 .f32
  | 0, hn => (k1_pay1 (F := F), accAR1 (iblkR1 V c 0 ⟨0, hn⟩) (iblkR1 V c 1 ⟨0, hn⟩))
  | n + 1, hn =>
    if (n + 1) % 8 = 0 then
      (k1_pay1 (F := F), accAR1 (iblkR1 V c 0 ⟨n + 1, hn⟩) (iblkR1 V c 1 ⟨n + 1, hn⟩))
    else if (n + 1) % 8 = 7 then
      (outCR1 (accBR1 (outsAtR1 c n (Nat.lt_of_succ_lt hn)).2 (iblkR1 V c 0 ⟨n + 1, hn⟩) (iblkR1 V c 1 ⟨n + 1, hn⟩))
          (iblkR1 V c 2 ⟨n + 1, hn⟩) (iblkR1 V c 3 ⟨n + 1, hn⟩),
        accBR1 (outsAtR1 c n (Nat.lt_of_succ_lt hn)).2 (iblkR1 V c 0 ⟨n + 1, hn⟩) (iblkR1 V c 1 ⟨n + 1, hn⟩))
    else
      (k1_pay1 (F := F), accBR1 (outsAtR1 c n (Nat.lt_of_succ_lt hn)).2 (iblkR1 V c 0 ⟨n + 1, hn⟩) (iblkR1 V c 1 ⟨n + 1, hn⟩))

/-- At a point with k = 0. -/
theorem outsAtR1_A (c : Dev nD) (t : Fin cfg1.N) (h0 : t.val % 8 = 0) :
    outsAtR1 V c t.val t.isLt = (k1_pay1 (F := F), accAR1 (iblkR1 V c 0 t) (iblkR1 V c 1 t)) := by
  obtain ⟨n, hn⟩ := t
  cases n with
  | zero => rfl
  | succ n => exact (if_pos h0).trans rfl

/-- At a point with 0 < k < 7. -/
theorem outsAtR1_B (c : Dev nD) (t : Fin cfg1.N) (h0 : ¬t.val % 8 = 0) (h1 : ¬t.val % 8 = 7) :
    outsAtR1 V c t.val t.isLt = (k1_pay1 (F := F),
      accBR1 (outsAtR1 V c (t.val - 1) (Nat.lt_of_le_of_lt (Nat.sub_le _ _) t.isLt)).2 (iblkR1 V c 0 t) (iblkR1 V c 1 t)) := by
  obtain ⟨n, hn⟩ := t
  cases n with
  | zero => exact absurd (Nat.zero_mod _) h0
  | succ n => exact (if_neg h0).trans ((if_neg h1).trans rfl)

/-- At a point with k = 7. -/
theorem outsAtR1_C (c : Dev nD) (t : Fin cfg1.N) (h0 : ¬t.val % 8 = 0) (h1 : t.val % 8 = 7) :
    outsAtR1 V c t.val t.isLt =
      (outCR1 (accBR1 (outsAtR1 V c (t.val - 1) (Nat.lt_of_le_of_lt (Nat.sub_le _ _) t.isLt)).2 (iblkR1 V c 0 t) (iblkR1 V c 1 t))
          (iblkR1 V c 2 t) (iblkR1 V c 3 t),
        accBR1 (outsAtR1 V c (t.val - 1) (Nat.lt_of_le_of_lt (Nat.sub_le _ _) t.isLt)).2 (iblkR1 V c 0 t) (iblkR1 V c 1 t)) := by
  obtain ⟨n, hn⟩ := t
  cases n with
  | zero => exact absurd (Nat.zero_mod _) h0
  | succ n => exact (if_neg h0).trans ((if_pos h1).trans rfl)

/-- The region invariant before position `n`: before the first point every scoped buffer at anything and the
    generator register at some state; afterwards the accumulator at what the point before left, the other scoped
    buffers at anything, the generator register at some state. -/
def PhiSR1 (c : Dev nD) : (n : ℕ) → n ≤ cfg1.N → sProp 𝕄
  | 0, _ => Pipeline.ΦA spec1 c
  | n + 1, hn => iprop(owns (c : Thread nD τ) scMR1 fullShare ((outsAtR1 V c n hn).2)
      ∗ Pipeline.scopedRestBut (Ix := Unit) (Name := ℕ) (U := UR sig nD τ) (Lvl := ℕ) (Val := Elt F) spec1 c [cc1_scratch0]
      ∗ (∃ r, prngReg c r))

theorem PhiSR1_zero (c : Dev nD) (n : ℕ) (h : n ≤ cfg1.N) (hz : n = 0) : PhiSR1 V c n h = Pipeline.ΦA spec1 c := by
  subst hz; rfl
theorem PhiSR1_succ (c : Dev nD) (n : ℕ) (hn : n < cfg1.N) :
    PhiSR1 V c (n + 1) hn = iprop(owns (c : Thread nD τ) scMR1 fullShare ((outsAtR1 V c n hn).2)
      ∗ Pipeline.scopedRestBut (Ix := Unit) (Name := ℕ) (U := UR sig nD τ) (Lvl := ℕ) (Val := Elt F) spec1 c [cc1_scratch0]
      ∗ (∃ r, prngReg c r)) := rfl
theorem PhiSR1_pos (c : Dev nD) (n : ℕ) (h : n ≤ cfg1.N) (hz : n ≠ 0) :
    PhiSR1 V c n h = iprop(owns (c : Thread nD τ) scMR1 fullShare ((outsAtR1 V c (n - 1) (by omega)).2)
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The proof data of pipeline 1 on core `c`. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]
theorem PhiSR1_castSucc (c : Dev nD) (t : Fin cfg1.N) :
    (datR1 V c).Φ t.castSucc = PhiSR1 V c t.val (Nat.le_of_lt t.isLt) := by
  dsimp only [datR1]; simp only [Fin.coe_castSucc]
theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = (outsAtR1 V c t.val t.isLt).1 := by dsimp only [datR1]

end Cert.Kernel.H

end
-- ==== Proof.KBDefs2.lean ====
/-
  Region 2 of the kernel program (a graph-convolution layer): what the pipeline's proof data say about it.
  The grid is 4 row blocks by 8 column blocks, point t = 8 i + k.  At every point the body adds to a
  2048 x 512 accumulator, kept in a scratch buffer across points, the product of the (i, k) block of the
  normalized adjacency matrix with the k-th row block of the features; at k = 0 it first clears the
  accumulator; at k = 7 it multiplies the accumulator by the layer's weights, adds the bias row (and
  applies the rectifier where the layer has one) and stores the output block, which is idle elsewhere.
  Everything is stated at a parameter `V`: the buffers' contents when the region is entered.
-/
import proofs.«125958_j34282428956966_1_alg».proof.Proof.Gen.Kernel.Launch
import proofs.«125958_j34282428956966_1_alg».proof.Proof.Gen.Kernel.Skeleton
import proofs.«125958_j34282428956966_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 2 finds it. -/
def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator as a whole memref. -/
abbrev scMR2 : Memref sig .tc .vmem S2048x512 .f32 := Memref.whole cc2_scratch0

/-- The accumulator after a point with k = 0: cleared, then the block product added. -/
def accAR2 (a : Vec F S2048x1024 .bf16) (x : Vec F S1024x512 .bf16) : Vec F S2048x512 .f32 :=
  k2_pay2 (k2_pay1 (F := F)) a x
/-- The accumulator after a point with k > 0: the block product added to what the point before left. -/
def accBR2 (s : Vec F S2048x512 .f32) (a : Vec F S2048x1024 .bf16) (x : Vec F S1024x512 .bf16) : Vec F S2048x512 .f32 :=
  k2_pay2 s a x
/-- The output block stored at k = 7 from the finished accumulator `s`. -/
def outCR2 (s : Vec F S2048x512 .f32) (w : Vec F S512x512 .bf16) (b : Vec F S1x512 .f32) : Vec F S2048x512 .f32 :=
  k2_pay3 s w b

/-- What the output window's staging buffer (first component; a placeholder where the window is idle) and the
    accumulator (second component) hold after the body at position `n`, by recursion on the position. -/
def outsAtR2 (c : Dev nD) : (n : ℕ) → n < cfg2.N → Vec F S2048x512 .f32 × Vec F S2048x512 .f32
  | 0, hn => (k2_pay1 (F := F), accAR2 (iblkR2 V c 0 ⟨0, hn⟩) (iblkR2 V c 1 ⟨0, hn⟩))
  | n + 1, hn =>
    if (n + 1) % 8 = 0 then
      (k2_pay1 (F := F), accAR2 (iblkR2 V c 0 ⟨n + 1, hn⟩) (iblkR2 V c 1 ⟨n + 1, hn⟩))
    else if (n + 1) % 8 = 7 then
      (outCR2 (accBR2 (outsAtR2 c n (Nat.lt_of_succ_lt hn)).2 (iblkR2 V c 0 ⟨n + 1, hn⟩) (iblkR2 V c 1 ⟨n + 1, hn⟩))
          (iblkR2 V c 2 ⟨n + 1, hn⟩) (iblkR2 V c 3 ⟨n + 1, hn⟩),
        accBR2 (outsAtR2 c n (Nat.lt_of_succ_lt hn)).2 (iblkR2 V c 0 ⟨n + 1, hn⟩) (iblkR2 V c 1 ⟨n + 1, hn⟩))
    else
      (k2_pay1 (F := F), accBR2 (outsAtR2 c n (Nat.lt_of_succ_lt hn)).2 (iblkR2 V c 0 ⟨n + 1, hn⟩) (iblkR2 V c 1 ⟨n + 1, hn⟩))

/-- At a point with k = 0. -/
theorem outsAtR2_A (c : Dev nD) (t : Fin cfg2.N) (h0 : t.val % 8 = 0) :
    outsAtR2 V c t.val t.isLt = (k2_pay1 (F := F), accAR2 (iblkR2 V c 0 t) (iblkR2 V c 1 t)) := by
  obtain ⟨n, hn⟩ := t
  cases n with
  | zero => rfl
  | succ n => exact (if_pos h0).trans rfl

/-- At a point with 0 < k < 7. -/
theorem outsAtR2_B (c : Dev nD) (t : Fin cfg2.N) (h0 : ¬t.val % 8 = 0) (h1 : ¬t.val % 8 = 7) :
    outsAtR2 V c t.val t.isLt = (k2_pay1 (F := F),
      accBR2 (outsAtR2 V c (t.val - 1) (Nat.lt_of_le_of_lt (Nat.sub_le _ _) t.isLt)).2 (iblkR2 V c 0 t) (iblkR2 V c 1 t)) := by
  obtain ⟨n, hn⟩ := t
  cases n with
  | zero => exact absurd (Nat.zero_mod _) h0
  | succ n => exact (if_neg h0).trans ((if_neg h1).trans rfl)

/-- At a point with k = 7. -/
theorem outsAtR2_C (c : Dev nD) (t : Fin cfg2.N) (h0 : ¬t.val % 8 = 0) (h1 : t.val % 8 = 7) :
    outsAtR2 V c t.val t.isLt =
      (outCR2 (accBR2 (outsAtR2 V c (t.val - 1) (Nat.lt_of_le_of_lt (Nat.sub_le _ _) t.isLt)).2 (iblkR2 V c 0 t) (iblkR2 V c 1 t))
          (iblkR2 V c 2 t) (iblkR2 V c 3 t),
        accBR2 (outsAtR2 V c (t.val - 1) (Nat.lt_of_le_of_lt (Nat.sub_le _ _) t.isLt)).2 (iblkR2 V c 0 t) (iblkR2 V c 1 t)) := by
  obtain ⟨n, hn⟩ := t
  cases n with
  | zero => exact absurd (Nat.zero_mod _) h0
  | succ n => exact (if_neg h0).trans ((if_pos h1).trans rfl)

/-- The region invariant before position `n`: before the first point every scoped buffer at anything and the
    generator register at some state; afterwards the accumulator at what the point before left, the other scoped
    buffers at anything, the generator register at some state. -/
def PhiSR2 (c : Dev nD) : (n : ℕ) → n ≤ cfg2.N → sProp 𝕄
  | 0, _ => Pipeline.ΦA spec2 c
  | n + 1, hn => iprop(owns (c : Thread nD τ) scMR2 fullShare ((outsAtR2 V c n hn).2)
      ∗ Pipeline.scopedRestBut (Ix := Unit) (Name := ℕ) (U := UR sig nD τ) (Lvl := ℕ) (Val := Elt F) spec2 c [cc2_scratch0]
      ∗ (∃ r, prngReg c r))

theorem PhiSR2_zero (c : Dev nD) (n : ℕ) (h : n ≤ cfg2.N) (hz : n = 0) : PhiSR2 V c n h = Pipeline.ΦA spec2 c := by
  subst hz; rfl
theorem PhiSR2_succ (c : Dev nD) (n : ℕ) (hn : n < cfg2.N) :
    PhiSR2 V c (n + 1) hn = iprop(owns (c : Thread nD τ) scMR2 fullShare ((outsAtR2 V c n hn).2)
      ∗ Pipeline.scopedRestBut (Ix := Unit) (Name := ℕ) (U := UR sig nD τ) (Lvl := ℕ) (Val := Elt F) spec2 c [cc2_scratch0]
      ∗ (∃ r, prngReg c r)) := rfl
theorem PhiSR2_pos (c : Dev nD) (n : ℕ) (h : n ≤ cfg2.N) (hz : n ≠ 0) :
    PhiSR2 V c n h = iprop(owns (c : Thread nD τ) scMR2 fullShare ((outsAtR2 V c (n - 1) (by omega)).2)
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The proof data of pipeline 2 on core `c`. -/
def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => (outsAtR2 V c t.val t.isLt).1
  Φ t := PhiSR2 V c t.val (Nat.le_of_lt_succ t.isLt)
  q _ := fullShare
  owed _ := 0

theorem A_eqR2 (c : Dev nD) (w : Fin cfg2.W) : (datR2 V c).A w = V c (Pipeline.arrRef spec2 w) := by
  dsimp only [datR2]
theorem PhiSR2_castSucc (c : Dev nD) (t : Fin cfg2.N) :
    (datR2 V c).Φ t.castSucc = PhiSR2 V c t.val (Nat.le_of_lt t.isLt) := by
  dsimp only [datR2]; simp only [Fin.coe_castSucc]
theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = iblkR2 V c 2 t := by dsimp only [datR2]
theorem afterR2_3 (c : Dev nD) (t : Fin cfg2.N) : (datR2 V c).after 3 t = iblkR2 V c 3 t := by dsimp only [datR2]
theorem afterR2_4 (c : Dev nD) (t : Fin cfg2.N) : (datR2 V c).after 4 t = (outsAtR2 V c t.val t.isLt).1 := by dsimp only [datR2]

end Cert.Kernel.H

end
-- ==== Proof.KBDefs3.lean ====
/-
  Region 3 of the kernel program (a graph-convolution layer): what the pipeline's proof data say about it.
  The grid is 4 row blocks by 8 column blocks, point t = 8 i + k.  At every point the body adds to a
  2048 x 512 accumulator, kept in a scratch buffer across points, the product of the (i, k) block of the
  normalized adjacency matrix with the k-th row block of the features; at k = 0 it first clears the
  accumulator; at k = 7 it multiplies the accumulator by the layer's weights, adds the bias row (and
  applies the rectifier where the layer has one) and stores the output block, which is idle elsewhere.
  Everything is stated at a parameter `V`: the buffers' contents when the region is entered.
-/
import proofs.«125958_j34282428956966_1_alg».proof.Proof.Gen.Kernel.Launch
import proofs.«125958_j34282428956966_1_alg».proof.Proof.Gen.Kernel.Skeleton
import proofs.«125958_j34282428956966_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 3 finds it. -/
def iblkR3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator as a whole memref. -/
abbrev scMR3 : Memref sig .tc .vmem S2048x512 .f32 := Memref.whole cc3_scratch0

/-- The accumulator after a point with k = 0: cleared, then the block product added. -/
def accAR3 (a : Vec F S2048x1024 .bf16) (x : Vec F S1024x512 .bf16) : Vec F S2048x512 .f32 :=
  k3_pay2 (k3_pay1 (F := F)) a x
/-- The accumulator after a point with k > 0: the block product added to what the point before left. -/
def accBR3 (s : Vec F S2048x512 .f32) (a : Vec F S2048x1024 .bf16) (x : Vec F S1024x512 .bf16) : Vec F S2048x512 .f32 :=
  k3_pay2 s a x
/-- The output block stored at k = 7 from the finished accumulator `s`. -/
def outCR3 (s : Vec F S2048x512 .f32) (w : Vec F S512x512 .bf16) (b : Vec F S1x512 .f32) : Vec F S2048x512 .f32 :=
  k3_pay3 s w b

/-- What the output window's staging buffer (first component; a placeholder where the window is idle) and the
    accumulator (second component) hold after the body at position `n`, by recursion on the position. -/
def outsAtR3 (c : Dev nD) : (n : ℕ) → n < cfg3.N → Vec F S2048x512 .f32 × Vec F S2048x512 .f32
  | 0, hn => (k3_pay1 (F := F), accAR3 (iblkR3 V c 0 ⟨0, hn⟩) (iblkR3 V c 1 ⟨0, hn⟩))
  | n + 1, hn =>
    if (n + 1) % 8 = 0 then
      (k3_pay1 (F := F), accAR3 (iblkR3 V c 0 ⟨n + 1, hn⟩) (iblkR3 V c 1 ⟨n + 1, hn⟩))
    else if (n + 1) % 8 = 7 then
      (outCR3 (accBR3 (outsAtR3 c n (Nat.lt_of_succ_lt hn)).2 (iblkR3 V c 0 ⟨n + 1, hn⟩) (iblkR3 V c 1 ⟨n + 1, hn⟩))
          (iblkR3 V c 2 ⟨n + 1, hn⟩) (iblkR3 V c 3 ⟨n + 1, hn⟩),
        accBR3 (outsAtR3 c n (Nat.lt_of_succ_lt hn)).2 (iblkR3 V c 0 ⟨n + 1, hn⟩) (iblkR3 V c 1 ⟨n + 1, hn⟩))
    else
      (k3_pay1 (F := F), accBR3 (outsAtR3 c n (Nat.lt_of_succ_lt hn)).2 (iblkR3 V c 0 ⟨n + 1, hn⟩) (iblkR3 V c 1 ⟨n + 1, hn⟩))

/-- At a point with k = 0. -/
theorem outsAtR3_A (c : Dev nD) (t : Fin cfg3.N) (h0 : t.val % 8 = 0) :
    outsAtR3 V c t.val t.isLt = (k3_pay1 (F := F), accAR3 (iblkR3 V c 0 t) (iblkR3 V c 1 t)) := by
  obtain ⟨n, hn⟩ := t
  cases n with
  | zero => rfl
  | succ n => exact (if_pos h0).trans rfl

/-- At a point with 0 < k < 7. -/
theorem outsAtR3_B (c : Dev nD) (t : Fin cfg3.N) (h0 : ¬t.val % 8 = 0) (h1 : ¬t.val % 8 = 7) :
    outsAtR3 V c t.val t.isLt = (k3_pay1 (F := F),
      accBR3 (outsAtR3 V c (t.val - 1) (Nat.lt_of_le_of_lt (Nat.sub_le _ _) t.isLt)).2 (iblkR3 V c 0 t) (iblkR3 V c 1 t)) := by
  obtain ⟨n, hn⟩ := t
  cases n with
  | zero => exact absurd (Nat.zero_mod _) h0
  | succ n => exact (if_neg h0).trans ((if_neg h1).trans rfl)

/-- At a point with k = 7. -/
theorem outsAtR3_C (c : Dev nD) (t : Fin cfg3.N) (h0 : ¬t.val % 8 = 0) (h1 : t.val % 8 = 7) :
    outsAtR3 V c t.val t.isLt =
      (outCR3 (accBR3 (outsAtR3 V c (t.val - 1) (Nat.lt_of_le_of_lt (Nat.sub_le _ _) t.isLt)).2 (iblkR3 V c 0 t) (iblkR3 V c 1 t))
          (iblkR3 V c 2 t) (iblkR3 V c 3 t),
        accBR3 (outsAtR3 V c (t.val - 1) (Nat.lt_of_le_of_lt (Nat.sub_le _ _) t.isLt)).2 (iblkR3 V c 0 t) (iblkR3 V c 1 t)) := by
  obtain ⟨n, hn⟩ := t
  cases n with
  | zero => exact absurd (Nat.zero_mod _) h0
  | succ n => exact (if_neg h0).trans ((if_pos h1).trans rfl)

/-- The region invariant before position `n`: before the first point every scoped buffer at anything and the
    generator register at some state; afterwards the accumulator at what the point before left, the other scoped
    buffers at anything, the generator register at some state. -/
def PhiSR3 (c : Dev nD) : (n : ℕ) → n ≤ cfg3.N → sProp 𝕄
  | 0, _ => Pipeline.ΦA spec3 c
  | n + 1, hn => iprop(owns (c : Thread nD τ) scMR3 fullShare ((outsAtR3 V c n hn).2)
      ∗ Pipeline.scopedRestBut (Ix := Unit) (Name := ℕ) (U := UR sig nD τ) (Lvl := ℕ) (Val := Elt F) spec3 c [cc3_scratch0]
      ∗ (∃ r, prngReg c r))

theorem PhiSR3_zero (c : Dev nD) (n : ℕ) (h : n ≤ cfg3.N) (hz : n = 0) : PhiSR3 V c n h = Pipeline.ΦA spec3 c := by
  subst hz; rfl
theorem PhiSR3_succ (c : Dev nD) (n : ℕ) (hn : n < cfg3.N) :
    PhiSR3 V c (n + 1) hn = iprop(owns (c : Thread nD τ) scMR3 fullShare ((outsAtR3 V c n hn).2)
      ∗ Pipeline.scopedRestBut (Ix := Unit) (Name := ℕ) (U := UR sig nD τ) (Lvl := ℕ) (Val := Elt F) spec3 c [cc3_scratch0]
      ∗ (∃ r, prngReg c r)) := rfl
theorem PhiSR3_pos (c : Dev nD) (n : ℕ) (h : n ≤ cfg3.N) (hz : n ≠ 0) :
    PhiSR3 V c n h = iprop(owns (c : Thread nD τ) scMR3 fullShare ((outsAtR3 V c (n - 1) (by omega)).2)
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The proof data of pipeline 3 on core `c`. -/
def datR3 (c : Dev nD) : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => iblkR3 V c 3 t
    | ⟨4, _⟩ => (outsAtR3 V c t.val t.isLt).1
  Φ t := PhiSR3 V c t.val (Nat.le_of_lt_succ t.isLt)
  q _ := fullShare
  owed _ := 0

theorem A_eqR3 (c : Dev nD) (w : Fin cfg3.W) : (datR3 V c).A w = V c (Pipeline.arrRef spec3 w) := by
  dsimp only [datR3]
theorem PhiSR3_castSucc (c : Dev nD) (t : Fin cfg3.N) :
    (datR3 V c).Φ t.castSucc = PhiSR3 V c t.val (Nat.le_of_lt t.isLt) := by
  dsimp only [datR3]; simp only [Fin.coe_castSucc]
theorem afterR3_0 (c : Dev nD) (t : Fin cfg3.N) : (datR3 V c).after 0 t = iblkR3 V c 0 t := by dsimp only [datR3]
theorem afterR3_1 (c : Dev nD) (t : Fin cfg3.N) : (datR3 V c).after 1 t = iblkR3 V c 1 t := by dsimp only [datR3]
theorem afterR3_2 (c : Dev nD) (t : Fin cfg3.N) : (datR3 V c).after 2 t = iblkR3 V c 2 t := by dsimp only [datR3]
theorem afterR3_3 (c : Dev nD) (t : Fin cfg3.N) : (datR3 V c).after 3 t = iblkR3 V c 3 t := by dsimp only [datR3]
theorem afterR3_4 (c : Dev nD) (t : Fin cfg3.N) : (datR3 V c).after 4 t = (outsAtR3 V c t.val t.isLt).1 := by dsimp only [datR3]

end Cert.Kernel.H

end
-- ==== Proof.KBVals.lean ====
/-
  The contents of the TensorCore's buffers between the items of the kernel program's @main, from the launch
  memory `m`: a host stretch leaves what its operations compute (`StableHlo.after`), a kernel region leaves its
  output array at what its pipeline's write-backs fold to (`Dat.arrAt` at the last point) and every other buffer
  as it found it.  `XJ m c` is core `c`'s valuation after item J - 1; `oJ m c` the array a region leaves.
-/
import proofs.«125958_j34282428956966_1_alg».proof.Proof.KBDefs0
import proofs.«125958_j34282428956966_1_alg».proof.Proof.KBDefs1
import proofs.«125958_j34282428956966_1_alg».proof.Proof.KBDefs2
import proofs.«125958_j34282428956966_1_alg».proof.Proof.KBDefs3
import proofs.«125958_j34282428956966_1_alg».proof.Proof.Gen.Kernel.Regions

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references: the form the regions' proof data take. -/
abbrev atTc (W : Dev nD → Valuation τ sig (Elt F)) : (c : Dev nD) → (b : Ref sig .tc) → Buf (Elt F) ((c : Thread nD τ).loc b) :=
  fun c b => W c b

/-- Before region 0: the launch memory after the five host stretches that build the normalized adjacency matrix
    and reshape the embedding bias. -/
abbrev X5 (c : Dev nD) : Valuation τ sig (Elt F) := V5 m c
/-- What region 0 leaves in its output array. -/
def o6 (c : Dev nD) : Buf (Elt F) ((c : Thread nD τ).loc main_v46) := (datR0 (atTc (X5 m)) c).arrAt 3 cfg0.N
/-- After region 0. -/
def X6 (c : Dev nD) : Valuation τ sig (Elt F) := Function.update (X5 m c) main_v46 (o6 m c)
/-- After the host stretch between regions 0 and 1 (format changes and a bias reshape). -/
abbrev X7 (c : Dev nD) : Valuation τ sig (Elt F) := StableHlo.after hostOps1 (X6 m c)
/-- What region 1 leaves in its output array. -/
def o8 (c : Dev nD) : Buf (Elt F) ((c : Thread nD τ).loc main_v50) := (datR1 (atTc (X7 m)) c).arrAt 4 cfg1.N
/-- After region 1. -/
def X8 (c : Dev nD) : Valuation τ sig (Elt F) := Function.update (X7 m c) main_v50 (o8 m c)
abbrev X9 (c : Dev nD) : Valuation τ sig (Elt F) := StableHlo.after hostOps2 (X8 m c)
/-- What region 2 leaves in its output array. -/
def o10 (c : Dev nD) : Buf (Elt F) ((c : Thread nD τ).loc main_v54) := (datR2 (atTc (X9 m)) c).arrAt 4 cfg2.N
/-- After region 2. -/
def X10 (c : Dev nD) : Valuation τ sig (Elt F) := Function.update (X9 m c) main_v54 (o10 m c)
abbrev X11 (c : Dev nD) : Valuation τ sig (Elt F) := StableHlo.after hostOps3 (X10 m c)
/-- What region 3 leaves in its output array: the program's result. -/
def o12 (c : Dev nD) : Buf (Elt F) ((c : Thread nD τ).loc main_v58) := (datR3 (atTc (X11 m)) c).arrAt 4 cfg3.N
/-- After region 3: the end of @main. -/
def X12 (c : Dev nD) : Valuation τ sig (Elt F) := Function.update (X11 m c) main_v58 (o12 m c)

end Cert.Kernel.H

end
-- ==== Proof.KBBody0.lean ====
/- Region 0 (the embedding layer): the kernel body meets the pipeline's obligation at every grid point. -/
import proofs.«125958_j34282428956966_1_alg».proof.Proof.KBDefs0

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The node-feature window (a fresh 2048-row block at every grid point): at every point its current staging
    buffer holds that point's block of the feature array. -/
theorem beforeR0_0 (c : Dev nD) (t : Fin cfg0.N) (d) : (datR0 V c).before 0 t d = iblkR0 V c 0 t :=
  ((datR0 V c).before_in_eq_fetched 0 rfl (fun _ => rfl) (fun _ _ _ => rfl)
    (fun t => by rw [afterR0_0]; unfold Dat.blockOf iblkR0; rw [A_eqR0]; try rfl) t d).trans
    (by unfold Dat.fetched Dat.blockOf iblkR0; rw [A_eqR0]; try rfl)

/-- The embedding-matrix window (one block, the whole matrix, brought in at the first point only): the body
    leaves it in place, so at every later point the buffer still holds it, and the block index never moves. -/
theorem beforeR0_1 (c : Dev nD) (t : Fin cfg0.N) (d) : (datR0 V c).before 1 t d = iblkR0 V c 1 t :=
  ((datR0 V c).before_in_eq_fetched 1 rfl (fun _ => rfl) (fun _ _ _ => rfl)
    (fun t => by rw [afterR0_1]; unfold Dat.blockOf iblkR0; rw [A_eqR0]; try rfl) t d).trans
    (by unfold Dat.fetched Dat.blockOf iblkR0; rw [A_eqR0]; try rfl)

/-- The bias-row window: as the embedding matrix, one block kept from the first point on. -/
theorem beforeR0_2 (c : Dev nD) (t : Fin cfg0.N) (d) : (datR0 V c).before 2 t d = iblkR0 V c 2 t :=
  ((datR0 V c).before_in_eq_fetched 2 rfl (fun _ => rfl) (fun _ _ _ => rfl)
    (fun t => by rw [afterR0_2]; unfold Dat.blockOf iblkR0; rw [A_eqR0]; try rfl) t d).trans
    (by unfold Dat.fetched Dat.blockOf iblkR0; rw [A_eqR0]; try rfl)

/-! ## The one store covers the output block -/

/-- The single stored rectangle is the whole 2048 x 512 block, so every cell of the block lies in it. -/
theorem coverR0 (p : Vec F S2048x512 .f32) (y : S2048x512.Idx) :
    ∃ pc ∈ ([⟨rO0, p⟩] : List (View.Piece (Elt F) S2048x512 .f32)), y ∈ pc.1.set :=
  View.cover_of_tiled [⟨rO0, p⟩] S2048x512.size (by rfl) y

/-! ## The body's triple -/

set_option maxHeartbeats 1000000 in
/-- The body on whole staging buffers: with the three inputs' buffers at contents `x`, `w`, `b` and the
    output's at anything, it runs to a state where the inputs are as they were and the output buffer holds
    `outR0 x w b`.  The body reads the three inputs whole, also reads the output buffer (a value it never
    uses), and overwrites the output buffer whole with the product plus the bias. -/
theorem sound_kernelR0 (c : Dev nD) (E : Set ℕ) (i : grid0.Coords)
    (arg1 : Memref sig .tc .vmem S2048x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2048x512 .f32) (harg4 : arg4.IsWhole)
    (x : Vec F S2048x128 .f32) (w : Vec F S128x512 .f32) (b : Vec F S1x512 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (outR0 x w b)) -∗ K ⟨⟩))
      ⊢ wp frame (wpE (defs₀ (F := F)) Variants.none c none) E
          (cc0__embed_kernel i arg1 harg1 arg2 harg2 arg3 harg3 arg4 harg4) K := by
  simp only [cc0__embed_kernel_eq_skeleton]; unfold cc0__embed_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverR0 _)

/-! ## The obligation at one grid point -/

/-- What the body is handed at point `t`: the region's invariant, the core's debt record, and each window's
    current staging buffer at what the pipeline left there. -/
def bodyPreR0 (c : Dev nD) (t : Fin cfg0.N) : sProp 𝕄 :=
  iprop((datR0 V c).Φ t.castSucc ∗ (datR0 V c).owesAt () t.castSucc
    ∗ (∃ d, owns (c : Thread nD τ) (st0_0 t) fullShare ((datR0 V c).before 0 t d))
    ∗ (∃ d, owns (c : Thread nD τ) (st0_1 t) fullShare ((datR0 V c).before 1 t d))
    ∗ (∃ d, owns (c : Thread nD τ) (st0_2 t) fullShare ((datR0 V c).before 2 t d))
    ∗ (∃ d, owns (c : Thread nD τ) (st0_3 t) fullShare ((datR0 V c).before 3 t d)))

/-- What it hands back: the same invariant and debt record, and each buffer at the proof data's "after". -/
def bodyPostR0 (c : Dev nD) (t : Fin cfg0.N) : sProp 𝕄 :=
  iprop((datR0 V c).Φ t.succ ∗ (datR0 V c).owesAt () t.succ
    ∗ owns (c : Thread nD τ) (st0_0 t) fullShare ((datR0 V c).after 0 t)
    ∗ owns (c : Thread nD τ) (st0_1 t) fullShare ((datR0 V c).after 1 t)
    ∗ owns (c : Thread nD τ) (st0_2 t) fullShare ((datR0 V c).after 2 t)
    ∗ owns (c : Thread nD τ) (st0_3 t) fullShare ((datR0 V c).after 3 t))

/-- The body at any point: the three input buffers hold their blocks, so the triple above applies with those
    blocks; the invariant and the debt record are not touched and pass through. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2]
  rw [show (datR0 V c).Φ t.succ = (datR0 V c).Φ t.castSucc from rfl,
    show (datR0 V c).owesAt () t.succ = (datR0 V c).owesAt () t.castSucc from rfl,
    afterR0_0, afterR0_1, afterR0_2, afterR0_3]
  iintro ⟨HΦ, Ho, ⟨%d0, H0⟩, ⟨%d1, H1⟩, ⟨%d2, H2⟩, ⟨%d3, H3⟩⟩
  iapply (sound_kernelR0 c Set.univ _ _ _ _ _ _ _ _ _ (iblkR0 V c 0 t) (iblkR0 V c 1 t) (iblkR0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligationR0 (c : Dev nD) : BodyObligation (datR0 (F := F) V c) (defs₀ (F := F)) Variants.none () Set.univ := fun t => by
  rw [bigSep_W0, bigSep_W0]
  exact sound_bodyR0 V c t

end Cert.Kernel.H

end
-- ==== Proof.KBBody1.lean ====
/- Region 1 (a graph-convolution layer): the kernel body meets the pipeline's obligation at every grid point, and the region invariant's two ends. -/
import proofs.«125958_j34282428956966_1_alg».proof.Proof.KBDefs1
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test: the column-block coordinate is zero. -/
abbrev cond0R1 (i : grid1.Coords) : Prop := (Scalar.cmpi .ne (Scalar.extui (Scalar.cmpi .eq (BitVec.ofNat 32 (i 1).val) 0#32)) 0#32) = 1#1
/-- The second conditional's test: the column-block coordinate is the last. -/
abbrev cond1R1 (i : grid1.Coords) : Prop := k1_cond2 i = 1#1

/-- The zero offsets of a whole-block rectangle, however they are spelt. -/
theorem hzR1 : (![0, 0] : Fin 2 → Nat) = fun _ => 0 := funext fun a => by fin_cases a <;> rfl

/-- A list of stores whose last is a whole-block store covers the block. -/
theorem coverR1 {e : EltTy} (w : S2048x512.Idx → Elt F e) (L : List (View.Piece (Elt F) S2048x512 e)) (y : S2048x512.Idx) :
    ∃ p ∈ (⟨Rect.unit ![0, 0] S2048x512.size inb_S2048x512_S2048x512_0_0, w⟩ : View.Piece (Elt F) S2048x512 e) :: L, y ∈ p.1.set := by
  refine ⟨⟨Rect.unit ![0, 0] S2048x512.size inb_S2048x512_S2048x512_0_0, w⟩, List.mem_cons_self .., ?_⟩
  dsimp only
  exact View.mem_set_unit_zero hzR1 inb_S2048x512_S2048x512_0_0 y

/-! ## The conditions in closed form; where the windows are idle -/

/-- The first test holds at the points with k = 0 — decided over the grid. -/
theorem hcond0R1 : ∀ t : Fin cfg1.N, cond0R1 (grid1.coords t) ↔ t.val % 8 = 0 :=
  (by decide +kernel : ∀ t : Fin grid1.N, cond0R1 (grid1.coords t) ↔ t.val % 8 = 0)
/-- The second test holds at the points with k = 7 — decided over the grid. -/
theorem hcond1R1 : ∀ t : Fin cfg1.N, cond1R1 (grid1.coords t) ↔ t.val % 8 = 7 :=
  (by decide +kernel : ∀ t : Fin grid1.N, cond1R1 (grid1.coords t) ↔ t.val % 8 = 7)

/-- The input windows are never idle. -/
theorem liveAtR1_0 : ∀ t : Fin cfg1.N, cfg1.idle 0 (grid1.coords t) = false := by decide +kernel
theorem liveAtR1_1 : ∀ t : Fin cfg1.N, cfg1.idle 1 (grid1.coords t) = false := by decide +kernel
theorem liveAtR1_2 : ∀ t : Fin cfg1.N, cfg1.idle 2 (grid1.coords t) = false := by decide +kernel
theorem liveAtR1_3 : ∀ t : Fin cfg1.N, cfg1.idle 3 (grid1.coords t) = false := by decide +kernel
/-- The output window is idle, and not written back, at the points with k < 7; live at those with k = 7. -/
theorem idleAtR1_4 : ∀ t : Fin cfg1.N, ¬cond1R1 (grid1.coords t) → cfg1.idle 4 (grid1.coords t) = true := by decide +kernel
theorem noFlushR1_4 : ∀ t : Fin cfg1.N, ¬cond1R1 (grid1.coords t) → (cfg1.win 4).flush t = false := by decide +kernel
theorem liveAtR1_4 : ∀ t : Fin cfg1.N, cond1R1 (grid1.coords t) → cfg1.idle 4 (grid1.coords t) = false := by decide +kernel

/-- Each window's current staging memref at point t, spelled as the pipeline passes it, and its wholeness. -/
abbrev msR1_0 (t : Fin cfg1.N) : Memref sig .tc .vmem S2048x1024 .bf16 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S1024x512 .bf16 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S512x512 .bf16 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S1x512 .f32 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S2048x512 .f32 := win1_4.stage (cfg1.slots t 4)
abbrev hsR1_4 (t : Fin cfg1.N) : (msR1_4 t).IsWhole := hstage1_4 ((cfg1.slots t 4).cast nbuf1_4)

/-- An input window's current staging buffer holds its block at every point, fetched there or not: unfetched, the
    block index has not moved, and the body leaves the block in place. -/
theorem beforeR1_0 (c : Dev nD) (t : Fin cfg1.N) (d) : (datR1 V c).before 0 t d = iblkR1 V c 0 t :=
  ((datR1 V c).before_in_eq_fetched 0 rfl (fun _ => rfl) (fun _ _ _ => rfl) (fun t => by rw [afterR1_0]; unfold Dat.blockOf iblkR1; rw [A_eqR1]; try rfl) t d).trans
    (by unfold Dat.fetched Dat.blockOf iblkR1; rw [A_eqR1]; try rfl)
theorem beforeR1_1 (c : Dev nD) (t : Fin cfg1.N) (d) : (datR1 V c).before 1 t d = iblkR1 V c 1 t :=
  ((datR1 V c).before_in_eq_fetched 1 rfl (fun _ => rfl) (fun _ _ _ => rfl) (fun t => by rw [afterR1_1]; unfold Dat.blockOf iblkR1; rw [A_eqR1]; try rfl) t d).trans
    (by unfold Dat.fetched Dat.blockOf iblkR1; rw [A_eqR1]; try rfl)
theorem beforeR1_2 (c : Dev nD) (t : Fin cfg1.N) (d) : (datR1 V c).before 2 t d = iblkR1 V c 2 t :=
  ((datR1 V c).before_in_eq_fetched 2 rfl (fun _ => rfl) (fun _ _ _ => rfl) (fun t => by rw [afterR1_2]; unfold Dat.blockOf iblkR1; rw [A_eqR1]; try rfl) t d).trans
    (by unfold Dat.fetched Dat.blockOf iblkR1; rw [A_eqR1]; try rfl)
theorem beforeR1_3 (c : Dev nD) (t : Fin cfg1.N) (d) : (datR1 V c).before 3 t d = iblkR1 V c 3 t :=
  ((datR1 V c).before_in_eq_fetched 3 rfl (fun _ => rfl) (fun _ _ _ => rfl) (fun t => by rw [afterR1_3]; unfold Dat.blockOf iblkR1; rw [A_eqR1]; try rfl) t d).trans
    (by unfold Dat.fetched Dat.blockOf iblkR1; rw [A_eqR1]; try rfl)

/-- What the launch hands the region, with the accumulator's buffer split off the other scoped buffers and read
    as a whole memref at some contents. -/
theorem PhiAR1_eq (c : Dev nD) :
    (Pipeline.ΦA spec1 c : sProp 𝕄)
      = iprop(iprop(iprop((∃ d, owns (c : Thread nD τ) scMR1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scMR1, owns_whole]; try rfl

/-! ## The body's three control cases

One triple per case, over any whole memrefs and any contents of the literal block types. Every load and store of the
body moves a whole block, so a buffer the body stored into reads back as the last store's payload, and a load reads
the buffer's contents; an accumulator cleared and then read back reads the cleared value. -/

set_option maxHeartbeats 4000000 in
/-- Case A (k = 0): the body clears the accumulator, adds the block product to it, and touches nothing else; what the accumulator held before does not matter. -/
theorem sound_kernelAR1 (c : Dev nD) (i : grid1.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : cond0R1 i) (hc1 : ¬cond1R1 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accAR1 a x)) -∗ K ⟨⟩))
      ⊢ wp frame (wpE (defs₀ (F := F)) Variants.none c none) E (cc1__gcn_layer_kernel_relu i arg2 harg2 arg3 harg3 arg4 harg4 arg5 harg5 arg6 harg6 arg7 harg7) K := by
  simp only [cc1__gcn_layer_kernel_relu_eq_skeleton]; unfold cc1__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (coverR1 _ _), View.canon_cons_unit_zero (S := S2048x512) hzR1]
  simp only [View.readCov_unit_zero (S := S2048x512) _ hzR1, View.readAt_eq_ld, harg7.read_unread, harg2.read_unread, harg3.read_unread, harg4.read_unread, harg5.read_unread, View.ld_unit_zero (S := S2048x512) hzR1, View.ld_unit_zero (S := S2048x1024) hzR1, View.ld_unit_zero (S := S1024x512) hzR1, View.ld_unit_zero (S := S512x512) hzR1, View.ld_unit_zero (S := S1x512) hzR1]
  rfl

set_option maxHeartbeats 4000000 in
/-- Case B (0 < k < 7): the body adds the block product to the accumulator and touches nothing else. -/
theorem sound_kernelBR1 (c : Dev nD) (i : grid1.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R1 i) (hc1 : ¬cond1R1 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accBR1 s a x)) -∗ K ⟨⟩))
      ⊢ wp frame (wpE (defs₀ (F := F)) Variants.none c none) E (cc1__gcn_layer_kernel_relu i arg2 harg2 arg3 harg3 arg4 harg4 arg5 harg5 arg6 harg6 arg7 harg7) K := by
  simp only [cc1__gcn_layer_kernel_relu_eq_skeleton]; unfold cc1__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (coverR1 _ _), View.canon_unit_zero hzR1]
  simp only [View.readAt_eq_ld, harg7.read_unread, harg2.read_unread, harg3.read_unread, View.ld_unit_zero (S := S2048x512) hzR1, View.ld_unit_zero (S := S2048x1024) hzR1, View.ld_unit_zero (S := S1024x512) hzR1]
  rfl

set_option maxHeartbeats 4000000 in
/-- Case C (k = 7): the body adds the block product to the accumulator, then stores the output block computed from the finished accumulator, the weights and the bias row; what the output buffer held before does not matter. -/
theorem sound_kernelCR1 (c : Dev nD) (i : grid1.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R1 i) (hc1 : cond1R1 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (outCR1 (accBR1 s a x) w b)
            ∗ owns (c : Thread nD τ) arg7 fullShare (accBR1 s a x)) -∗ K ⟨⟩))
      ⊢ wp frame (wpE (defs₀ (F := F)) Variants.none c none) E (cc1__gcn_layer_kernel_relu i arg2 harg2 arg3 harg3 arg4 harg4 arg5 harg5 arg6 harg6 arg7 harg7) K := by
  simp only [cc1__gcn_layer_kernel_relu_eq_skeleton]; unfold cc1__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (coverR1 _ _), View.canon_unit_zero hzR1]
    simp only [View.readCov_unit_zero (S := S2048x512) _ hzR1, View.readAt_eq_ld, harg7.read_unread, harg2.read_unread, harg3.read_unread, harg4.read_unread, harg5.read_unread, View.ld_unit_zero (S := S2048x512) hzR1, View.ld_unit_zero (S := S2048x1024) hzR1, View.ld_unit_zero (S := S1024x512) hzR1, View.ld_unit_zero (S := S512x512) hzR1, View.ld_unit_zero (S := S1x512) hzR1]
    rfl
  iexists _; isplitr
  swap; · iexact H7
  ipureintro
  sl_unfold_words
  rw [View.read_writes_eq_canon _ _ _ (coverR1 _ _), View.canon_unit_zero hzR1]
  simp only [View.readCov_unit_zero (S := S2048x512) _ hzR1, View.readAt_eq_ld, harg7.read_unread, harg2.read_unread, harg3.read_unread, harg4.read_unread, harg5.read_unread, View.ld_unit_zero (S := S2048x512) hzR1, View.ld_unit_zero (S := S2048x1024) hzR1, View.ld_unit_zero (S := S1024x512) hzR1, View.ld_unit_zero (S := S512x512) hzR1, View.ld_unit_zero (S := S1x512) hzR1]
  rfl

/-! ## The body obligation, at a generic point -/

/-- What the body is called with at point t: the invariant, the core's debt, and each window's current staging
    buffer at what it holds when the body runs. -/
def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d)))

/-- And what it returns. -/
def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t)

set_option maxHeartbeats 4000000 in
/-- The body at any point. The inputs' buffers hold their blocks; the residue of the point modulo 8 says which of the
    three cases it is in, and that case's triple applies. The invariant hands the body the accumulator — at what the
    point before left, or at anything before the first point — and takes it back at this point's contents; the
    output's buffer comes back untouched where the window is idle, and at the stored block where k = 7. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3]
  rw [show (datR1 V c).owesAt () t.succ = (datR1 V c).owesAt () t.castSucc from rfl]
  rw [show (datR1 V c).Φ t.succ = PhiSR1 V c (t.val + 1) t.isLt from rfl, PhiSR1_succ]
  have hN : t.val < 32 := lt_of_lt_of_eq t.isLt (show cfg1.N = 32 from N_1)
  rw [show (datR1 V c).leavesExact 0 t = owns (c : Thread nD τ) (msR1_0 t) fullShare ((datR1 V c).after 0 t) from by
    unfold Dat.leavesExact; rw [liveAtR1_0 t], afterR1_0]
  rw [show (datR1 V c).leavesExact 1 t = owns (c : Thread nD τ) (msR1_1 t) fullShare ((datR1 V c).after 1 t) from by
    unfold Dat.leavesExact; rw [liveAtR1_1 t], afterR1_1]
  rw [show (datR1 V c).leavesExact 2 t = owns (c : Thread nD τ) (msR1_2 t) fullShare ((datR1 V c).after 2 t) from by
    unfold Dat.leavesExact; rw [liveAtR1_2 t], afterR1_2]
  rw [show (datR1 V c).leavesExact 3 t = owns (c : Thread nD τ) (msR1_3 t) fullShare ((datR1 V c).after 3 t) from by
    unfold Dat.leavesExact; rw [liveAtR1_3 t], afterR1_3]
  by_cases h0 : t.val % 8 = 0
  · have h1 : ¬t.val % 8 = 7 := by omega
    rw [Dat.leavesExact_idle (datR1 V c) 4 t (idleAtR1_4 t (fun h => h1 ((hcond1R1 t).mp h))) (noFlushR1_4 t (fun h => h1 ((hcond1R1 t).mp h)))]
    rw [outsAtR1_A V c t h0]; dsimp only
    by_cases hz : t.val = 0
    · rw [PhiSR1_castSucc V c t, PhiSR1_zero V c _ _ hz, PhiAR1_eq]
      iintro ⟨⟨⟨⟨%d7, HS⟩, HR⟩, Hg⟩, Ho, ⟨%d0, H0⟩, ⟨%d1, H1⟩, ⟨%d2, H2⟩, ⟨%d3, H3⟩, ⟨%d4, H4⟩⟩
      iapply (sound_kernelAR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) ((hcond0R1 t).mpr h0) (fun h => h1 ((hcond1R1 t).mp h)) (iblkR1 V c 0 t) (iblkR1 V c 1 t) (iblkR1 V c 2 t) (iblkR1 V c 3 t) d7 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiSR1_castSucc V c t, PhiSR1_pos V c _ _ hz]
      iintro ⟨⟨HS, HR, Hg⟩, Ho, ⟨%d0, H0⟩, ⟨%d1, H1⟩, ⟨%d2, H2⟩, ⟨%d3, H3⟩, ⟨%d4, H4⟩⟩
      iapply (sound_kernelAR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) ((hcond0R1 t).mpr h0) (fun h => h1 ((hcond1R1 t).mp h)) (iblkR1 V c 0 t) (iblkR1 V c 1 t) (iblkR1 V c 2 t) (iblkR1 V c 3 t) (outsAtR1 V c (t.val - 1) (Nat.lt_of_le_of_lt (Nat.sub_le _ _) t.isLt)).2 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiSR1_castSucc V c t, PhiSR1_pos V c _ _ hz]
    by_cases h1 : t.val % 8 = 7
    · rw [show (datR1 V c).leavesExact 4 t = owns (c : Thread nD τ) (msR1_4 t) fullShare ((datR1 V c).after 4 t) from by
        unfold Dat.leavesExact; rw [liveAtR1_4 t ((hcond1R1 t).mpr h1)], afterR1_4]
      rw [outsAtR1_C V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelCR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) (fun h => h0 ((hcond0R1 t).mp h)) ((hcond1R1 t).mpr h1) (iblkR1 V c 0 t) (iblkR1 V c 1 t) (iblkR1 V c 2 t) (iblkR1 V c 3 t) (outsAtR1 V c (t.val - 1) (Nat.lt_of_le_of_lt (Nat.sub_le _ _) t.isLt)).2 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (datR1 V c) 4 t (idleAtR1_4 t (fun h => h1 ((hcond1R1 t).mp h))) (noFlushR1_4 t (fun h => h1 ((hcond1R1 t).mp h)))]
      rw [outsAtR1_B V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelBR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) (fun h => h0 ((hcond0R1 t).mp h)) (fun h => h1 ((hcond1R1 t).mp h)) (iblkR1 V c 0 t) (iblkR1 V c 1 t) (iblkR1 V c 2 t) (iblkR1 V c 3 t) (outsAtR1 V c (t.val - 1) (Nat.lt_of_le_of_lt (Nat.sub_le _ _) t.isLt)).2 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 1, at every point. -/
theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := by
  rw [show (datR1 V c).Φ 0 = PhiSR1 V c 0 (Nat.zero_le _) from rfl, PhiSR1_zero V c 0 _ rfl]
  try exact Idealize.SL.BI.Entails.refl _

/-- After any point but the first the invariant gives the scoped buffers and the generator register back: what the
    accumulator holds is forgotten. -/
theorem Phi_outR1 (c : Dev nD) (t : Fin (cfg1.N + 1)) (ht : t.val ≠ 0) : (datR1 V c).Φ t ⊢ Pipeline.ΦA spec1 c := by
  rw [show (datR1 V c).Φ t = PhiSR1 V c t.val (Nat.le_of_lt_succ t.isLt) from rfl, PhiSR1_pos V c _ _ ht, PhiAR1_eq]
  iintro ⟨HS, HR, Hg⟩
  isplitl [HS HR]
  · isplitl [HS]; · iexists _; iexact HS
    iexact HR
  iexact Hg

/-- After the last point the invariant gives the scoped buffers and the generator register back. -/
theorem houtR1 (c : Dev nD) : (datR1 V c).Φ (Fin.last cfg1.N) ⊢ Pipeline.ΦA spec1 c :=
  Phi_outR1 V c _ (by rw [Fin.val_last]; have : cfg1.N = 32 := N_1; omega)

end Cert.Kernel.H

end
-- ==== Proof.KBBody2.lean ====
/- Region 2 (a graph-convolution layer): the kernel body meets the pipeline's obligation at every grid point, and the region invariant's two ends. -/
import proofs.«125958_j34282428956966_1_alg».proof.Proof.KBDefs2
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test: the column-block coordinate is zero. -/
abbrev cond0R2 (i : grid2.Coords) : Prop := (Scalar.cmpi .ne (Scalar.extui (Scalar.cmpi .eq (BitVec.ofNat 32 (i 1).val) 0#32)) 0#32) = 1#1
/-- The second conditional's test: the column-block coordinate is the last. -/
abbrev cond1R2 (i : grid2.Coords) : Prop := k2_cond2 i = 1#1

/-- The zero offsets of a whole-block rectangle, however they are spelt. -/
theorem hzR2 : (![0, 0] : Fin 2 → Nat) = fun _ => 0 := funext fun a => by fin_cases a <;> rfl

/-- A list of stores whose last is a whole-block store covers the block. -/
theorem coverR2 {e : EltTy} (w : S2048x512.Idx → Elt F e) (L : List (View.Piece (Elt F) S2048x512 e)) (y : S2048x512.Idx) :
    ∃ p ∈ (⟨Rect.unit ![0, 0] S2048x512.size inb_S2048x512_S2048x512_0_0, w⟩ : View.Piece (Elt F) S2048x512 e) :: L, y ∈ p.1.set := by
  refine ⟨⟨Rect.unit ![0, 0] S2048x512.size inb_S2048x512_S2048x512_0_0, w⟩, List.mem_cons_self .., ?_⟩
  dsimp only
  exact View.mem_set_unit_zero hzR2 inb_S2048x512_S2048x512_0_0 y

/-! ## The conditions in closed form; where the windows are idle -/

/-- The first test holds at the points with k = 0 — decided over the grid. -/
theorem hcond0R2 : ∀ t : Fin cfg2.N, cond0R2 (grid2.coords t) ↔ t.val % 8 = 0 :=
  (by decide +kernel : ∀ t : Fin grid2.N, cond0R2 (grid2.coords t) ↔ t.val % 8 = 0)
/-- The second test holds at the points with k = 7 — decided over the grid. -/
theorem hcond1R2 : ∀ t : Fin cfg2.N, cond1R2 (grid2.coords t) ↔ t.val % 8 = 7 :=
  (by decide +kernel : ∀ t : Fin grid2.N, cond1R2 (grid2.coords t) ↔ t.val % 8 = 7)

/-- The input windows are never idle. -/
theorem liveAtR2_0 : ∀ t : Fin cfg2.N, cfg2.idle 0 (grid2.coords t) = false := by decide +kernel
theorem liveAtR2_1 : ∀ t : Fin cfg2.N, cfg2.idle 1 (grid2.coords t) = false := by decide +kernel
theorem liveAtR2_2 : ∀ t : Fin cfg2.N, cfg2.idle 2 (grid2.coords t) = false := by decide +kernel
theorem liveAtR2_3 : ∀ t : Fin cfg2.N, cfg2.idle 3 (grid2.coords t) = false := by decide +kernel
/-- The output window is idle, and not written back, at the points with k < 7; live at those with k = 7. -/
theorem idleAtR2_4 : ∀ t : Fin cfg2.N, ¬cond1R2 (grid2.coords t) → cfg2.idle 4 (grid2.coords t) = true := by decide +kernel
theorem noFlushR2_4 : ∀ t : Fin cfg2.N, ¬cond1R2 (grid2.coords t) → (cfg2.win 4).flush t = false := by decide +kernel
theorem liveAtR2_4 : ∀ t : Fin cfg2.N, cond1R2 (grid2.coords t) → cfg2.idle 4 (grid2.coords t) = false := by decide +kernel

/-- Each window's current staging memref at point t, spelled as the pipeline passes it, and its wholeness. -/
abbrev msR2_0 (t : Fin cfg2.N) : Memref sig .tc .vmem S2048x1024 .bf16 := win2_0.stage (cfg2.slots t 0)
abbrev hsR2_0 (t : Fin cfg2.N) : (msR2_0 t).IsWhole := hstage2_0 ((cfg2.slots t 0).cast nbuf2_0)
abbrev msR2_1 (t : Fin cfg2.N) : Memref sig .tc .vmem S1024x512 .bf16 := win2_1.stage (cfg2.slots t 1)
abbrev hsR2_1 (t : Fin cfg2.N) : (msR2_1 t).IsWhole := hstage2_1 ((cfg2.slots t 1).cast nbuf2_1)
abbrev msR2_2 (t : Fin cfg2.N) : Memref sig .tc .vmem S512x512 .bf16 := win2_2.stage (cfg2.slots t 2)
abbrev hsR2_2 (t : Fin cfg2.N) : (msR2_2 t).IsWhole := hstage2_2 ((cfg2.slots t 2).cast nbuf2_2)
abbrev msR2_3 (t : Fin cfg2.N) : Memref sig .tc .vmem S1x512 .f32 := win2_3.stage (cfg2.slots t 3)
abbrev hsR2_3 (t : Fin cfg2.N) : (msR2_3 t).IsWhole := hstage2_3 ((cfg2.slots t 3).cast nbuf2_3)
abbrev msR2_4 (t : Fin cfg2.N) : Memref sig .tc .vmem S2048x512 .f32 := win2_4.stage (cfg2.slots t 4)
abbrev hsR2_4 (t : Fin cfg2.N) : (msR2_4 t).IsWhole := hstage2_4 ((cfg2.slots t 4).cast nbuf2_4)

/-- An input window's current staging buffer holds its block at every point, fetched there or not: unfetched, the
    block index has not moved, and the body leaves the block in place. -/
theorem beforeR2_0 (c : Dev nD) (t : Fin cfg2.N) (d) : (datR2 V c).before 0 t d = iblkR2 V c 0 t :=
  ((datR2 V c).before_in_eq_fetched 0 rfl (fun _ => rfl) (fun _ _ _ => rfl) (fun t => by rw [afterR2_0]; unfold Dat.blockOf iblkR2; rw [A_eqR2]; try rfl) t d).trans
    (by unfold Dat.fetched Dat.blockOf iblkR2; rw [A_eqR2]; try rfl)
theorem beforeR2_1 (c : Dev nD) (t : Fin cfg2.N) (d) : (datR2 V c).before 1 t d = iblkR2 V c 1 t :=
  ((datR2 V c).before_in_eq_fetched 1 rfl (fun _ => rfl) (fun _ _ _ => rfl) (fun t => by rw [afterR2_1]; unfold Dat.blockOf iblkR2; rw [A_eqR2]; try rfl) t d).trans
    (by unfold Dat.fetched Dat.blockOf iblkR2; rw [A_eqR2]; try rfl)
theorem beforeR2_2 (c : Dev nD) (t : Fin cfg2.N) (d) : (datR2 V c).before 2 t d = iblkR2 V c 2 t :=
  ((datR2 V c).before_in_eq_fetched 2 rfl (fun _ => rfl) (fun _ _ _ => rfl) (fun t => by rw [afterR2_2]; unfold Dat.blockOf iblkR2; rw [A_eqR2]; try rfl) t d).trans
    (by unfold Dat.fetched Dat.blockOf iblkR2; rw [A_eqR2]; try rfl)
theorem beforeR2_3 (c : Dev nD) (t : Fin cfg2.N) (d) : (datR2 V c).before 3 t d = iblkR2 V c 3 t :=
  ((datR2 V c).before_in_eq_fetched 3 rfl (fun _ => rfl) (fun _ _ _ => rfl) (fun t => by rw [afterR2_3]; unfold Dat.blockOf iblkR2; rw [A_eqR2]; try rfl) t d).trans
    (by unfold Dat.fetched Dat.blockOf iblkR2; rw [A_eqR2]; try rfl)

/-- What the launch hands the region, with the accumulator's buffer split off the other scoped buffers and read
    as a whole memref at some contents. -/
theorem PhiAR2_eq (c : Dev nD) :
    (Pipeline.ΦA spec2 c : sProp 𝕄)
      = iprop(iprop(iprop((∃ d, owns (c : Thread nD τ) scMR2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scMR2, owns_whole]; try rfl

/-! ## The body's three control cases

One triple per case, over any whole memrefs and any contents of the literal block types. Every load and store of the
body moves a whole block, so a buffer the body stored into reads back as the last store's payload, and a load reads
the buffer's contents; an accumulator cleared and then read back reads the cleared value. -/

set_option maxHeartbeats 4000000 in
/-- Case A (k = 0): the body clears the accumulator, adds the block product to it, and touches nothing else; what the accumulator held before does not matter. -/
theorem sound_kernelAR2 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : cond0R2 i) (hc1 : ¬cond1R2 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accAR2 a x)) -∗ K ⟨⟩))
      ⊢ wp frame (wpE (defs₀ (F := F)) Variants.none c none) E (cc2__gcn_layer_kernel_relu i arg2 harg2 arg3 harg3 arg4 harg4 arg5 harg5 arg6 harg6 arg7 harg7) K := by
  simp only [cc2__gcn_layer_kernel_relu_eq_skeleton]; unfold cc2__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (coverR2 _ _), View.canon_cons_unit_zero (S := S2048x512) hzR2]
  simp only [View.readCov_unit_zero (S := S2048x512) _ hzR2, View.readAt_eq_ld, harg7.read_unread, harg2.read_unread, harg3.read_unread, harg4.read_unread, harg5.read_unread, View.ld_unit_zero (S := S2048x512) hzR2, View.ld_unit_zero (S := S2048x1024) hzR2, View.ld_unit_zero (S := S1024x512) hzR2, View.ld_unit_zero (S := S512x512) hzR2, View.ld_unit_zero (S := S1x512) hzR2]
  rfl

set_option maxHeartbeats 4000000 in
/-- Case B (0 < k < 7): the body adds the block product to the accumulator and touches nothing else. -/
theorem sound_kernelBR2 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R2 i) (hc1 : ¬cond1R2 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accBR2 s a x)) -∗ K ⟨⟩))
      ⊢ wp frame (wpE (defs₀ (F := F)) Variants.none c none) E (cc2__gcn_layer_kernel_relu i arg2 harg2 arg3 harg3 arg4 harg4 arg5 harg5 arg6 harg6 arg7 harg7) K := by
  simp only [cc2__gcn_layer_kernel_relu_eq_skeleton]; unfold cc2__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (coverR2 _ _), View.canon_unit_zero hzR2]
  simp only [View.readAt_eq_ld, harg7.read_unread, harg2.read_unread, harg3.read_unread, View.ld_unit_zero (S := S2048x512) hzR2, View.ld_unit_zero (S := S2048x1024) hzR2, View.ld_unit_zero (S := S1024x512) hzR2]
  rfl

set_option maxHeartbeats 4000000 in
/-- Case C (k = 7): the body adds the block product to the accumulator, then stores the output block computed from the finished accumulator, the weights and the bias row; what the output buffer held before does not matter. -/
theorem sound_kernelCR2 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R2 i) (hc1 : cond1R2 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (outCR2 (accBR2 s a x) w b)
            ∗ owns (c : Thread nD τ) arg7 fullShare (accBR2 s a x)) -∗ K ⟨⟩))
      ⊢ wp frame (wpE (defs₀ (F := F)) Variants.none c none) E (cc2__gcn_layer_kernel_relu i arg2 harg2 arg3 harg3 arg4 harg4 arg5 harg5 arg6 harg6 arg7 harg7) K := by
  simp only [cc2__gcn_layer_kernel_relu_eq_skeleton]; unfold cc2__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (coverR2 _ _), View.canon_unit_zero hzR2]
    simp only [View.readCov_unit_zero (S := S2048x512) _ hzR2, View.readAt_eq_ld, harg7.read_unread, harg2.read_unread, harg3.read_unread, harg4.read_unread, harg5.read_unread, View.ld_unit_zero (S := S2048x512) hzR2, View.ld_unit_zero (S := S2048x1024) hzR2, View.ld_unit_zero (S := S1024x512) hzR2, View.ld_unit_zero (S := S512x512) hzR2, View.ld_unit_zero (S := S1x512) hzR2]
    rfl
  iexists _; isplitr
  swap; · iexact H7
  ipureintro
  sl_unfold_words
  rw [View.read_writes_eq_canon _ _ _ (coverR2 _ _), View.canon_unit_zero hzR2]
  simp only [View.readCov_unit_zero (S := S2048x512) _ hzR2, View.readAt_eq_ld, harg7.read_unread, harg2.read_unread, harg3.read_unread, harg4.read_unread, harg5.read_unread, View.ld_unit_zero (S := S2048x512) hzR2, View.ld_unit_zero (S := S2048x1024) hzR2, View.ld_unit_zero (S := S1024x512) hzR2, View.ld_unit_zero (S := S512x512) hzR2, View.ld_unit_zero (S := S1x512) hzR2]
  rfl

/-! ## The body obligation, at a generic point -/

/-- What the body is called with at point t: the invariant, the core's debt, and each window's current staging
    buffer at what it holds when the body runs. -/
def bodyPreR2 (c : Dev nD) (t : Fin cfg2.N) : sProp 𝕄 :=
  iprop((datR2 V c).Φ t.castSucc ∗ (datR2 V c).owesAt () t.castSucc
    ∗ (∃ d, owns (c : Thread nD τ) (msR2_0 t) fullShare ((datR2 V c).before 0 t d))
    ∗ (∃ d, owns (c : Thread nD τ) (msR2_1 t) fullShare ((datR2 V c).before 1 t d))
    ∗ (∃ d, owns (c : Thread nD τ) (msR2_2 t) fullShare ((datR2 V c).before 2 t d))
    ∗ (∃ d, owns (c : Thread nD τ) (msR2_3 t) fullShare ((datR2 V c).before 3 t d))
    ∗ (∃ d, owns (c : Thread nD τ) (msR2_4 t) fullShare ((datR2 V c).before 4 t d)))

/-- And what it returns. -/
def bodyPostR2 (c : Dev nD) (t : Fin cfg2.N) : sProp 𝕄 :=
  iprop((datR2 V c).Φ t.succ ∗ (datR2 V c).owesAt () t.succ
    ∗ (datR2 V c).leavesExact 0 t
    ∗ (datR2 V c).leavesExact 1 t
    ∗ (datR2 V c).leavesExact 2 t
    ∗ (datR2 V c).leavesExact 3 t
    ∗ (datR2 V c).leavesExact 4 t)

set_option maxHeartbeats 4000000 in
/-- The body at any point. The inputs' buffers hold their blocks; the residue of the point modulo 8 says which of the
    three cases it is in, and that case's triple applies. The invariant hands the body the accumulator — at what the
    point before left, or at anything before the first point — and takes it back at this point's contents; the
    output's buffer comes back untouched where the window is idle, and at the stored block where k = 7. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2 bodyAt2
  simp only [beforeR2_0, beforeR2_1, beforeR2_2, beforeR2_3]
  rw [show (datR2 V c).owesAt () t.succ = (datR2 V c).owesAt () t.castSucc from rfl]
  rw [show (datR2 V c).Φ t.succ = PhiSR2 V c (t.val + 1) t.isLt from rfl, PhiSR2_succ]
  have hN : t.val < 32 := lt_of_lt_of_eq t.isLt (show cfg2.N = 32 from N_2)
  rw [show (datR2 V c).leavesExact 0 t = owns (c : Thread nD τ) (msR2_0 t) fullShare ((datR2 V c).after 0 t) from by
    unfold Dat.leavesExact; rw [liveAtR2_0 t], afterR2_0]
  rw [show (datR2 V c).leavesExact 1 t = owns (c : Thread nD τ) (msR2_1 t) fullShare ((datR2 V c).after 1 t) from by
    unfold Dat.leavesExact; rw [liveAtR2_1 t], afterR2_1]
  rw [show (datR2 V c).leavesExact 2 t = owns (c : Thread nD τ) (msR2_2 t) fullShare ((datR2 V c).after 2 t) from by
    unfold Dat.leavesExact; rw [liveAtR2_2 t], afterR2_2]
  rw [show (datR2 V c).leavesExact 3 t = owns (c : Thread nD τ) (msR2_3 t) fullShare ((datR2 V c).after 3 t) from by
    unfold Dat.leavesExact; rw [liveAtR2_3 t], afterR2_3]
  by_cases h0 : t.val % 8 = 0
  · have h1 : ¬t.val % 8 = 7 := by omega
    rw [Dat.leavesExact_idle (datR2 V c) 4 t (idleAtR2_4 t (fun h => h1 ((hcond1R2 t).mp h))) (noFlushR2_4 t (fun h => h1 ((hcond1R2 t).mp h)))]
    rw [outsAtR2_A V c t h0]; dsimp only
    by_cases hz : t.val = 0
    · rw [PhiSR2_castSucc V c t, PhiSR2_zero V c _ _ hz, PhiAR2_eq]
      iintro ⟨⟨⟨⟨%d7, HS⟩, HR⟩, Hg⟩, Ho, ⟨%d0, H0⟩, ⟨%d1, H1⟩, ⟨%d2, H2⟩, ⟨%d3, H3⟩, ⟨%d4, H4⟩⟩
      iapply (sound_kernelAR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) ((hcond0R2 t).mpr h0) (fun h => h1 ((hcond1R2 t).mp h)) (iblkR2 V c 0 t) (iblkR2 V c 1 t) (iblkR2 V c 2 t) (iblkR2 V c 3 t) d7 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiSR2_castSucc V c t, PhiSR2_pos V c _ _ hz]
      iintro ⟨⟨HS, HR, Hg⟩, Ho, ⟨%d0, H0⟩, ⟨%d1, H1⟩, ⟨%d2, H2⟩, ⟨%d3, H3⟩, ⟨%d4, H4⟩⟩
      iapply (sound_kernelAR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) ((hcond0R2 t).mpr h0) (fun h => h1 ((hcond1R2 t).mp h)) (iblkR2 V c 0 t) (iblkR2 V c 1 t) (iblkR2 V c 2 t) (iblkR2 V c 3 t) (outsAtR2 V c (t.val - 1) (Nat.lt_of_le_of_lt (Nat.sub_le _ _) t.isLt)).2 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiSR2_castSucc V c t, PhiSR2_pos V c _ _ hz]
    by_cases h1 : t.val % 8 = 7
    · rw [show (datR2 V c).leavesExact 4 t = owns (c : Thread nD τ) (msR2_4 t) fullShare ((datR2 V c).after 4 t) from by
        unfold Dat.leavesExact; rw [liveAtR2_4 t ((hcond1R2 t).mpr h1)], afterR2_4]
      rw [outsAtR2_C V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelCR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) (fun h => h0 ((hcond0R2 t).mp h)) ((hcond1R2 t).mpr h1) (iblkR2 V c 0 t) (iblkR2 V c 1 t) (iblkR2 V c 2 t) (iblkR2 V c 3 t) (outsAtR2 V c (t.val - 1) (Nat.lt_of_le_of_lt (Nat.sub_le _ _) t.isLt)).2 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (datR2 V c) 4 t (idleAtR2_4 t (fun h => h1 ((hcond1R2 t).mp h))) (noFlushR2_4 t (fun h => h1 ((hcond1R2 t).mp h)))]
      rw [outsAtR2_B V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelBR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) (fun h => h0 ((hcond0R2 t).mp h)) (fun h => h1 ((hcond1R2 t).mp h)) (iblkR2 V c 0 t) (iblkR2 V c 1 t) (iblkR2 V c 2 t) (iblkR2 V c 3 t) (outsAtR2 V c (t.val - 1) (Nat.lt_of_le_of_lt (Nat.sub_le _ _) t.isLt)).2 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 2, at every point. -/
theorem body_obligationR2 (c : Dev nD) : BodyObligation (datR2 (F := F) V c) (defs₀ (F := F)) Variants.none () Set.univ := fun t => by
  rw [bigSep_W2, bigSep_W2]
  exact sound_bodyR2 V c t

/-- What the launch hands the region is the invariant before the first point. -/
theorem hinR2 (c : Dev nD) : Pipeline.ΦA spec2 c ⊢ (datR2 V c).Φ 0 := by
  rw [show (datR2 V c).Φ 0 = PhiSR2 V c 0 (Nat.zero_le _) from rfl, PhiSR2_zero V c 0 _ rfl]
  try exact Idealize.SL.BI.Entails.refl _

/-- After any point but the first the invariant gives the scoped buffers and the generator register back: what the
    accumulator holds is forgotten. -/
theorem Phi_outR2 (c : Dev nD) (t : Fin (cfg2.N + 1)) (ht : t.val ≠ 0) : (datR2 V c).Φ t ⊢ Pipeline.ΦA spec2 c := by
  rw [show (datR2 V c).Φ t = PhiSR2 V c t.val (Nat.le_of_lt_succ t.isLt) from rfl, PhiSR2_pos V c _ _ ht, PhiAR2_eq]
  iintro ⟨HS, HR, Hg⟩
  isplitl [HS HR]
  · isplitl [HS]; · iexists _; iexact HS
    iexact HR
  iexact Hg

/-- After the last point the invariant gives the scoped buffers and the generator register back. -/
theorem houtR2 (c : Dev nD) : (datR2 V c).Φ (Fin.last cfg2.N) ⊢ Pipeline.ΦA spec2 c :=
  Phi_outR2 V c _ (by rw [Fin.val_last]; have : cfg2.N = 32 := N_2; omega)

end Cert.Kernel.H

end
-- ==== Proof.KBBody3.lean ====
/- Region 3 (a graph-convolution layer): the kernel body meets the pipeline's obligation at every grid point, and the region invariant's two ends. -/
import proofs.«125958_j34282428956966_1_alg».proof.Proof.KBDefs3
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test: the column-block coordinate is zero. -/
abbrev cond0R3 (i : grid3.Coords) : Prop := (Scalar.cmpi .ne (Scalar.extui (Scalar.cmpi .eq (BitVec.ofNat 32 (i 1).val) 0#32)) 0#32) = 1#1
/-- The second conditional's test: the column-block coordinate is the last. -/
abbrev cond1R3 (i : grid3.Coords) : Prop := k3_cond2 i = 1#1

/-- The zero offsets of a whole-block rectangle, however they are spelt. -/
theorem hzR3 : (![0, 0] : Fin 2 → Nat) = fun _ => 0 := funext fun a => by fin_cases a <;> rfl

/-- A list of stores whose last is a whole-block store covers the block. -/
theorem coverR3 {e : EltTy} (w : S2048x512.Idx → Elt F e) (L : List (View.Piece (Elt F) S2048x512 e)) (y : S2048x512.Idx) :
    ∃ p ∈ (⟨Rect.unit ![0, 0] S2048x512.size inb_S2048x512_S2048x512_0_0, w⟩ : View.Piece (Elt F) S2048x512 e) :: L, y ∈ p.1.set := by
  refine ⟨⟨Rect.unit ![0, 0] S2048x512.size inb_S2048x512_S2048x512_0_0, w⟩, List.mem_cons_self .., ?_⟩
  dsimp only
  exact View.mem_set_unit_zero hzR3 inb_S2048x512_S2048x512_0_0 y

/-! ## The conditions in closed form; where the windows are idle -/

/-- The first test holds at the points with k = 0 — decided over the grid. -/
theorem hcond0R3 : ∀ t : Fin cfg3.N, cond0R3 (grid3.coords t) ↔ t.val % 8 = 0 :=
  (by decide +kernel : ∀ t : Fin grid3.N, cond0R3 (grid3.coords t) ↔ t.val % 8 = 0)
/-- The second test holds at the points with k = 7 — decided over the grid. -/
theorem hcond1R3 : ∀ t : Fin cfg3.N, cond1R3 (grid3.coords t) ↔ t.val % 8 = 7 :=
  (by decide +kernel : ∀ t : Fin grid3.N, cond1R3 (grid3.coords t) ↔ t.val % 8 = 7)

/-- The input windows are never idle. -/
theorem liveAtR3_0 : ∀ t : Fin cfg3.N, cfg3.idle 0 (grid3.coords t) = false := by decide +kernel
theorem liveAtR3_1 : ∀ t : Fin cfg3.N, cfg3.idle 1 (grid3.coords t) = false := by decide +kernel
theorem liveAtR3_2 : ∀ t : Fin cfg3.N, cfg3.idle 2 (grid3.coords t) = false := by decide +kernel
theorem liveAtR3_3 : ∀ t : Fin cfg3.N, cfg3.idle 3 (grid3.coords t) = false := by decide +kernel
/-- The output window is idle, and not written back, at the points with k < 7; live at those with k = 7. -/
theorem idleAtR3_4 : ∀ t : Fin cfg3.N, ¬cond1R3 (grid3.coords t) → cfg3.idle 4 (grid3.coords t) = true := by decide +kernel
theorem noFlushR3_4 : ∀ t : Fin cfg3.N, ¬cond1R3 (grid3.coords t) → (cfg3.win 4).flush t = false := by decide +kernel
theorem liveAtR3_4 : ∀ t : Fin cfg3.N, cond1R3 (grid3.coords t) → cfg3.idle 4 (grid3.coords t) = false := by decide +kernel

/-- Each window's current staging memref at point t, spelled as the pipeline passes it, and its wholeness. -/
abbrev msR3_0 (t : Fin cfg3.N) : Memref sig .tc .vmem S2048x1024 .bf16 := win3_0.stage (cfg3.slots t 0)
abbrev hsR3_0 (t : Fin cfg3.N) : (msR3_0 t).IsWhole := hstage3_0 ((cfg3.slots t 0).cast nbuf3_0)
abbrev msR3_1 (t : Fin cfg3.N) : Memref sig .tc .vmem S1024x512 .bf16 := win3_1.stage (cfg3.slots t 1)
abbrev hsR3_1 (t : Fin cfg3.N) : (msR3_1 t).IsWhole := hstage3_1 ((cfg3.slots t 1).cast nbuf3_1)
abbrev msR3_2 (t : Fin cfg3.N) : Memref sig .tc .vmem S512x512 .bf16 := win3_2.stage (cfg3.slots t 2)
abbrev hsR3_2 (t : Fin cfg3.N) : (msR3_2 t).IsWhole := hstage3_2 ((cfg3.slots t 2).cast nbuf3_2)
abbrev msR3_3 (t : Fin cfg3.N) : Memref sig .tc .vmem S1x512 .f32 := win3_3.stage (cfg3.slots t 3)
abbrev hsR3_3 (t : Fin cfg3.N) : (msR3_3 t).IsWhole := hstage3_3 ((cfg3.slots t 3).cast nbuf3_3)
abbrev msR3_4 (t : Fin cfg3.N) : Memref sig .tc .vmem S2048x512 .f32 := win3_4.stage (cfg3.slots t 4)
abbrev hsR3_4 (t : Fin cfg3.N) : (msR3_4 t).IsWhole := hstage3_4 ((cfg3.slots t 4).cast nbuf3_4)

/-- An input window's current staging buffer holds its block at every point, fetched there or not: unfetched, the
    block index has not moved, and the body leaves the block in place. -/
theorem beforeR3_0 (c : Dev nD) (t : Fin cfg3.N) (d) : (datR3 V c).before 0 t d = iblkR3 V c 0 t :=
  ((datR3 V c).before_in_eq_fetched 0 rfl (fun _ => rfl) (fun _ _ _ => rfl) (fun t => by rw [afterR3_0]; unfold Dat.blockOf iblkR3; rw [A_eqR3]; try rfl) t d).trans
    (by unfold Dat.fetched Dat.blockOf iblkR3; rw [A_eqR3]; try rfl)
theorem beforeR3_1 (c : Dev nD) (t : Fin cfg3.N) (d) : (datR3 V c).before 1 t d = iblkR3 V c 1 t :=
  ((datR3 V c).before_in_eq_fetched 1 rfl (fun _ => rfl) (fun _ _ _ => rfl) (fun t => by rw [afterR3_1]; unfold Dat.blockOf iblkR3; rw [A_eqR3]; try rfl) t d).trans
    (by unfold Dat.fetched Dat.blockOf iblkR3; rw [A_eqR3]; try rfl)
theorem beforeR3_2 (c : Dev nD) (t : Fin cfg3.N) (d) : (datR3 V c).before 2 t d = iblkR3 V c 2 t :=
  ((datR3 V c).before_in_eq_fetched 2 rfl (fun _ => rfl) (fun _ _ _ => rfl) (fun t => by rw [afterR3_2]; unfold Dat.blockOf iblkR3; rw [A_eqR3]; try rfl) t d).trans
    (by unfold Dat.fetched Dat.blockOf iblkR3; rw [A_eqR3]; try rfl)
theorem beforeR3_3 (c : Dev nD) (t : Fin cfg3.N) (d) : (datR3 V c).before 3 t d = iblkR3 V c 3 t :=
  ((datR3 V c).before_in_eq_fetched 3 rfl (fun _ => rfl) (fun _ _ _ => rfl) (fun t => by rw [afterR3_3]; unfold Dat.blockOf iblkR3; rw [A_eqR3]; try rfl) t d).trans
    (by unfold Dat.fetched Dat.blockOf iblkR3; rw [A_eqR3]; try rfl)

/-- What the launch hands the region, with the accumulator's buffer split off the other scoped buffers and read
    as a whole memref at some contents. -/
theorem PhiAR3_eq (c : Dev nD) :
    (Pipeline.ΦA spec3 c : sProp 𝕄)
      = iprop(iprop(iprop((∃ d, owns (c : Thread nD τ) scMR3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scMR3, owns_whole]; try rfl

/-! ## The body's three control cases

One triple per case, over any whole memrefs and any contents of the literal block types. Every load and store of the
body moves a whole block, so a buffer the body stored into reads back as the last store's payload, and a load reads
the buffer's contents; an accumulator cleared and then read back reads the cleared value. -/

set_option maxHeartbeats 4000000 in
/-- Case A (k = 0): the body clears the accumulator, adds the block product to it, and touches nothing else; what the accumulator held before does not matter. -/
theorem sound_kernelAR3 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : cond0R3 i) (hc1 : ¬cond1R3 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accAR3 a x)) -∗ K ⟨⟩))
      ⊢ wp frame (wpE (defs₀ (F := F)) Variants.none c none) E (cc3__gcn_layer_kernel_norelu i arg2 harg2 arg3 harg3 arg4 harg4 arg5 harg5 arg6 harg6 arg7 harg7) K := by
  simp only [cc3__gcn_layer_kernel_norelu_eq_skeleton]; unfold cc3__gcn_layer_kernel_norelu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (coverR3 _ _), View.canon_cons_unit_zero (S := S2048x512) hzR3]
  simp only [View.readCov_unit_zero (S := S2048x512) _ hzR3, View.readAt_eq_ld, harg7.read_unread, harg2.read_unread, harg3.read_unread, harg4.read_unread, harg5.read_unread, View.ld_unit_zero (S := S2048x512) hzR3, View.ld_unit_zero (S := S2048x1024) hzR3, View.ld_unit_zero (S := S1024x512) hzR3, View.ld_unit_zero (S := S512x512) hzR3, View.ld_unit_zero (S := S1x512) hzR3]
  rfl

set_option maxHeartbeats 4000000 in
/-- Case B (0 < k < 7): the body adds the block product to the accumulator and touches nothing else. -/
theorem sound_kernelBR3 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R3 i) (hc1 : ¬cond1R3 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accBR3 s a x)) -∗ K ⟨⟩))
      ⊢ wp frame (wpE (defs₀ (F := F)) Variants.none c none) E (cc3__gcn_layer_kernel_norelu i arg2 harg2 arg3 harg3 arg4 harg4 arg5 harg5 arg6 harg6 arg7 harg7) K := by
  simp only [cc3__gcn_layer_kernel_norelu_eq_skeleton]; unfold cc3__gcn_layer_kernel_norelu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (coverR3 _ _), View.canon_unit_zero hzR3]
  simp only [View.readAt_eq_ld, harg7.read_unread, harg2.read_unread, harg3.read_unread, View.ld_unit_zero (S := S2048x512) hzR3, View.ld_unit_zero (S := S2048x1024) hzR3, View.ld_unit_zero (S := S1024x512) hzR3]
  rfl

set_option maxHeartbeats 4000000 in
/-- Case C (k = 7): the body adds the block product to the accumulator, then stores the output block computed from the finished accumulator, the weights and the bias row; what the output buffer held before does not matter. -/
theorem sound_kernelCR3 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R3 i) (hc1 : cond1R3 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (outCR3 (accBR3 s a x) w b)
            ∗ owns (c : Thread nD τ) arg7 fullShare (accBR3 s a x)) -∗ K ⟨⟩))
      ⊢ wp frame (wpE (defs₀ (F := F)) Variants.none c none) E (cc3__gcn_layer_kernel_norelu i arg2 harg2 arg3 harg3 arg4 harg4 arg5 harg5 arg6 harg6 arg7 harg7) K := by
  simp only [cc3__gcn_layer_kernel_norelu_eq_skeleton]; unfold cc3__gcn_layer_kernel_norelu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (coverR3 _ _), View.canon_unit_zero hzR3]
    simp only [View.readCov_unit_zero (S := S2048x512) _ hzR3, View.readAt_eq_ld, harg7.read_unread, harg2.read_unread, harg3.read_unread, harg4.read_unread, harg5.read_unread, View.ld_unit_zero (S := S2048x512) hzR3, View.ld_unit_zero (S := S2048x1024) hzR3, View.ld_unit_zero (S := S1024x512) hzR3, View.ld_unit_zero (S := S512x512) hzR3, View.ld_unit_zero (S := S1x512) hzR3]
    rfl
  iexists _; isplitr
  swap; · iexact H7
  ipureintro
  sl_unfold_words
  rw [View.read_writes_eq_canon _ _ _ (coverR3 _ _), View.canon_unit_zero hzR3]
  simp only [View.readCov_unit_zero (S := S2048x512) _ hzR3, View.readAt_eq_ld, harg7.read_unread, harg2.read_unread, harg3.read_unread, harg4.read_unread, harg5.read_unread, View.ld_unit_zero (S := S2048x512) hzR3, View.ld_unit_zero (S := S2048x1024) hzR3, View.ld_unit_zero (S := S1024x512) hzR3, View.ld_unit_zero (S := S512x512) hzR3, View.ld_unit_zero (S := S1x512) hzR3]
  rfl

/-! ## The body obligation, at a generic point -/

/-- What the body is called with at point t: the invariant, the core's debt, and each window's current staging
    buffer at what it holds when the body runs. -/
def bodyPreR3 (c : Dev nD) (t : Fin cfg3.N) : sProp 𝕄 :=
  iprop((datR3 V c).Φ t.castSucc ∗ (datR3 V c).owesAt () t.castSucc
    ∗ (∃ d, owns (c : Thread nD τ) (msR3_0 t) fullShare ((datR3 V c).before 0 t d))
    ∗ (∃ d, owns (c : Thread nD τ) (msR3_1 t) fullShare ((datR3 V c).before 1 t d))
    ∗ (∃ d, owns (c : Thread nD τ) (msR3_2 t) fullShare ((datR3 V c).before 2 t d))
    ∗ (∃ d, owns (c : Thread nD τ) (msR3_3 t) fullShare ((datR3 V c).before 3 t d))
    ∗ (∃ d, owns (c : Thread nD τ) (msR3_4 t) fullShare ((datR3 V c).before 4 t d)))

/-- And what it returns. -/
def bodyPostR3 (c : Dev nD) (t : Fin cfg3.N) : sProp 𝕄 :=
  iprop((datR3 V c).Φ t.succ ∗ (datR3 V c).owesAt () t.succ
    ∗ (datR3 V c).leavesExact 0 t
    ∗ (datR3 V c).leavesExact 1 t
    ∗ (datR3 V c).leavesExact 2 t
    ∗ (datR3 V c).leavesExact 3 t
    ∗ (datR3 V c).leavesExact 4 t)

set_option maxHeartbeats 4000000 in
/-- The body at any point. The inputs' buffers hold their blocks; the residue of the point modulo 8 says which of the
    three cases it is in, and that case's triple applies. The invariant hands the body the accumulator — at what the
    point before left, or at anything before the first point — and takes it back at this point's contents; the
    output's buffer comes back untouched where the window is idle, and at the stored block where k = 7. -/
theorem sound_bodyR3 (c : Dev nD) (t : Fin cfg3.N) :
    bodyPreR3 V c t ⊢ wp frame (wpE (defs₀ (F := F)) Variants.none c none) Set.univ (bodyAt3 t) (fun _ => bodyPostR3 V c t) := by
  unfold bodyPreR3 bodyPostR3 bodyAt3
  simp only [beforeR3_0, beforeR3_1, beforeR3_2, beforeR3_3]
  rw [show (datR3 V c).owesAt () t.succ = (datR3 V c).owesAt () t.castSucc from rfl]
  rw [show (datR3 V c).Φ t.succ = PhiSR3 V c (t.val + 1) t.isLt from rfl, PhiSR3_succ]
  have hN : t.val < 32 := lt_of_lt_of_eq t.isLt (show cfg3.N = 32 from N_3)
  rw [show (datR3 V c).leavesExact 0 t = owns (c : Thread nD τ) (msR3_0 t) fullShare ((datR3 V c).after 0 t) from by
    unfold Dat.leavesExact; rw [liveAtR3_0 t], afterR3_0]
  rw [show (datR3 V c).leavesExact 1 t = owns (c : Thread nD τ) (msR3_1 t) fullShare ((datR3 V c).after 1 t) from by
    unfold Dat.leavesExact; rw [liveAtR3_1 t], afterR3_1]
  rw [show (datR3 V c).leavesExact 2 t = owns (c : Thread nD τ) (msR3_2 t) fullShare ((datR3 V c).after 2 t) from by
    unfold Dat.leavesExact; rw [liveAtR3_2 t], afterR3_2]
  rw [show (datR3 V c).leavesExact 3 t = owns (c : Thread nD τ) (msR3_3 t) fullShare ((datR3 V c).after 3 t) from by
    unfold Dat.leavesExact; rw [liveAtR3_3 t], afterR3_3]
  by_cases h0 : t.val % 8 = 0
  · have h1 : ¬t.val % 8 = 7 := by omega
    rw [Dat.leavesExact_idle (datR3 V c) 4 t (idleAtR3_4 t (fun h => h1 ((hcond1R3 t).mp h))) (noFlushR3_4 t (fun h => h1 ((hcond1R3 t).mp h)))]
    rw [outsAtR3_A V c t h0]; dsimp only
    by_cases hz : t.val = 0
    · rw [PhiSR3_castSucc V c t, PhiSR3_zero V c _ _ hz, PhiAR3_eq]
      iintro ⟨⟨⟨⟨%d7, HS⟩, HR⟩, Hg⟩, Ho, ⟨%d0, H0⟩, ⟨%d1, H1⟩, ⟨%d2, H2⟩, ⟨%d3, H3⟩, ⟨%d4, H4⟩⟩
      iapply (sound_kernelAR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) ((hcond0R3 t).mpr h0) (fun h => h1 ((hcond1R3 t).mp h)) (iblkR3 V c 0 t) (iblkR3 V c 1 t) (iblkR3 V c 2 t) (iblkR3 V c 3 t) d7 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiSR3_castSucc V c t, PhiSR3_pos V c _ _ hz]
      iintro ⟨⟨HS, HR, Hg⟩, Ho, ⟨%d0, H0⟩, ⟨%d1, H1⟩, ⟨%d2, H2⟩, ⟨%d3, H3⟩, ⟨%d4, H4⟩⟩
      iapply (sound_kernelAR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) ((hcond0R3 t).mpr h0) (fun h => h1 ((hcond1R3 t).mp h)) (iblkR3 V c 0 t) (iblkR3 V c 1 t) (iblkR3 V c 2 t) (iblkR3 V c 3 t) (outsAtR3 V c (t.val - 1) (Nat.lt_of_le_of_lt (Nat.sub_le _ _) t.isLt)).2 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiSR3_castSucc V c t, PhiSR3_pos V c _ _ hz]
    by_cases h1 : t.val % 8 = 7
    · rw [show (datR3 V c).leavesExact 4 t = owns (c : Thread nD τ) (msR3_4 t) fullShare ((datR3 V c).after 4 t) from by
        unfold Dat.leavesExact; rw [liveAtR3_4 t ((hcond1R3 t).mpr h1)], afterR3_4]
      rw [outsAtR3_C V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelCR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) (fun h => h0 ((hcond0R3 t).mp h)) ((hcond1R3 t).mpr h1) (iblkR3 V c 0 t) (iblkR3 V c 1 t) (iblkR3 V c 2 t) (iblkR3 V c 3 t) (outsAtR3 V c (t.val - 1) (Nat.lt_of_le_of_lt (Nat.sub_le _ _) t.isLt)).2 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (datR3 V c) 4 t (idleAtR3_4 t (fun h => h1 ((hcond1R3 t).mp h))) (noFlushR3_4 t (fun h => h1 ((hcond1R3 t).mp h)))]
      rw [outsAtR3_B V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelBR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) (fun h => h0 ((hcond0R3 t).mp h)) (fun h => h1 ((hcond1R3 t).mp h)) (iblkR3 V c 0 t) (iblkR3 V c 1 t) (iblkR3 V c 2 t) (iblkR3 V c 3 t) (outsAtR3 V c (t.val - 1) (Nat.lt_of_le_of_lt (Nat.sub_le _ _) t.isLt)).2 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 3, at every point. -/
theorem body_obligationR3 (c : Dev nD) : BodyObligation (datR3 (F := F) V c) (defs₀ (F := F)) Variants.none () Set.univ := fun t => by
  rw [bigSep_W3, bigSep_W3]
  exact sound_bodyR3 V c t

/-- What the launch hands the region is the invariant before the first point. -/
theorem hinR3 (c : Dev nD) : Pipeline.ΦA spec3 c ⊢ (datR3 V c).Φ 0 := by
  rw [show (datR3 V c).Φ 0 = PhiSR3 V c 0 (Nat.zero_le _) from rfl, PhiSR3_zero V c 0 _ rfl]
  try exact Idealize.SL.BI.Entails.refl _

/-- After any point but the first the invariant gives the scoped buffers and the generator register back: what the
    accumulator holds is forgotten. -/
theorem Phi_outR3 (c : Dev nD) (t : Fin (cfg3.N + 1)) (ht : t.val ≠ 0) : (datR3 V c).Φ t ⊢ Pipeline.ΦA spec3 c := by
  rw [show (datR3 V c).Φ t = PhiSR3 V c t.val (Nat.le_of_lt_succ t.isLt) from rfl, PhiSR3_pos V c _ _ ht, PhiAR3_eq]
  iintro ⟨HS, HR, Hg⟩
  isplitl [HS HR]
  · isplitl [HS]; · iexists _; iexact HS
    iexact HR
  iexact Hg

/-- After the last point the invariant gives the scoped buffers and the generator register back. -/
theorem houtR3 (c : Dev nD) : (datR3 V c).Φ (Fin.last cfg3.N) ⊢ Pipeline.ΦA spec3 c :=
  Phi_outR3 V c _ (by rw [Fin.val_last]; have : cfg3.N = 32 := N_3; omega)

end Cert.Kernel.H

end
-- ==== Proof.KBRun.lean ====
/- The run of the kernel program: every weakly fair execution of @main terminates, nothing faulting, with the result array at what region 3 leaves and every argument array as launched. -/
import proofs.«125958_j34282428956966_1_alg».proof.Proof.KBVals
import proofs.«125958_j34282428956966_1_alg».proof.Proof.KBBody0
import proofs.«125958_j34282428956966_1_alg».proof.Proof.KBBody1
import proofs.«125958_j34282428956966_1_alg».proof.Proof.KBBody2
import proofs.«125958_j34282428956966_1_alg».proof.Proof.KBBody3

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves: the two facts its exit needs -/

/-- Region 0's exit: each of its arrays holds what the pipeline leaves. An input window's array is never written back,
    so it is the entry contents, which the exit valuation keeps (it changes `main_v46` only); the output window's array
    is `main_v46`, where the exit valuation is by definition what the write-backs fold to. -/
theorem hF0 (c : Dev nD) (w : Fin cfg0.W) :
    (datR0 (atTc (X5 m)) c).arrAt w cfg0.N = atTc (X6 m) c (Pipeline.arrRef spec0 w) := by
  have hin : ∀ w : Fin cfg0.W, (cfg0.win w).isOut = false → Pipeline.arrRef spec0 w ≠ main_v46 →
      (datR0 (atTc (X5 m)) c).arrAt w cfg0.N = atTc (X6 m) c (Pipeline.arrRef spec0 w) := fun w hw hne =>
    ((datR0 (atTc (X5 m)) c).arrAt_in w hw _).trans ((A_eqR0 (atTc (X5 m)) c w).trans
      (Function.update_of_ne (StableHlo.devRef_ne_of_ne hne : (Proc.devRef .tc (Pipeline.arrRef spec0 w) : DevRef τ sig) ≠ Proc.devRef .tc main_v46) _ _).symm)
  match w with
  | ⟨0, _⟩ => exact hin 0 rfl (by decide)
  | ⟨1, _⟩ => exact hin 1 rfl (by decide)
  | ⟨2, _⟩ => exact hin 2 rfl (by decide)
  | ⟨3, _⟩ => exact (Function.update_self (Proc.devRef .tc main_v46 : DevRef τ sig) (o6 m c) (X5 m c)).symm
/-- Region 0's exit: every buffer that is none of its arrays is as it was at entry (it differs from `main_v46`). -/
theorem hrest0 (c : Dev nD) : ∀ b, b ∉ Finset.univ.image (Pipeline.arrRef spec0) → atTc (X6 m) c b = atTc (X5 m) c b :=
  fun b hb => Function.update_of_ne (StableHlo.devRef_ne_of_ne fun e : b = main_v46 =>
    hb (Finset.mem_image.mpr ⟨3, Finset.mem_univ _, (show Pipeline.arrRef spec0 3 = main_v46 from rfl).trans e.symm⟩)) _ _

/-- Region 1's exit: each of its arrays holds what the pipeline leaves. An input window's array is never written back,
    so it is the entry contents, which the exit valuation keeps (it changes `main_v50` only); the output window's array
    is `main_v50`, where the exit valuation is by definition what the write-backs fold to. -/
theorem hF1 (c : Dev nD) (w : Fin cfg1.W) :
    (datR1 (atTc (X7 m)) c).arrAt w cfg1.N = atTc (X8 m) c (Pipeline.arrRef spec1 w) := by
  have hin : ∀ w : Fin cfg1.W, (cfg1.win w).isOut = false → Pipeline.arrRef spec1 w ≠ main_v50 →
      (datR1 (atTc (X7 m)) c).arrAt w cfg1.N = atTc (X8 m) c (Pipeline.arrRef spec1 w) := fun w hw hne =>
    ((datR1 (atTc (X7 m)) c).arrAt_in w hw _).trans ((A_eqR1 (atTc (X7 m)) c w).trans
      (Function.update_of_ne (StableHlo.devRef_ne_of_ne hne : (Proc.devRef .tc (Pipeline.arrRef spec1 w) : DevRef τ sig) ≠ Proc.devRef .tc main_v50) _ _).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self (Proc.devRef .tc main_v50 : DevRef τ sig) (o8 m c) (X7 m c)).symm
/-- Region 1's exit: every buffer that is none of its arrays is as it was at entry (it differs from `main_v50`). -/
theorem hrest1 (c : Dev nD) : ∀ b, b ∉ Finset.univ.image (Pipeline.arrRef spec1) → atTc (X8 m) c b = atTc (X7 m) c b :=
  fun b hb => Function.update_of_ne (StableHlo.devRef_ne_of_ne fun e : b = main_v50 =>
    hb (Finset.mem_image.mpr ⟨4, Finset.mem_univ _, (show Pipeline.arrRef spec1 4 = main_v50 from rfl).trans e.symm⟩)) _ _

/-- Region 2's exit: each of its arrays holds what the pipeline leaves. An input window's array is never written back,
    so it is the entry contents, which the exit valuation keeps (it changes `main_v54` only); the output window's array
    is `main_v54`, where the exit valuation is by definition what the write-backs fold to. -/
theorem hF2 (c : Dev nD) (w : Fin cfg2.W) :
    (datR2 (atTc (X9 m)) c).arrAt w cfg2.N = atTc (X10 m) c (Pipeline.arrRef spec2 w) := by
  have hin : ∀ w : Fin cfg2.W, (cfg2.win w).isOut = false → Pipeline.arrRef spec2 w ≠ main_v54 →
      (datR2 (atTc (X9 m)) c).arrAt w cfg2.N = atTc (X10 m) c (Pipeline.arrRef spec2 w) := fun w hw hne =>
    ((datR2 (atTc (X9 m)) c).arrAt_in w hw _).trans ((A_eqR2 (atTc (X9 m)) c w).trans
      (Function.update_of_ne (StableHlo.devRef_ne_of_ne hne : (Proc.devRef .tc (Pipeline.arrRef spec2 w) : DevRef τ sig) ≠ Proc.devRef .tc main_v54) _ _).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self (Proc.devRef .tc main_v54 : DevRef τ sig) (o10 m c) (X9 m c)).symm
/-- Region 2's exit: every buffer that is none of its arrays is as it was at entry (it differs from `main_v54`). -/
theorem hrest2 (c : Dev nD) : ∀ b, b ∉ Finset.univ.image (Pipeline.arrRef spec2) → atTc (X10 m) c b = atTc (X9 m) c b :=
  fun b hb => Function.update_of_ne (StableHlo.devRef_ne_of_ne fun e : b = main_v54 =>
    hb (Finset.mem_image.mpr ⟨4, Finset.mem_univ _, (show Pipeline.arrRef spec2 4 = main_v54 from rfl).trans e.symm⟩)) _ _

/-- Region 3's exit: each of its arrays holds what the pipeline leaves. An input window's array is never written back,
    so it is the entry contents, which the exit valuation keeps (it changes `main_v58` only); the output window's array
    is `main_v58`, where the exit valuation is by definition what the write-backs fold to. -/
theorem hF3 (c : Dev nD) (w : Fin cfg3.W) :
    (datR3 (atTc (X11 m)) c).arrAt w cfg3.N = atTc (X12 m) c (Pipeline.arrRef spec3 w) := by
  have hin : ∀ w : Fin cfg3.W, (cfg3.win w).isOut = false → Pipeline.arrRef spec3 w ≠ main_v58 →
      (datR3 (atTc (X11 m)) c).arrAt w cfg3.N = atTc (X12 m) c (Pipeline.arrRef spec3 w) := fun w hw hne =>
    ((datR3 (atTc (X11 m)) c).arrAt_in w hw _).trans ((A_eqR3 (atTc (X11 m)) c w).trans
      (Function.update_of_ne (StableHlo.devRef_ne_of_ne hne : (Proc.devRef .tc (Pipeline.arrRef spec3 w) : DevRef τ sig) ≠ Proc.devRef .tc main_v58) _ _).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self (Proc.devRef .tc main_v58 : DevRef τ sig) (o12 m c) (X11 m c)).symm
/-- Region 3's exit: every buffer that is none of its arrays is as it was at entry (it differs from `main_v58`). -/
theorem hrest3 (c : Dev nD) : ∀ b, b ∉ Finset.univ.image (Pipeline.arrRef spec3) → atTc (X12 m) c b = atTc (X11 m) c b :=
  fun b hb => Function.update_of_ne (StableHlo.devRef_ne_of_ne fun e : b = main_v58 =>
    hb (Finset.mem_image.mpr ⟨4, Finset.mem_univ _, (show Pipeline.arrRef spec3 4 = main_v58 from rfl).trans e.symm⟩)) _ _

/-! ## The arguments survive: no host stretch writes one and no region's output array is one -/

/-- A reference that no host stretch writes and that is no region's output array holds at the end of @main what it
    held at launch: the last valuation walks back through the four region steps (each changes one array) and the
    eight host stretches (each changes only what its operations write). -/
theorem X12_of (c : Dev nD) (r : Ref sig .tc) (h58 : r ≠ main_v58) (h3 : r ∉ hostOps3_W) (h54 : r ≠ main_v54) (h2 : r ∉ hostOps2_W)
    (h50 : r ≠ main_v50) (h1 : r ∉ hostOps1_W) (h46 : r ≠ main_v46) (h04 : r ∉ hostOps0_4_W) (h03 : r ∉ hostOps0_3_W)
    (h02 : r ∉ hostOps0_2_W) (h01 : r ∉ hostOps0_1_W) (h00 : r ∉ hostOps0_W) :
    X12 m c (Proc.devRef .tc r) = m ((c : Thread nD τ).loc r) :=
  (Function.update_of_ne (StableHlo.devRef_ne_of_ne h58 : (Proc.devRef .tc r : DevRef τ sig) ≠ Proc.devRef .tc main_v58) _ _).trans <|
  (StableHlo.after_of_writes_sub hostOps3 _ hostOps3_writes h3).trans <|
  (Function.update_of_ne (StableHlo.devRef_ne_of_ne h54 : (Proc.devRef .tc r : DevRef τ sig) ≠ Proc.devRef .tc main_v54) _ _).trans <|
  (StableHlo.after_of_writes_sub hostOps2 _ hostOps2_writes h2).trans <|
  (Function.update_of_ne (StableHlo.devRef_ne_of_ne h50 : (Proc.devRef .tc r : DevRef τ sig) ≠ Proc.devRef .tc main_v50) _ _).trans <|
  (StableHlo.after_of_writes_sub hostOps1 _ hostOps1_writes h1).trans <|
  (Function.update_of_ne (StableHlo.devRef_ne_of_ne h46 : (Proc.devRef .tc r : DevRef τ sig) ≠ Proc.devRef .tc main_v46) _ _).trans <|
  (V5_of m c r h04).trans <| (V4_of m c r h03).trans <| (V3_of m c r h02).trans <| (V2_of m c r h01).trans <| (V1_of m c r h00).trans rfl

/-- The result array at the end of @main is what region 3 leaves there. -/
theorem X12_out (c : Dev nD) : X12 m c (Proc.devRef .tc main_v58) = o12 m c := by
  unfold X12; exact Function.update_self (Proc.devRef .tc main_v58 : DevRef τ sig) (o12 m c) (X11 m c)

/-! ## The proof data of the four pipelines, each at its region's entry contents -/

/-- Every pipeline's proof data at the valuation its region is entered from, as a literal case split so that the
    configuration of pipeline `K` reduces to the printed one. -/
def pdats : (p : Fin 4) → (c : Dev nD) → Dat τ (Elt F) Unit ℕ (UR sig nD τ) ℕ (Pipeline.pin (pcfgs (F := F)) adm p) c
  | ⟨0, _⟩ => fun c => datR0 (atTc (X5 m)) c
  | ⟨1, _⟩ => fun c => datR1 (atTc (X7 m)) c
  | ⟨2, _⟩ => fun c => datR2 (atTc (X9 m)) c
  | ⟨3, _⟩ => fun c => datR3 (atTc (X11 m)) c

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item: the core's generator register at some state (a
    region's invariant takes it in and gives it back) and the core owing nothing. -/
abbrev R (c : Dev nD) : sProp 𝕄 := iprop((∃ r, prngReg c r) ∗ ∃ W, owes (c : Thread nD τ) (0 : CellTallies nD τ sig Unit) W)
/-- A host stretch as a segment: its operations run over the unscoped buffers from the contents `W`, `R` riding
    along, and leave them at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents region 3 leaves, the generator
    register at some state. -/
abbrev Tₙ (c : Dev nD) : sProp 𝕄 := iprop(StableHlo.held (c : Thread nD τ) (Pipeline.ucRefs τ sig) (X12 m c) ∗ ∃ r, prngReg c r)

/-! ## The regions as segments -/

set_option backward.isDefEq.respectTransparency.types false in
/-- REGION 0 (the embedding layer) over the thread state: entered with every unscoped buffer at `X5`, left with them at `X6`.
    Its windows' arrays are split out of the unscoped buffers at entry and put back at the exit contents; the
    generator register goes into the region invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (atTc (X5 m)) c).loose
  hwaits := Pipeline.hwaits_of_owed_zero _ _ _ _ L lv 0 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (atTc (X5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X5 m) c) (atTc (X6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first graph-convolution layer) over the thread state: entered with every unscoped buffer at `X7`, left with them at `X8`.
    Its windows' arrays are split out of the unscoped buffers at entry and put back at the exit contents; the
    generator register and the scoped buffers (the accumulator among them) go into the region invariant and come back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (atTc (X7 m)) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (atTc (X7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (atTc (X7 m)) c)
    unfold Pipeline.ΦA
    iintro ⟨Hp, -, Hr⟩
    isplitl [Hr]; · iexact Hr
    iexact Hp
  hout c := by
    rw [Pipeline.ownSems0_none]
    refine BIBase.Entails.trans (houtR1 (atTc (X7 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X7 m) c) (atTc (X8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the second graph-convolution layer) over the thread state: entered with every unscoped buffer at `X9`, left with them at `X10`.
    Its windows' arrays are split out of the unscoped buffers at entry and put back at the exit contents; the
    generator register and the scoped buffers (the accumulator among them) go into the region invariant and come back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligationR2 (atTc (X9 m)) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (atTc (X9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR2 (atTc (X9 m)) c)
    unfold Pipeline.ΦA
    iintro ⟨Hp, -, Hr⟩
    isplitl [Hr]; · iexact Hr
    iexact Hp
  hout c := by
    rw [Pipeline.ownSems0_none]
    refine BIBase.Entails.trans (houtR2 (atTc (X9 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X9 m) c) (atTc (X10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the last graph-convolution layer, no rectifier) over the thread state: entered with every unscoped buffer at `X11`, left with them at `X12`.
    Its windows' arrays are split out of the unscoped buffers at entry and put back at the exit contents; the
    generator register and the scoped buffers (the accumulator among them) go into the region invariant and come back; nothing is owed; the kernel has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligationR3 (atTc (X11 m)) c).loose
  hwaits := Pipeline.hwaits_of_owed_zero _ _ _ _ L lv 3 fun _ _ => rfl
  pre c := iprop(StableHlo.held (c : Thread nD τ) (Pipeline.ucRefs τ sig) (X11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (atTc (X11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR3 (atTc (X11 m)) c)
    unfold Pipeline.ΦA
    iintro ⟨Hp, -, Hr⟩
    isplitl [Hr]; · iexact Hr
    iexact Hp
  hout c := by
    rw [Pipeline.ownSems0_none]
    refine BIBase.Entails.trans (houtR3 (atTc (X11 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X11 m) c) (atTc (X12 m) c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve items in order: the five host stretches that build the normalized adjacency matrix and reshape the
    embedding bias, region 0, then three times a host stretch (format changes and a bias reshape) and a region. Each
    host stretch starts from the contents the item before it leaves. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (X6 m)),
    .region (reg1 m),
    .host (hseg hostOps2 hostOps2_sub hostOps2_fresh (X8 m)),
    .region (reg2 m),
    .host (hseg hostOps3 hostOps3_sub hostOps3_fresh (X10 m)),
    .region (reg3 m) ]

set_option backward.isDefEq.respectTransparency.types false in
/-- The run: from any memory with zero counters @main terminates without a fault; the result array holds what
    region 3 leaves (`o12`) and the ten argument arrays are unchanged. -/
theorem run_main : θ_run defs (onTc (τ := τ) (main (F := F))) ⟨m, fun _ => 0, ρ⟩ (fun r => ∀ c : Dev nD,
      r.2.mem ((c.tc : Thread nD τ).loc main_v58) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X12 m c b)
    (hfin := fun c s' => by
      iintro ⟨⟨Hh, -⟩, HSI⟩
      unfold StableHlo.held
      imodintro
      iapply (pointsTo_read_all (Pipeline.ucRefs τ sig) (fun b => (((c : Thread nD τ)).1, b)) (X12 m c) s')
      isplitl [Hh] <;> iassumption)
    (hQ := fun s h c =>
      ⟨(h c _ (mem_uc main_v58 (by decide))).trans (X12_out m c),
        (h c _ (mem_uc main_arg0 (by decide))).trans (X12_of m c main_arg0 (by decide) (by decide) (by decide) (by decide) (by decide) (by decide) (by decide) (by decide) (by decide) (by decide) (by decide) (by decide)),
        (h c _ (mem_uc main_arg1 (by decide))).trans (X12_of m c main_arg1 (by decide) (by decide) (by decide) (by decide) (by decide) (by decide) (by decide) (by decide) (by decide) (by decide) (by decide) (by decide)),
        (h c _ (mem_uc main_arg2 (by decide))).trans (X12_of m c main_arg2 (by decide) (by decide) (by decide) (by decide) (by decide) (by decide) (by decide) (by decide) (by decide) (by decide) (by decide) (by decide)),
        (h c _ (mem_uc main_arg3 (by decide))).trans (X12_of m c main_arg3 (by decide) (by decide) (by decide) (by decide) (by decide) (by decide) (by decide) (by decide) (by decide) (by decide) (by decide) (by decide)),
        (h c _ (mem_uc main_arg4 (by decide))).trans (X12_of m c main_arg4 (by decide) (by decide) (by decide) (by decide) (by decide) (by decide) (by decide) (by decide) (by decide) (by decide) (by decide) (by decide)),
        (h c _ (mem_uc main_arg5 (by decide))).trans (X12_of m c main_arg5 (by decide) (by decide) (by decide) (by decide) (by decide) (by decide) (by decide) (by decide) (by decide) (by decide) (by decide) (by decide)),
        (h c _ (mem_uc main_arg6 (by decide))).trans (X12_of m c main_arg6 (by decide) (by decide) (by decide) (by decide) (by decide) (by decide) (by decide) (by decide) (by decide) (by decide) (by decide) (by decide)),
        (h c _ (mem_uc main_arg7 (by decide))).trans (X12_of m c main_arg7 (by decide) (by decide) (by decide) (by decide) (by decide) (by decide) (by decide) (by decide) (by decide) (by decide) (by decide) (by decide)),
        (h c _ (mem_uc main_arg8 (by decide))).trans (X12_of m c main_arg8 (by decide) (by decide) (by decide) (by decide) (by decide) (by decide) (by decide) (by decide) (by decide) (by decide) (by decide) (by decide)),
        (h c _ (mem_uc main_arg9 (by decide))).trans (X12_of m c main_arg9 (by decide) (by decide) (by decide) (by decide) (by decide) (by decide) (by decide) (by decide) (by decide) (by decide) (by decide) (by decide))⟩)

end Cert.Kernel.H

end
-- ==== Proof.KIDefs0.lean ====
/-
  Region 0 of the kernel program (the embedding layer): what the pipeline's proof data say about it.
  The body multiplies a 2048-row block of the node features by the whole embedding matrix (a matrix
  product into a zero accumulator) and adds the bias row, broadcast down the rows; it stores the
  2048 x 512 result block whole.  Everything is stated at a parameter `V`: the contents of the
  TensorCore's buffers when the region is entered.
-/
import proofs.«125958_j34282428956966_1_alg».proof.Proof.Gen.KernelIdeal.Launch
import proofs.«125958_j34282428956966_1_alg».proof.Proof.Gen.KernelIdeal.Skeleton
import proofs.«125958_j34282428956966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 0 finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S2048x128 := Rect.unit (s := S2048x128) ![0, 0] S2048x128.size inb_S2048x128_S2048x128_0_0
abbrev rW0 : Rect S128x512 := Rect.unit (s := S128x512) ![0, 0] S128x512.size inb_S128x512_S128x512_0_0
abbrev rB0 : Rect S1x512 := Rect.unit (s := S1x512) ![0, 0] S1x512.size inb_S1x512_S1x512_0_0
abbrev rO0 : Rect S2048x512 := Rect.unit (s := S2048x512) ![0, 0] S2048x512.size inb_S2048x512_S2048x512_0_0

/-- What the body leaves in the output window's staging buffer: its one store, of the product of the
    feature block with the weights plus the bias row, as a list of pieces. -/
def outR0 (x : Vec F S2048x128 .f32) (w : Vec F S128x512 .f32) (b : Vec F S1x512 .f32) : Vec F S2048x512 .f32 :=
  View.canon [⟨rO0, k0_pay1 (View.ld x rX0) (View.ld w rW0) (View.ld b rB0)⟩]

/-- The proof data of pipeline 0 on core `c`: the arrays as the region finds them; after the body at
    point `t` each input's buffer at its block and the output's at `outR0` of the input blocks; the
    invariant is the scoped buffers and the generator register, untouched; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => outR0 (iblkR0 V c 0 t) (iblkR0 V c 1 t) (iblkR0 V c 2 t)
  Φ _ := Pipeline.ΦA spec0 c
  q _ := fullShare
  owed _ := 0

theorem A_eqR0 (c : Dev nD) (w : Fin cfg0.W) : (datR0 V c).A w = V c (Pipeline.arrRef spec0 w) := by
  dsimp only [datR0]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) :
    (datR0 V c).after 3 t = outR0 (iblkR0 V c 0 t) (iblkR0 V c 1 t) (iblkR0 V c 2 t) := by dsimp only [datR0]

end Cert.KernelIdeal.H

end
-- ==== Proof.KIDefs1.lean ====
/-
  Region 1 of the kernel program (a graph-convolution layer): what the pipeline's proof data say about it.
  The grid is 4 row blocks by 8 column blocks, point t = 8 i + k.  At every point the body adds to a
  2048 x 512 accumulator, kept in a scratch buffer across points, the product of the (i, k) block of the
  normalized adjacency matrix with the k-th row block of the features; at k = 0 it first clears the
  accumulator; at k = 7 it multiplies the accumulator by the layer's weights, adds the bias row (and
  applies the rectifier where the layer has one) and stores the output block, which is idle elsewhere.
  Everything is stated at a parameter `V`: the buffers' contents when the region is entered.
-/
import proofs.«125958_j34282428956966_1_alg».proof.Proof.Gen.KernelIdeal.Launch
import proofs.«125958_j34282428956966_1_alg».proof.Proof.Gen.KernelIdeal.Skeleton
import proofs.«125958_j34282428956966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 1 finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a whole memref. -/
abbrev scMR1 : Memref sig .tc .vmem S2048x512 .f32 := Memref.whole cc1_scratch0

/-- The accumulator after a point with k = 0: cleared, then the block product added. -/
def accAR1 (a : Vec F S2048x1024 .bf16) (x : Vec F S1024x512 .bf16) : Vec F S2048x512 .f32 :=
  k1_pay2 (k1_pay1 (F := F)) a x
/-- The accumulator after a point with k > 0: the block product added to what the point before left. -/
def accBR1 (s : Vec F S2048x512 .f32) (a : Vec F S2048x1024 .bf16) (x : Vec F S1024x512 .bf16) : Vec F S2048x512 .f32 :=
  k1_pay2 s a x
/-- The output block stored at k = 7 from the finished accumulator `s`. -/
def outCR1 (s : Vec F S2048x512 .f32) (w : Vec F S512x512 .bf16) (b : Vec F S1x512 .f32) : Vec F S2048x512 .f32 :=
  k1_pay3 s w b

/-- What the output window's staging buffer (first component; a placeholder where the window is idle) and the
    accumulator (second component) hold after the body at position `n`, by recursion on the position. -/
def outsAtR1 (c : Dev nD) : (n : ℕ) → n < cfg1.N → Vec F S2048x512 .f32 × Vec F S2048x512 .f32
  | 0, hn => (k1_pay1 (F := F), accAR1 (iblkR1 V c 0 ⟨0, hn⟩) (iblkR1 V c 1 ⟨0, hn⟩))
  | n + 1, hn =>
    if (n + 1) % 8 = 0 then
      (k1_pay1 (F := F), accAR1 (iblkR1 V c 0 ⟨n + 1, hn⟩) (iblkR1 V c 1 ⟨n + 1, hn⟩))
    else if (n + 1) % 8 = 7 then
      (outCR1 (accBR1 (outsAtR1 c n (Nat.lt_of_succ_lt hn)).2 (iblkR1 V c 0 ⟨n + 1, hn⟩) (iblkR1 V c 1 ⟨n + 1, hn⟩))
          (iblkR1 V c 2 ⟨n + 1, hn⟩) (iblkR1 V c 3 ⟨n + 1, hn⟩),
        accBR1 (outsAtR1 c n (Nat.lt_of_succ_lt hn)).2 (iblkR1 V c 0 ⟨n + 1, hn⟩) (iblkR1 V c 1 ⟨n + 1, hn⟩))
    else
      (k1_pay1 (F := F), accBR1 (outsAtR1 c n (Nat.lt_of_succ_lt hn)).2 (iblkR1 V c 0 ⟨n + 1, hn⟩) (iblkR1 V c 1 ⟨n + 1, hn⟩))

/-- At a point with k = 0. -/
theorem outsAtR1_A (c : Dev nD) (t : Fin cfg1.N) (h0 : t.val % 8 = 0) :
    outsAtR1 V c t.val t.isLt = (k1_pay1 (F := F), accAR1 (iblkR1 V c 0 t) (iblkR1 V c 1 t)) := by
  obtain ⟨n, hn⟩ := t
  cases n with
  | zero => rfl
  | succ n => exact (if_pos h0).trans rfl

/-- At a point with 0 < k < 7. -/
theorem outsAtR1_B (c : Dev nD) (t : Fin cfg1.N) (h0 : ¬t.val % 8 = 0) (h1 : ¬t.val % 8 = 7) :
    outsAtR1 V c t.val t.isLt = (k1_pay1 (F := F),
      accBR1 (outsAtR1 V c (t.val - 1) (Nat.lt_of_le_of_lt (Nat.sub_le _ _) t.isLt)).2 (iblkR1 V c 0 t) (iblkR1 V c 1 t)) := by
  obtain ⟨n, hn⟩ := t
  cases n with
  | zero => exact absurd (Nat.zero_mod _) h0
  | succ n => exact (if_neg h0).trans ((if_neg h1).trans rfl)

/-- At a point with k = 7. -/
theorem outsAtR1_C (c : Dev nD) (t : Fin cfg1.N) (h0 : ¬t.val % 8 = 0) (h1 : t.val % 8 = 7) :
    outsAtR1 V c t.val t.isLt =
      (outCR1 (accBR1 (outsAtR1 V c (t.val - 1) (Nat.lt_of_le_of_lt (Nat.sub_le _ _) t.isLt)).2 (iblkR1 V c 0 t) (iblkR1 V c 1 t))
          (iblkR1 V c 2 t) (iblkR1 V c 3 t),
        accBR1 (outsAtR1 V c (t.val - 1) (Nat.lt_of_le_of_lt (Nat.sub_le _ _) t.isLt)).2 (iblkR1 V c 0 t) (iblkR1 V c 1 t)) := by
  obtain ⟨n, hn⟩ := t
  cases n with
  | zero => exact absurd (Nat.zero_mod _) h0
  | succ n => exact (if_neg h0).trans ((if_pos h1).trans rfl)

/-- The region invariant before position `n`: before the first point every scoped buffer at anything and the
    generator register at some state; afterwards the accumulator at what the point before left, the other scoped
    buffers at anything, the generator register at some state. -/
def PhiSR1 (c : Dev nD) : (n : ℕ) → n ≤ cfg1.N → sProp 𝕄
  | 0, _ => Pipeline.ΦA spec1 c
  | n + 1, hn => iprop(owns (c : Thread nD τ) scMR1 fullShare ((outsAtR1 V c n hn).2)
      ∗ Pipeline.scopedRestBut (Ix := Unit) (Name := ℕ) (U := UR sig nD τ) (Lvl := ℕ) (Val := Elt F) spec1 c [cc1_scratch0]
      ∗ (∃ r, prngReg c r))

theorem PhiSR1_zero (c : Dev nD) (n : ℕ) (h : n ≤ cfg1.N) (hz : n = 0) : PhiSR1 V c n h = Pipeline.ΦA spec1 c := by
  subst hz; rfl
theorem PhiSR1_succ (c : Dev nD) (n : ℕ) (hn : n < cfg1.N) :
    PhiSR1 V c (n + 1) hn = iprop(owns (c : Thread nD τ) scMR1 fullShare ((outsAtR1 V c n hn).2)
      ∗ Pipeline.scopedRestBut (Ix := Unit) (Name := ℕ) (U := UR sig nD τ) (Lvl := ℕ) (Val := Elt F) spec1 c [cc1_scratch0]
      ∗ (∃ r, prngReg c r)) := rfl
theorem PhiSR1_pos (c : Dev nD) (n : ℕ) (h : n ≤ cfg1.N) (hz : n ≠ 0) :
    PhiSR1 V c n h = iprop(owns (c : Thread nD τ) scMR1 fullShare ((outsAtR1 V c (n - 1) (by omega)).2)
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The proof data of pipeline 1 on core `c`. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]
theorem PhiSR1_castSucc (c : Dev nD) (t : Fin cfg1.N) :
    (datR1 V c).Φ t.castSucc = PhiSR1 V c t.val (Nat.le_of_lt t.isLt) := by
  dsimp only [datR1]; simp only [Fin.coe_castSucc]
theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = (outsAtR1 V c t.val t.isLt).1 := by dsimp only [datR1]

end Cert.KernelIdeal.H

end
-- ==== Proof.KIDefs2.lean ====
/-
  Region 2 of the kernel program (a graph-convolution layer): what the pipeline's proof data say about it.
  The grid is 4 row blocks by 8 column blocks, point t = 8 i + k.  At every point the body adds to a
  2048 x 512 accumulator, kept in a scratch buffer across points, the product of the (i, k) block of the
  normalized adjacency matrix with the k-th row block of the features; at k = 0 it first clears the
  accumulator; at k = 7 it multiplies the accumulator by the layer's weights, adds the bias row (and
  applies the rectifier where the layer has one) and stores the output block, which is idle elsewhere.
  Everything is stated at a parameter `V`: the buffers' contents when the region is entered.
-/
import proofs.«125958_j34282428956966_1_alg».proof.Proof.Gen.KernelIdeal.Launch
import proofs.«125958_j34282428956966_1_alg».proof.Proof.Gen.KernelIdeal.Skeleton
import proofs.«125958_j34282428956966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 2 finds it. -/
def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator as a whole memref. -/
abbrev scMR2 : Memref sig .tc .vmem S2048x512 .f32 := Memref.whole cc2_scratch0

/-- The accumulator after a point with k = 0: cleared, then the block product added. -/
def accAR2 (a : Vec F S2048x1024 .bf16) (x : Vec F S1024x512 .bf16) : Vec F S2048x512 .f32 :=
  k2_pay2 (k2_pay1 (F := F)) a x
/-- The accumulator after a point with k > 0: the block product added to what the point before left. -/
def accBR2 (s : Vec F S2048x512 .f32) (a : Vec F S2048x1024 .bf16) (x : Vec F S1024x512 .bf16) : Vec F S2048x512 .f32 :=
  k2_pay2 s a x
/-- The output block stored at k = 7 from the finished accumulator `s`. -/
def outCR2 (s : Vec F S2048x512 .f32) (w : Vec F S512x512 .bf16) (b : Vec F S1x512 .f32) : Vec F S2048x512 .f32 :=
  k2_pay3 s w b

/-- What the output window's staging buffer (first component; a placeholder where the window is idle) and the
    accumulator (second component) hold after the body at position `n`, by recursion on the position. -/
def outsAtR2 (c : Dev nD) : (n : ℕ) → n < cfg2.N → Vec F S2048x512 .f32 × Vec F S2048x512 .f32
  | 0, hn => (k2_pay1 (F := F), accAR2 (iblkR2 V c 0 ⟨0, hn⟩) (iblkR2 V c 1 ⟨0, hn⟩))
  | n + 1, hn =>
    if (n + 1) % 8 = 0 then
      (k2_pay1 (F := F), accAR2 (iblkR2 V c 0 ⟨n + 1, hn⟩) (iblkR2 V c 1 ⟨n + 1, hn⟩))
    else if (n + 1) % 8 = 7 then
      (outCR2 (accBR2 (outsAtR2 c n (Nat.lt_of_succ_lt hn)).2 (iblkR2 V c 0 ⟨n + 1, hn⟩) (iblkR2 V c 1 ⟨n + 1, hn⟩))
          (iblkR2 V c 2 ⟨n + 1, hn⟩) (iblkR2 V c 3 ⟨n + 1, hn⟩),
        accBR2 (outsAtR2 c n (Nat.lt_of_succ_lt hn)).2 (iblkR2 V c 0 ⟨n + 1, hn⟩) (iblkR2 V c 1 ⟨n + 1, hn⟩))
    else
      (k2_pay1 (F := F), accBR2 (outsAtR2 c n (Nat.lt_of_succ_lt hn)).2 (iblkR2 V c 0 ⟨n + 1, hn⟩) (iblkR2 V c 1 ⟨n + 1, hn⟩))

/-- At a point with k = 0. -/
theorem outsAtR2_A (c : Dev nD) (t : Fin cfg2.N) (h0 : t.val % 8 = 0) :
    outsAtR2 V c t.val t.isLt = (k2_pay1 (F := F), accAR2 (iblkR2 V c 0 t) (iblkR2 V c 1 t)) := by
  obtain ⟨n, hn⟩ := t
  cases n with
  | zero => rfl
  | succ n => exact (if_pos h0).trans rfl

/-- At a point with 0 < k < 7. -/
theorem outsAtR2_B (c : Dev nD) (t : Fin cfg2.N) (h0 : ¬t.val % 8 = 0) (h1 : ¬t.val % 8 = 7) :
    outsAtR2 V c t.val t.isLt = (k2_pay1 (F := F),
      accBR2 (outsAtR2 V c (t.val - 1) (Nat.lt_of_le_of_lt (Nat.sub_le _ _) t.isLt)).2 (iblkR2 V c 0 t) (iblkR2 V c 1 t)) := by
  obtain ⟨n, hn⟩ := t
  cases n with
  | zero => exact absurd (Nat.zero_mod _) h0
  | succ n => exact (if_neg h0).trans ((if_neg h1).trans rfl)

/-- At a point with k = 7. -/
theorem outsAtR2_C (c : Dev nD) (t : Fin cfg2.N) (h0 : ¬t.val % 8 = 0) (h1 : t.val % 8 = 7) :
    outsAtR2 V c t.val t.isLt =
      (outCR2 (accBR2 (outsAtR2 V c (t.val - 1) (Nat.lt_of_le_of_lt (Nat.sub_le _ _) t.isLt)).2 (iblkR2 V c 0 t) (iblkR2 V c 1 t))
          (iblkR2 V c 2 t) (iblkR2 V c 3 t),
        accBR2 (outsAtR2 V c (t.val - 1) (Nat.lt_of_le_of_lt (Nat.sub_le _ _) t.isLt)).2 (iblkR2 V c 0 t) (iblkR2 V c 1 t)) := by
  obtain ⟨n, hn⟩ := t
  cases n with
  | zero => exact absurd (Nat.zero_mod _) h0
  | succ n => exact (if_neg h0).trans ((if_pos h1).trans rfl)

/-- The region invariant before position `n`: before the first point every scoped buffer at anything and the
    generator register at some state; afterwards the accumulator at what the point before left, the other scoped
    buffers at anything, the generator register at some state. -/
def PhiSR2 (c : Dev nD) : (n : ℕ) → n ≤ cfg2.N → sProp 𝕄
  | 0, _ => Pipeline.ΦA spec2 c
  | n + 1, hn => iprop(owns (c : Thread nD τ) scMR2 fullShare ((outsAtR2 V c n hn).2)
      ∗ Pipeline.scopedRestBut (Ix := Unit) (Name := ℕ) (U := UR sig nD τ) (Lvl := ℕ) (Val := Elt F) spec2 c [cc2_scratch0]
      ∗ (∃ r, prngReg c r))

theorem PhiSR2_zero (c : Dev nD) (n : ℕ) (h : n ≤ cfg2.N) (hz : n = 0) : PhiSR2 V c n h = Pipeline.ΦA spec2 c := by
  subst hz; rfl
theorem PhiSR2_succ (c : Dev nD) (n : ℕ) (hn : n < cfg2.N) :
    PhiSR2 V c (n + 1) hn = iprop(owns (c : Thread nD τ) scMR2 fullShare ((outsAtR2 V c n hn).2)
      ∗ Pipeline.scopedRestBut (Ix := Unit) (Name := ℕ) (U := UR sig nD τ) (Lvl := ℕ) (Val := Elt F) spec2 c [cc2_scratch0]
      ∗ (∃ r, prngReg c r)) := rfl
theorem PhiSR2_pos (c : Dev nD) (n : ℕ) (h : n ≤ cfg2.N) (hz : n ≠ 0) :
    PhiSR2 V c n h = iprop(owns (c : Thread nD τ) scMR2 fullShare ((outsAtR2 V c (n - 1) (by omega)).2)
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The proof data of pipeline 2 on core `c`. -/
def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => (outsAtR2 V c t.val t.isLt).1
  Φ t := PhiSR2 V c t.val (Nat.le_of_lt_succ t.isLt)
  q _ := fullShare
  owed _ := 0

theorem A_eqR2 (c : Dev nD) (w : Fin cfg2.W) : (datR2 V c).A w = V c (Pipeline.arrRef spec2 w) := by
  dsimp only [datR2]
theorem PhiSR2_castSucc (c : Dev nD) (t : Fin cfg2.N) :
    (datR2 V c).Φ t.castSucc = PhiSR2 V c t.val (Nat.le_of_lt t.isLt) := by
  dsimp only [datR2]; simp only [Fin.coe_castSucc]
theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = iblkR2 V c 2 t := by dsimp only [datR2]
theorem afterR2_3 (c : Dev nD) (t : Fin cfg2.N) : (datR2 V c).after 3 t = iblkR2 V c 3 t := by dsimp only [datR2]
theorem afterR2_4 (c : Dev nD) (t : Fin cfg2.N) : (datR2 V c).after 4 t = (outsAtR2 V c t.val t.isLt).1 := by dsimp only [datR2]

end Cert.KernelIdeal.H

end
-- ==== Proof.KIDefs3.lean ====
/-
  Region 3 of the kernel program (a graph-convolution layer): what the pipeline's proof data say about it.
  The grid is 4 row blocks by 8 column blocks, point t = 8 i + k.  At every point the body adds to a
  2048 x 512 accumulator, kept in a scratch buffer across points, the product of the (i, k) block of the
  normalized adjacency matrix with the k-th row block of the features; at k = 0 it first clears the
  accumulator; at k = 7 it multiplies the accumulator by the layer's weights, adds the bias row (and
  applies the rectifier where the layer has one) and stores the output block, which is idle elsewhere.
  Everything is stated at a parameter `V`: the buffers' contents when the region is entered.
-/
import proofs.«125958_j34282428956966_1_alg».proof.Proof.Gen.KernelIdeal.Launch
import proofs.«125958_j34282428956966_1_alg».proof.Proof.Gen.KernelIdeal.Skeleton
import proofs.«125958_j34282428956966_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as region 3 finds it. -/
def iblkR3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator as a whole memref. -/
abbrev scMR3 : Memref sig .tc .vmem S2048x512 .f32 := Memref.whole cc3_scratch0

/-- The accumulator after a point with k = 0: cleared, then the block product added. -/
def accAR3 (a : Vec F S2048x1024 .bf16) (x : Vec F S1024x512 .bf16) : Vec F S2048x512 .f32 :=
  k3_pay2 (k3_pay1 (F := F)) a x
/-- The accumulator after a point with k > 0: the block product added to what the point before left. -/
def accBR3 (s : Vec F S2048x512 .f32) (a : Vec F S2048x1024 .bf16) (x : Vec F S1024x512 .bf16) : Vec F S2048x512 .f32 :=
  k3_pay2 s a x
/-- The output block stored at k = 7 from the finished accumulator `s`. -/
def outCR3 (s : Vec F S2048x512 .f32) (w : Vec F S512x512 .bf16) (b : Vec F S1x512 .f32) : Vec F S2048x512 .f32 :=
  k3_pay3 s w b

/-- What the output window's staging buffer (first component; a placeholder where the window is idle) and the
    accumulator (second component) hold after the body at position `n`, by recursion on the position. -/
def outsAtR3 (c : Dev nD) : (n : ℕ) → n < cfg3.N → Vec F S2048x512 .f32 × Vec F S2048x512 .f32
  | 0, hn => (k3_pay1 (F := F), accAR3 (iblkR3 V c 0 ⟨0, hn⟩) (iblkR3 V c 1 ⟨0, hn⟩))
  | n + 1, hn =>
    if (n + 1) % 8 = 0 then
      (k3_pay1 (F := F), accAR3 (iblkR3 V c 0 ⟨n + 1, hn⟩) (iblkR3 V c 1 ⟨n + 1, hn⟩))
    else if (n + 1) % 8 = 7 then
      (outCR3 (accBR3 (outsAtR3 c n (Nat.lt_of_succ_lt hn)).2 (iblkR3 V c 0 ⟨n + 1, hn⟩) (iblkR3 V c 1 ⟨n + 1, hn⟩))
          (iblkR3 V c 2 ⟨n + 1, hn⟩) (iblkR3 V c 3 ⟨n + 1, hn⟩),
        accBR3 (outsAtR3 c n (Nat.lt_of_succ_lt hn)).2 (iblkR3 V c 0 ⟨n + 1, hn⟩) (iblkR3 V c 1 ⟨n + 1, hn⟩))
    else
      (k3_pay1 (F := F), accBR3 (outsAtR3 c n (Nat.lt_of_succ_lt hn)).2 (iblkR3 V c 0 ⟨n + 1, hn⟩) (iblkR3 V c 1 ⟨n + 1, hn⟩))

/-- At a point with k = 0. -/
theorem outsAtR3_A (c : Dev nD) (t : Fin cfg3.N) (h0 : t.val % 8 = 0) :
    outsAtR3 V c t.val t.isLt = (k3_pay1 (F := F), accAR3 (iblkR3 V c 0 t) (iblkR3 V c 1 t)) := by
  obtain ⟨n, hn⟩ := t
  cases n with
  | zero => rfl
  | succ n => exact (if_pos h0).trans rfl

/-- At a point with 0 < k < 7. -/
theorem outsAtR3_B (c : Dev nD) (t : Fin cfg3.N) (h0 : ¬t.val % 8 = 0) (h1 : ¬t.val % 8 = 7) :
    outsAtR3 V c t.val t.isLt = (k3_pay1 (F := F),
      accBR3 (outsAtR3 V c (t.val - 1) (Nat.lt_of_le_of_lt (Nat.sub_le _ _) t.isLt)).2 (iblkR3 V c 0 t) (iblkR3 V c 1 t)) := by
  obtain ⟨n, hn⟩ := t
  cases n with
  | zero => exact absurd (Nat.zero_mod _) h0
  | succ n => exact (if_neg h0).trans ((if_neg h1).trans rfl)

/-- At a point with k = 7. -/
theorem outsAtR3_C (c : Dev nD) (t : Fin cfg3.N) (h0 : ¬t.val % 8 = 0) (h1 : t.val % 8 = 7) :
    outsAtR3 V c t.val t.isLt =
      (outCR3 (accBR3 (outsAtR3 V c (t.val - 1) (Nat.lt_of_le_of_lt (Nat.sub_le _ _) t.isLt)).2 (iblkR3 V c 0 t) (iblkR3 V c 1 t))
          (iblkR3 V c 2 t) (iblkR3 V c 3 t),
        accBR3 (outsAtR3 V c (t.val - 1) (Nat.lt_of_le_of_lt (Nat.sub_le _ _) t.isLt)).2 (iblkR3 V c 0 t) (iblkR3 V c 1 t)) := by
  obtain ⟨n, hn⟩ := t
  cases n with
  | zero => exact absurd (Nat.zero_mod _) h0
  | succ n => exact (if_neg h0).trans ((if_pos h1).trans rfl)

/-- The region invariant before position `n`: before the first point every scoped buffer at anything and the
    generator register at some state; afterwards the accumulator at what the point before left, the other scoped
    buffers at anything, the generator register at some state. -/
def PhiSR3 (c : Dev nD) : (n : ℕ) → n ≤ cfg3.N → sProp 𝕄
  | 0, _ => Pipeline.ΦA spec3 c
  | n + 1, hn => iprop(owns (c : Thread nD τ) scMR3 fullShare ((outsAtR3 V c n hn).2)
      ∗ Pipeline.scopedRestBut (Ix := Unit) (Name := ℕ) (U := UR sig nD τ) (Lvl := ℕ) (Val := Elt F) spec3 c [cc3_scratch0]
      ∗ (∃ r, prngReg c r))

theorem PhiSR3_zero (c : Dev nD) (n : ℕ) (h : n ≤ cfg3.N) (hz : n = 0) : PhiSR3 V c n h = Pipeline.ΦA spec3 c := by
  subst hz; rfl
theorem PhiSR3_succ (c : Dev nD) (n : ℕ) (hn : n < cfg3.N) :
    PhiSR3 V c (n + 1) hn = iprop(owns (c : Thread nD τ) scMR3 fullShare ((outsAtR3 V c n hn).2)
      ∗ Pipeline.scopedRestBut (Ix := Unit) (Name := ℕ) (U := UR sig nD τ) (Lvl := ℕ) (Val := Elt F) spec3 c [cc3_scratch0]
      ∗ (∃ r, prngReg c r)) := rfl
theorem PhiSR3_pos (c : Dev nD) (n : ℕ) (h : n ≤ cfg3.N) (hz : n ≠ 0) :
    PhiSR3 V c n h = iprop(owns (c : Thread nD τ) scMR3 fullShare ((outsAtR3 V c (n - 1) (by omega)).2)
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The proof data of pipeline 3 on core `c`. -/
def datR3 (c : Dev nD) : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => iblkR3 V c 3 t
    | ⟨4, _⟩ => (outsAtR3 V c t.val t.isLt).1
  Φ t := PhiSR3 V c t.val (Nat.le_of_lt_succ t.isLt)
  q _ := fullShare
  owed _ := 0

theorem A_eqR3 (c : Dev nD) (w : Fin cfg3.W) : (datR3 V c).A w = V c (Pipeline.arrRef spec3 w) := by
  dsimp only [datR3]
theorem PhiSR3_castSucc (c : Dev nD) (t : Fin cfg3.N) :
    (datR3 V c).Φ t.castSucc = PhiSR3 V c t.val (Nat.le_of_lt t.isLt) := by
  dsimp only [datR3]; simp only [Fin.coe_castSucc]
theorem afterR3_0 (c : Dev nD) (t : Fin cfg3.N) : (datR3 V c).after 0 t = iblkR3 V c 0 t := by dsimp only [datR3]
theorem afterR3_1 (c : Dev nD) (t : Fin cfg3.N) : (datR3 V c).after 1 t = iblkR3 V c 1 t := by dsimp only [datR3]
theorem afterR3_2 (c : Dev nD) (t : Fin cfg3.N) : (datR3 V c).after 2 t = iblkR3 V c 2 t := by dsimp only [datR3]
theorem afterR3_3 (c : Dev nD) (t : Fin cfg3.N) : (datR3 V c).after 3 t = iblkR3 V c 3 t := by dsimp only [datR3]
theorem afterR3_4 (c : Dev nD) (t : Fin cfg3.N) : (datR3 V c).after 4 t = (outsAtR3 V c t.val t.isLt).1 := by dsimp only [datR3]

end Cert.KernelIdeal.H

end
-- ==== Proof.KIVals.lean ====
/-
  The contents of the TensorCore's buffers between the items of the kernel program's @main, from the launch
  memory `m`: a host stretch leaves what its operations compute (`StableHlo.after`), a kernel region leaves its
  output array at what its pipeline's write-backs fold to (`Dat.arrAt` at the last point) and every other buffer
  as it found it.  `XJ m c` is core `c`'s valuation after item J - 1; `oJ m c` the array a region leaves.
-/
import proofs.«125958_j34282428956966_1_alg».proof.Proof.KIDefs0
import proofs.«125958_j34282428956966_1_alg».proof.Proof.KIDefs1
import proofs.«125958_j34282428956966_1_alg».proof.Proof.KIDefs2
import proofs.«125958_j34282428956966_1_alg».proof.Proof.KIDefs3
import proofs.«125958_j34282428956966_1_alg».proof.Proof.Gen.KernelIdeal.Regions

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references: the form the regions' proof data take. -/
abbrev atTc (W : Dev nD → Valuation τ sig (Elt F)) : (c : Dev nD) → (b : Ref sig .tc) → Buf (Elt F) ((c : Thread nD τ).loc b) :=
  fun c b => W c b

/-- Before region 0: the launch memory after the five host stretches that build the normalized adjacency matrix
    and reshape the embedding bias. -/
abbrev X5 (c : Dev nD) : Valuation τ sig (Elt F) := V5 m c
/-- What region 0 leaves in its output array. -/
def o6 (c : Dev nD) : Buf (Elt F) ((c : Thread nD τ).loc main_v46) := (datR0 (atTc (X5 m)) c).arrAt 3 cfg0.N
/-- After region 0. -/
def X6 (c : Dev nD) : Valuation τ sig (Elt F) := Function.update (X5 m c) main_v46 (o6 m c)
/-- After the host stretch between regions 0 and 1 (format changes and a bias reshape). -/
abbrev X7 (c : Dev nD) : Valuation τ sig (Elt F) := StableHlo.after hostOps1 (X6 m c)
/-- What region 1 leaves in its output array. -/
def o8 (c : Dev nD) : Buf (Elt F) ((c : Thread nD τ).loc main_v50) := (datR1 (atTc (X7 m)) c).arrAt 4 cfg1.N
/-- After region 1. -/
def X8 (c : Dev nD) : Valuation τ sig (Elt F) := Function.update (X7 m c) main_v50 (o8 m c)
abbrev X9 (c : Dev nD) : Valuation τ sig (Elt F) := StableHlo.after hostOps2 (X8 m c)
/-- What region 2 leaves in its output array. -/
def o10 (c : Dev nD) : Buf (Elt F) ((c : Thread nD τ).loc main_v54) := (datR2 (atTc (X9 m)) c).arrAt 4 cfg2.N
/-- After region 2. -/
def X10 (c : Dev nD) : Valuation τ sig (Elt F) := Function.update (X9 m c) main_v54 (o10 m c)
abbrev X11 (c : Dev nD) : Valuation τ sig (Elt F) := StableHlo.after hostOps3 (X10 m c)
/-- What region 3 leaves in its output array: the program's result. -/
def o12 (c : Dev nD) : Buf (Elt F) ((c : Thread nD τ).loc main_v58) := (datR3 (atTc (X11 m)) c).arrAt 4 cfg3.N
/-- After region 3: the end of @main. -/
def X12 (c : Dev nD) : Valuation τ sig (Elt F) := Function.update (X11 m c) main_v58 (o12 m c)

end Cert.KernelIdeal.H

end
-- ==== Proof.KIBody0.lean ====
/- Region 0 (the embedding layer): the kernel body meets the pipeline's obligation at every grid point. -/
import proofs.«125958_j34282428956966_1_alg».proof.Proof.KIDefs0

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The node-feature window (a fresh 2048-row block at every grid point): at every point its current staging
    buffer holds that point's block of the feature array. -/
theorem beforeR0_0 (c : Dev nD) (t : Fin cfg0.N) (d) : (datR0 V c).before 0 t d = iblkR0 V c 0 t :=
  ((datR0 V c).before_in_eq_fetched 0 rfl (fun _ => rfl) (fun _ _ _ => rfl)
    (fun t => by rw [afterR0_0]; unfold Dat.blockOf iblkR0; rw [A_eqR0]; try rfl) t d).trans
    (by unfold Dat.fetched Dat.blockOf iblkR0; rw [A_eqR0]; try rfl)

/-- The embedding-matrix window (one block, the whole matrix, brought in at the first point only): the body
    leaves it in place, so at every later point the buffer still holds it, and the block index never moves. -/
theorem beforeR0_1 (c : Dev nD) (t : Fin cfg0.N) (d) : (datR0 V c).before 1 t d = iblkR0 V c 1 t :=
  ((datR0 V c).before_in_eq_fetched 1 rfl (fun _ => rfl) (fun _ _ _ => rfl)
    (fun t => by rw [afterR0_1]; unfold Dat.blockOf iblkR0; rw [A_eqR0]; try rfl) t d).trans
    (by unfold Dat.fetched Dat.blockOf iblkR0; rw [A_eqR0]; try rfl)

/-- The bias-row window: as the embedding matrix, one block kept from the first point on. -/
theorem beforeR0_2 (c : Dev nD) (t : Fin cfg0.N) (d) : (datR0 V c).before 2 t d = iblkR0 V c 2 t :=
  ((datR0 V c).before_in_eq_fetched 2 rfl (fun _ => rfl) (fun _ _ _ => rfl)
    (fun t => by rw [afterR0_2]; unfold Dat.blockOf iblkR0; rw [A_eqR0]; try rfl) t d).trans
    (by unfold Dat.fetched Dat.blockOf iblkR0; rw [A_eqR0]; try rfl)

/-! ## The one store covers the output block -/

/-- The single stored rectangle is the whole 2048 x 512 block, so every cell of the block lies in it. -/
theorem coverR0 (p : Vec F S2048x512 .f32) (y : S2048x512.Idx) :
    ∃ pc ∈ ([⟨rO0, p⟩] : List (View.Piece (Elt F) S2048x512 .f32)), y ∈ pc.1.set :=
  View.cover_of_tiled [⟨rO0, p⟩] S2048x512.size (by rfl) y

/-! ## The body's triple -/

set_option maxHeartbeats 1000000 in
/-- The body on whole staging buffers: with the three inputs' buffers at contents `x`, `w`, `b` and the
    output's at anything, it runs to a state where the inputs are as they were and the output buffer holds
    `outR0 x w b`.  The body reads the three inputs whole, also reads the output buffer (a value it never
    uses), and overwrites the output buffer whole with the product plus the bias. -/
theorem sound_kernelR0 (c : Dev nD) (E : Set ℕ) (i : grid0.Coords)
    (arg1 : Memref sig .tc .vmem S2048x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S2048x512 .f32) (harg4 : arg4.IsWhole)
    (x : Vec F S2048x128 .f32) (w : Vec F S128x512 .f32) (b : Vec F S1x512 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (outR0 x w b)) -∗ K ⟨⟩))
      ⊢ wp frame (wpE (defs₀ (F := F)) Variants.none c none) E
          (cc0__embed_kernel i arg1 harg1 arg2 harg2 arg3 harg3 arg4 harg4) K := by
  simp only [cc0__embed_kernel_eq_skeleton]; unfold cc0__embed_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverR0 _)

/-! ## The obligation at one grid point -/

/-- What the body is handed at point `t`: the region's invariant, the core's debt record, and each window's
    current staging buffer at what the pipeline left there. -/
def bodyPreR0 (c : Dev nD) (t : Fin cfg0.N) : sProp 𝕄 :=
  iprop((datR0 V c).Φ t.castSucc ∗ (datR0 V c).owesAt () t.castSucc
    ∗ (∃ d, owns (c : Thread nD τ) (st0_0 t) fullShare ((datR0 V c).before 0 t d))
    ∗ (∃ d, owns (c : Thread nD τ) (st0_1 t) fullShare ((datR0 V c).before 1 t d))
    ∗ (∃ d, owns (c : Thread nD τ) (st0_2 t) fullShare ((datR0 V c).before 2 t d))
    ∗ (∃ d, owns (c : Thread nD τ) (st0_3 t) fullShare ((datR0 V c).before 3 t d)))

/-- What it hands back: the same invariant and debt record, and each buffer at the proof data's "after". -/
def bodyPostR0 (c : Dev nD) (t : Fin cfg0.N) : sProp 𝕄 :=
  iprop((datR0 V c).Φ t.succ ∗ (datR0 V c).owesAt () t.succ
    ∗ owns (c : Thread nD τ) (st0_0 t) fullShare ((datR0 V c).after 0 t)
    ∗ owns (c : Thread nD τ) (st0_1 t) fullShare ((datR0 V c).after 1 t)
    ∗ owns (c : Thread nD τ) (st0_2 t) fullShare ((datR0 V c).after 2 t)
    ∗ owns (c : Thread nD τ) (st0_3 t) fullShare ((datR0 V c).after 3 t))

/-- The body at any point: the three input buffers hold their blocks, so the triple above applies with those
    blocks; the invariant and the debt record are not touched and pass through. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2]
  rw [show (datR0 V c).Φ t.succ = (datR0 V c).Φ t.castSucc from rfl,
    show (datR0 V c).owesAt () t.succ = (datR0 V c).owesAt () t.castSucc from rfl,
    afterR0_0, afterR0_1, afterR0_2, afterR0_3]
  iintro ⟨HΦ, Ho, ⟨%d0, H0⟩, ⟨%d1, H1⟩, ⟨%d2, H2⟩, ⟨%d3, H3⟩⟩
  iapply (sound_kernelR0 c Set.univ _ _ _ _ _ _ _ _ _ (iblkR0 V c 0 t) (iblkR0 V c 1 t) (iblkR0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligationR0 (c : Dev nD) : BodyObligation (datR0 (F := F) V c) (defs₀ (F := F)) Variants.none () Set.univ := fun t => by
  rw [bigSep_W0, bigSep_W0]
  exact sound_bodyR0 V c t

end Cert.KernelIdeal.H

end
-- ==== Proof.KIBody1.lean ====
/- Region 1 (a graph-convolution layer): the kernel body meets the pipeline's obligation at every grid point, and the region invariant's two ends. -/
import proofs.«125958_j34282428956966_1_alg».proof.Proof.KIDefs1
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test: the column-block coordinate is zero. -/
abbrev cond0R1 (i : grid1.Coords) : Prop := (Scalar.cmpi .ne (Scalar.extui (Scalar.cmpi .eq (BitVec.ofNat 32 (i 1).val) 0#32)) 0#32) = 1#1
/-- The second conditional's test: the column-block coordinate is the last. -/
abbrev cond1R1 (i : grid1.Coords) : Prop := k1_cond2 i = 1#1

/-- The zero offsets of a whole-block rectangle, however they are spelt. -/
theorem hzR1 : (![0, 0] : Fin 2 → Nat) = fun _ => 0 := funext fun a => by fin_cases a <;> rfl

/-- A list of stores whose last is a whole-block store covers the block. -/
theorem coverR1 {e : EltTy} (w : S2048x512.Idx → Elt F e) (L : List (View.Piece (Elt F) S2048x512 e)) (y : S2048x512.Idx) :
    ∃ p ∈ (⟨Rect.unit ![0, 0] S2048x512.size inb_S2048x512_S2048x512_0_0, w⟩ : View.Piece (Elt F) S2048x512 e) :: L, y ∈ p.1.set := by
  refine ⟨⟨Rect.unit ![0, 0] S2048x512.size inb_S2048x512_S2048x512_0_0, w⟩, List.mem_cons_self .., ?_⟩
  dsimp only
  exact View.mem_set_unit_zero hzR1 inb_S2048x512_S2048x512_0_0 y

/-! ## The conditions in closed form; where the windows are idle -/

/-- The first test holds at the points with k = 0 — decided over the grid. -/
theorem hcond0R1 : ∀ t : Fin cfg1.N, cond0R1 (grid1.coords t) ↔ t.val % 8 = 0 :=
  (by decide +kernel : ∀ t : Fin grid1.N, cond0R1 (grid1.coords t) ↔ t.val % 8 = 0)
/-- The second test holds at the points with k = 7 — decided over the grid. -/
theorem hcond1R1 : ∀ t : Fin cfg1.N, cond1R1 (grid1.coords t) ↔ t.val % 8 = 7 :=
  (by decide +kernel : ∀ t : Fin grid1.N, cond1R1 (grid1.coords t) ↔ t.val % 8 = 7)

/-- The input windows are never idle. -/
theorem liveAtR1_0 : ∀ t : Fin cfg1.N, cfg1.idle 0 (grid1.coords t) = false := by decide +kernel
theorem liveAtR1_1 : ∀ t : Fin cfg1.N, cfg1.idle 1 (grid1.coords t) = false := by decide +kernel
theorem liveAtR1_2 : ∀ t : Fin cfg1.N, cfg1.idle 2 (grid1.coords t) = false := by decide +kernel
theorem liveAtR1_3 : ∀ t : Fin cfg1.N, cfg1.idle 3 (grid1.coords t) = false := by decide +kernel
/-- The output window is idle, and not written back, at the points with k < 7; live at those with k = 7. -/
theorem idleAtR1_4 : ∀ t : Fin cfg1.N, ¬cond1R1 (grid1.coords t) → cfg1.idle 4 (grid1.coords t) = true := by decide +kernel
theorem noFlushR1_4 : ∀ t : Fin cfg1.N, ¬cond1R1 (grid1.coords t) → (cfg1.win 4).flush t = false := by decide +kernel
theorem liveAtR1_4 : ∀ t : Fin cfg1.N, cond1R1 (grid1.coords t) → cfg1.idle 4 (grid1.coords t) = false := by decide +kernel

/-- Each window's current staging memref at point t, spelled as the pipeline passes it, and its wholeness. -/
abbrev msR1_0 (t : Fin cfg1.N) : Memref sig .tc .vmem S2048x1024 .bf16 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S1024x512 .bf16 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S512x512 .bf16 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S1x512 .f32 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S2048x512 .f32 := win1_4.stage (cfg1.slots t 4)
abbrev hsR1_4 (t : Fin cfg1.N) : (msR1_4 t).IsWhole := hstage1_4 ((cfg1.slots t 4).cast nbuf1_4)

/-- An input window's current staging buffer holds its block at every point, fetched there or not: unfetched, the
    block index has not moved, and the body leaves the block in place. -/
theorem beforeR1_0 (c : Dev nD) (t : Fin cfg1.N) (d) : (datR1 V c).before 0 t d = iblkR1 V c 0 t :=
  ((datR1 V c).before_in_eq_fetched 0 rfl (fun _ => rfl) (fun _ _ _ => rfl) (fun t => by rw [afterR1_0]; unfold Dat.blockOf iblkR1; rw [A_eqR1]; try rfl) t d).trans
    (by unfold Dat.fetched Dat.blockOf iblkR1; rw [A_eqR1]; try rfl)
theorem beforeR1_1 (c : Dev nD) (t : Fin cfg1.N) (d) : (datR1 V c).before 1 t d = iblkR1 V c 1 t :=
  ((datR1 V c).before_in_eq_fetched 1 rfl (fun _ => rfl) (fun _ _ _ => rfl) (fun t => by rw [afterR1_1]; unfold Dat.blockOf iblkR1; rw [A_eqR1]; try rfl) t d).trans
    (by unfold Dat.fetched Dat.blockOf iblkR1; rw [A_eqR1]; try rfl)
theorem beforeR1_2 (c : Dev nD) (t : Fin cfg1.N) (d) : (datR1 V c).before 2 t d = iblkR1 V c 2 t :=
  ((datR1 V c).before_in_eq_fetched 2 rfl (fun _ => rfl) (fun _ _ _ => rfl) (fun t => by rw [afterR1_2]; unfold Dat.blockOf iblkR1; rw [A_eqR1]; try rfl) t d).trans
    (by unfold Dat.fetched Dat.blockOf iblkR1; rw [A_eqR1]; try rfl)
theorem beforeR1_3 (c : Dev nD) (t : Fin cfg1.N) (d) : (datR1 V c).before 3 t d = iblkR1 V c 3 t :=
  ((datR1 V c).before_in_eq_fetched 3 rfl (fun _ => rfl) (fun _ _ _ => rfl) (fun t => by rw [afterR1_3]; unfold Dat.blockOf iblkR1; rw [A_eqR1]; try rfl) t d).trans
    (by unfold Dat.fetched Dat.blockOf iblkR1; rw [A_eqR1]; try rfl)

/-- What the launch hands the region, with the accumulator's buffer split off the other scoped buffers and read
    as a whole memref at some contents. -/
theorem PhiAR1_eq (c : Dev nD) :
    (Pipeline.ΦA spec1 c : sProp 𝕄)
      = iprop(iprop(iprop((∃ d, owns (c : Thread nD τ) scMR1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scMR1, owns_whole]; try rfl

/-! ## The body's three control cases

One triple per case, over any whole memrefs and any contents of the literal block types. Every load and store of the
body moves a whole block, so a buffer the body stored into reads back as the last store's payload, and a load reads
the buffer's contents; an accumulator cleared and then read back reads the cleared value. -/

set_option maxHeartbeats 4000000 in
/-- Case A (k = 0): the body clears the accumulator, adds the block product to it, and touches nothing else; what the accumulator held before does not matter. -/
theorem sound_kernelAR1 (c : Dev nD) (i : grid1.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : cond0R1 i) (hc1 : ¬cond1R1 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accAR1 a x)) -∗ K ⟨⟩))
      ⊢ wp frame (wpE (defs₀ (F := F)) Variants.none c none) E (cc1__gcn_layer_kernel_relu i arg2 harg2 arg3 harg3 arg4 harg4 arg5 harg5 arg6 harg6 arg7 harg7) K := by
  simp only [cc1__gcn_layer_kernel_relu_eq_skeleton]; unfold cc1__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (coverR1 _ _), View.canon_cons_unit_zero (S := S2048x512) hzR1]
  simp only [View.readCov_unit_zero (S := S2048x512) _ hzR1, View.readAt_eq_ld, harg7.read_unread, harg2.read_unread, harg3.read_unread, harg4.read_unread, harg5.read_unread, View.ld_unit_zero (S := S2048x512) hzR1, View.ld_unit_zero (S := S2048x1024) hzR1, View.ld_unit_zero (S := S1024x512) hzR1, View.ld_unit_zero (S := S512x512) hzR1, View.ld_unit_zero (S := S1x512) hzR1]
  rfl

set_option maxHeartbeats 4000000 in
/-- Case B (0 < k < 7): the body adds the block product to the accumulator and touches nothing else. -/
theorem sound_kernelBR1 (c : Dev nD) (i : grid1.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R1 i) (hc1 : ¬cond1R1 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accBR1 s a x)) -∗ K ⟨⟩))
      ⊢ wp frame (wpE (defs₀ (F := F)) Variants.none c none) E (cc1__gcn_layer_kernel_relu i arg2 harg2 arg3 harg3 arg4 harg4 arg5 harg5 arg6 harg6 arg7 harg7) K := by
  simp only [cc1__gcn_layer_kernel_relu_eq_skeleton]; unfold cc1__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (coverR1 _ _), View.canon_unit_zero hzR1]
  simp only [View.readAt_eq_ld, harg7.read_unread, harg2.read_unread, harg3.read_unread, View.ld_unit_zero (S := S2048x512) hzR1, View.ld_unit_zero (S := S2048x1024) hzR1, View.ld_unit_zero (S := S1024x512) hzR1]
  rfl

set_option maxHeartbeats 4000000 in
/-- Case C (k = 7): the body adds the block product to the accumulator, then stores the output block computed from the finished accumulator, the weights and the bias row; what the output buffer held before does not matter. -/
theorem sound_kernelCR1 (c : Dev nD) (i : grid1.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R1 i) (hc1 : cond1R1 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (outCR1 (accBR1 s a x) w b)
            ∗ owns (c : Thread nD τ) arg7 fullShare (accBR1 s a x)) -∗ K ⟨⟩))
      ⊢ wp frame (wpE (defs₀ (F := F)) Variants.none c none) E (cc1__gcn_layer_kernel_relu i arg2 harg2 arg3 harg3 arg4 harg4 arg5 harg5 arg6 harg6 arg7 harg7) K := by
  simp only [cc1__gcn_layer_kernel_relu_eq_skeleton]; unfold cc1__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (coverR1 _ _), View.canon_unit_zero hzR1]
    simp only [View.readCov_unit_zero (S := S2048x512) _ hzR1, View.readAt_eq_ld, harg7.read_unread, harg2.read_unread, harg3.read_unread, harg4.read_unread, harg5.read_unread, View.ld_unit_zero (S := S2048x512) hzR1, View.ld_unit_zero (S := S2048x1024) hzR1, View.ld_unit_zero (S := S1024x512) hzR1, View.ld_unit_zero (S := S512x512) hzR1, View.ld_unit_zero (S := S1x512) hzR1]
    rfl
  iexists _; isplitr
  swap; · iexact H7
  ipureintro
  sl_unfold_words
  rw [View.read_writes_eq_canon _ _ _ (coverR1 _ _), View.canon_unit_zero hzR1]
  simp only [View.readCov_unit_zero (S := S2048x512) _ hzR1, View.readAt_eq_ld, harg7.read_unread, harg2.read_unread, harg3.read_unread, harg4.read_unread, harg5.read_unread, View.ld_unit_zero (S := S2048x512) hzR1, View.ld_unit_zero (S := S2048x1024) hzR1, View.ld_unit_zero (S := S1024x512) hzR1, View.ld_unit_zero (S := S512x512) hzR1, View.ld_unit_zero (S := S1x512) hzR1]
  rfl

/-! ## The body obligation, at a generic point -/

/-- What the body is called with at point t: the invariant, the core's debt, and each window's current staging
    buffer at what it holds when the body runs. -/
def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d)))

/-- And what it returns. -/
def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t)

set_option maxHeartbeats 4000000 in
/-- The body at any point. The inputs' buffers hold their blocks; the residue of the point modulo 8 says which of the
    three cases it is in, and that case's triple applies. The invariant hands the body the accumulator — at what the
    point before left, or at anything before the first point — and takes it back at this point's contents; the
    output's buffer comes back untouched where the window is idle, and at the stored block where k = 7. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3]
  rw [show (datR1 V c).owesAt () t.succ = (datR1 V c).owesAt () t.castSucc from rfl]
  rw [show (datR1 V c).Φ t.succ = PhiSR1 V c (t.val + 1) t.isLt from rfl, PhiSR1_succ]
  have hN : t.val < 32 := lt_of_lt_of_eq t.isLt (show cfg1.N = 32 from N_1)
  rw [show (datR1 V c).leavesExact 0 t = owns (c : Thread nD τ) (msR1_0 t) fullShare ((datR1 V c).after 0 t) from by
    unfold Dat.leavesExact; rw [liveAtR1_0 t], afterR1_0]
  rw [show (datR1 V c).leavesExact 1 t = owns (c : Thread nD τ) (msR1_1 t) fullShare ((datR1 V c).after 1 t) from by
    unfold Dat.leavesExact; rw [liveAtR1_1 t], afterR1_1]
  rw [show (datR1 V c).leavesExact 2 t = owns (c : Thread nD τ) (msR1_2 t) fullShare ((datR1 V c).after 2 t) from by
    unfold Dat.leavesExact; rw [liveAtR1_2 t], afterR1_2]
  rw [show (datR1 V c).leavesExact 3 t = owns (c : Thread nD τ) (msR1_3 t) fullShare ((datR1 V c).after 3 t) from by
    unfold Dat.leavesExact; rw [liveAtR1_3 t], afterR1_3]
  by_cases h0 : t.val % 8 = 0
  · have h1 : ¬t.val % 8 = 7 := by omega
    rw [Dat.leavesExact_idle (datR1 V c) 4 t (idleAtR1_4 t (fun h => h1 ((hcond1R1 t).mp h))) (noFlushR1_4 t (fun h => h1 ((hcond1R1 t).mp h)))]
    rw [outsAtR1_A V c t h0]; dsimp only
    by_cases hz : t.val = 0
    · rw [PhiSR1_castSucc V c t, PhiSR1_zero V c _ _ hz, PhiAR1_eq]
      iintro ⟨⟨⟨⟨%d7, HS⟩, HR⟩, Hg⟩, Ho, ⟨%d0, H0⟩, ⟨%d1, H1⟩, ⟨%d2, H2⟩, ⟨%d3, H3⟩, ⟨%d4, H4⟩⟩
      iapply (sound_kernelAR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) ((hcond0R1 t).mpr h0) (fun h => h1 ((hcond1R1 t).mp h)) (iblkR1 V c 0 t) (iblkR1 V c 1 t) (iblkR1 V c 2 t) (iblkR1 V c 3 t) d7 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiSR1_castSucc V c t, PhiSR1_pos V c _ _ hz]
      iintro ⟨⟨HS, HR, Hg⟩, Ho, ⟨%d0, H0⟩, ⟨%d1, H1⟩, ⟨%d2, H2⟩, ⟨%d3, H3⟩, ⟨%d4, H4⟩⟩
      iapply (sound_kernelAR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) ((hcond0R1 t).mpr h0) (fun h => h1 ((hcond1R1 t).mp h)) (iblkR1 V c 0 t) (iblkR1 V c 1 t) (iblkR1 V c 2 t) (iblkR1 V c 3 t) (outsAtR1 V c (t.val - 1) (Nat.lt_of_le_of_lt (Nat.sub_le _ _) t.isLt)).2 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiSR1_castSucc V c t, PhiSR1_pos V c _ _ hz]
    by_cases h1 : t.val % 8 = 7
    · rw [show (datR1 V c).leavesExact 4 t = owns (c : Thread nD τ) (msR1_4 t) fullShare ((datR1 V c).after 4 t) from by
        unfold Dat.leavesExact; rw [liveAtR1_4 t ((hcond1R1 t).mpr h1)], afterR1_4]
      rw [outsAtR1_C V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelCR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) (fun h => h0 ((hcond0R1 t).mp h)) ((hcond1R1 t).mpr h1) (iblkR1 V c 0 t) (iblkR1 V c 1 t) (iblkR1 V c 2 t) (iblkR1 V c 3 t) (outsAtR1 V c (t.val - 1) (Nat.lt_of_le_of_lt (Nat.sub_le _ _) t.isLt)).2 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (datR1 V c) 4 t (idleAtR1_4 t (fun h => h1 ((hcond1R1 t).mp h))) (noFlushR1_4 t (fun h => h1 ((hcond1R1 t).mp h)))]
      rw [outsAtR1_B V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelBR1 c (grid1.coords t) (msR1_0 t) (hsR1_0 t) (msR1_1 t) (hsR1_1 t) (msR1_2 t) (hsR1_2 t) (msR1_3 t) (hsR1_3 t) (msR1_4 t) (hsR1_4 t) scMR1 (Memref.isWhole_whole _) (fun h => h0 ((hcond0R1 t).mp h)) (fun h => h1 ((hcond1R1 t).mp h)) (iblkR1 V c 0 t) (iblkR1 V c 1 t) (iblkR1 V c 2 t) (iblkR1 V c 3 t) (outsAtR1 V c (t.val - 1) (Nat.lt_of_le_of_lt (Nat.sub_le _ _) t.isLt)).2 ((datR1 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 1, at every point. -/
theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := by
  rw [show (datR1 V c).Φ 0 = PhiSR1 V c 0 (Nat.zero_le _) from rfl, PhiSR1_zero V c 0 _ rfl]
  try exact Idealize.SL.BI.Entails.refl _

/-- After any point but the first the invariant gives the scoped buffers and the generator register back: what the
    accumulator holds is forgotten. -/
theorem Phi_outR1 (c : Dev nD) (t : Fin (cfg1.N + 1)) (ht : t.val ≠ 0) : (datR1 V c).Φ t ⊢ Pipeline.ΦA spec1 c := by
  rw [show (datR1 V c).Φ t = PhiSR1 V c t.val (Nat.le_of_lt_succ t.isLt) from rfl, PhiSR1_pos V c _ _ ht, PhiAR1_eq]
  iintro ⟨HS, HR, Hg⟩
  isplitl [HS HR]
  · isplitl [HS]; · iexists _; iexact HS
    iexact HR
  iexact Hg

/-- After the last point the invariant gives the scoped buffers and the generator register back. -/
theorem houtR1 (c : Dev nD) : (datR1 V c).Φ (Fin.last cfg1.N) ⊢ Pipeline.ΦA spec1 c :=
  Phi_outR1 V c _ (by rw [Fin.val_last]; have : cfg1.N = 32 := N_1; omega)

end Cert.KernelIdeal.H

end
-- ==== Proof.KIBody2.lean ====
/- Region 2 (a graph-convolution layer): the kernel body meets the pipeline's obligation at every grid point, and the region invariant's two ends. -/
import proofs.«125958_j34282428956966_1_alg».proof.Proof.KIDefs2
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test: the column-block coordinate is zero. -/
abbrev cond0R2 (i : grid2.Coords) : Prop := (Scalar.cmpi .ne (Scalar.extui (Scalar.cmpi .eq (BitVec.ofNat 32 (i 1).val) 0#32)) 0#32) = 1#1
/-- The second conditional's test: the column-block coordinate is the last. -/
abbrev cond1R2 (i : grid2.Coords) : Prop := k2_cond2 i = 1#1

/-- The zero offsets of a whole-block rectangle, however they are spelt. -/
theorem hzR2 : (![0, 0] : Fin 2 → Nat) = fun _ => 0 := funext fun a => by fin_cases a <;> rfl

/-- A list of stores whose last is a whole-block store covers the block. -/
theorem coverR2 {e : EltTy} (w : S2048x512.Idx → Elt F e) (L : List (View.Piece (Elt F) S2048x512 e)) (y : S2048x512.Idx) :
    ∃ p ∈ (⟨Rect.unit ![0, 0] S2048x512.size inb_S2048x512_S2048x512_0_0, w⟩ : View.Piece (Elt F) S2048x512 e) :: L, y ∈ p.1.set := by
  refine ⟨⟨Rect.unit ![0, 0] S2048x512.size inb_S2048x512_S2048x512_0_0, w⟩, List.mem_cons_self .., ?_⟩
  dsimp only
  exact View.mem_set_unit_zero hzR2 inb_S2048x512_S2048x512_0_0 y

/-! ## The conditions in closed form; where the windows are idle -/

/-- The first test holds at the points with k = 0 — decided over the grid. -/
theorem hcond0R2 : ∀ t : Fin cfg2.N, cond0R2 (grid2.coords t) ↔ t.val % 8 = 0 :=
  (by decide +kernel : ∀ t : Fin grid2.N, cond0R2 (grid2.coords t) ↔ t.val % 8 = 0)
/-- The second test holds at the points with k = 7 — decided over the grid. -/
theorem hcond1R2 : ∀ t : Fin cfg2.N, cond1R2 (grid2.coords t) ↔ t.val % 8 = 7 :=
  (by decide +kernel : ∀ t : Fin grid2.N, cond1R2 (grid2.coords t) ↔ t.val % 8 = 7)

/-- The input windows are never idle. -/
theorem liveAtR2_0 : ∀ t : Fin cfg2.N, cfg2.idle 0 (grid2.coords t) = false := by decide +kernel
theorem liveAtR2_1 : ∀ t : Fin cfg2.N, cfg2.idle 1 (grid2.coords t) = false := by decide +kernel
theorem liveAtR2_2 : ∀ t : Fin cfg2.N, cfg2.idle 2 (grid2.coords t) = false := by decide +kernel
theorem liveAtR2_3 : ∀ t : Fin cfg2.N, cfg2.idle 3 (grid2.coords t) = false := by decide +kernel
/-- The output window is idle, and not written back, at the points with k < 7; live at those with k = 7. -/
theorem idleAtR2_4 : ∀ t : Fin cfg2.N, ¬cond1R2 (grid2.coords t) → cfg2.idle 4 (grid2.coords t) = true := by decide +kernel
theorem noFlushR2_4 : ∀ t : Fin cfg2.N, ¬cond1R2 (grid2.coords t) → (cfg2.win 4).flush t = false := by decide +kernel
theorem liveAtR2_4 : ∀ t : Fin cfg2.N, cond1R2 (grid2.coords t) → cfg2.idle 4 (grid2.coords t) = false := by decide +kernel

/-- Each window's current staging memref at point t, spelled as the pipeline passes it, and its wholeness. -/
abbrev msR2_0 (t : Fin cfg2.N) : Memref sig .tc .vmem S2048x1024 .bf16 := win2_0.stage (cfg2.slots t 0)
abbrev hsR2_0 (t : Fin cfg2.N) : (msR2_0 t).IsWhole := hstage2_0 ((cfg2.slots t 0).cast nbuf2_0)
abbrev msR2_1 (t : Fin cfg2.N) : Memref sig .tc .vmem S1024x512 .bf16 := win2_1.stage (cfg2.slots t 1)
abbrev hsR2_1 (t : Fin cfg2.N) : (msR2_1 t).IsWhole := hstage2_1 ((cfg2.slots t 1).cast nbuf2_1)
abbrev msR2_2 (t : Fin cfg2.N) : Memref sig .tc .vmem S512x512 .bf16 := win2_2.stage (cfg2.slots t 2)
abbrev hsR2_2 (t : Fin cfg2.N) : (msR2_2 t).IsWhole := hstage2_2 ((cfg2.slots t 2).cast nbuf2_2)
abbrev msR2_3 (t : Fin cfg2.N) : Memref sig .tc .vmem S1x512 .f32 := win2_3.stage (cfg2.slots t 3)
abbrev hsR2_3 (t : Fin cfg2.N) : (msR2_3 t).IsWhole := hstage2_3 ((cfg2.slots t 3).cast nbuf2_3)
abbrev msR2_4 (t : Fin cfg2.N) : Memref sig .tc .vmem S2048x512 .f32 := win2_4.stage (cfg2.slots t 4)
abbrev hsR2_4 (t : Fin cfg2.N) : (msR2_4 t).IsWhole := hstage2_4 ((cfg2.slots t 4).cast nbuf2_4)

/-- An input window's current staging buffer holds its block at every point, fetched there or not: unfetched, the
    block index has not moved, and the body leaves the block in place. -/
theorem beforeR2_0 (c : Dev nD) (t : Fin cfg2.N) (d) : (datR2 V c).before 0 t d = iblkR2 V c 0 t :=
  ((datR2 V c).before_in_eq_fetched 0 rfl (fun _ => rfl) (fun _ _ _ => rfl) (fun t => by rw [afterR2_0]; unfold Dat.blockOf iblkR2; rw [A_eqR2]; try rfl) t d).trans
    (by unfold Dat.fetched Dat.blockOf iblkR2; rw [A_eqR2]; try rfl)
theorem beforeR2_1 (c : Dev nD) (t : Fin cfg2.N) (d) : (datR2 V c).before 1 t d = iblkR2 V c 1 t :=
  ((datR2 V c).before_in_eq_fetched 1 rfl (fun _ => rfl) (fun _ _ _ => rfl) (fun t => by rw [afterR2_1]; unfold Dat.blockOf iblkR2; rw [A_eqR2]; try rfl) t d).trans
    (by unfold Dat.fetched Dat.blockOf iblkR2; rw [A_eqR2]; try rfl)
theorem beforeR2_2 (c : Dev nD) (t : Fin cfg2.N) (d) : (datR2 V c).before 2 t d = iblkR2 V c 2 t :=
  ((datR2 V c).before_in_eq_fetched 2 rfl (fun _ => rfl) (fun _ _ _ => rfl) (fun t => by rw [afterR2_2]; unfold Dat.blockOf iblkR2; rw [A_eqR2]; try rfl) t d).trans
    (by unfold Dat.fetched Dat.blockOf iblkR2; rw [A_eqR2]; try rfl)
theorem beforeR2_3 (c : Dev nD) (t : Fin cfg2.N) (d) : (datR2 V c).before 3 t d = iblkR2 V c 3 t :=
  ((datR2 V c).before_in_eq_fetched 3 rfl (fun _ => rfl) (fun _ _ _ => rfl) (fun t => by rw [afterR2_3]; unfold Dat.blockOf iblkR2; rw [A_eqR2]; try rfl) t d).trans
    (by unfold Dat.fetched Dat.blockOf iblkR2; rw [A_eqR2]; try rfl)

/-- What the launch hands the region, with the accumulator's buffer split off the other scoped buffers and read
    as a whole memref at some contents. -/
theorem PhiAR2_eq (c : Dev nD) :
    (Pipeline.ΦA spec2 c : sProp 𝕄)
      = iprop(iprop(iprop((∃ d, owns (c : Thread nD τ) scMR2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scMR2, owns_whole]; try rfl

/-! ## The body's three control cases

One triple per case, over any whole memrefs and any contents of the literal block types. Every load and store of the
body moves a whole block, so a buffer the body stored into reads back as the last store's payload, and a load reads
the buffer's contents; an accumulator cleared and then read back reads the cleared value. -/

set_option maxHeartbeats 4000000 in
/-- Case A (k = 0): the body clears the accumulator, adds the block product to it, and touches nothing else; what the accumulator held before does not matter. -/
theorem sound_kernelAR2 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : cond0R2 i) (hc1 : ¬cond1R2 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accAR2 a x)) -∗ K ⟨⟩))
      ⊢ wp frame (wpE (defs₀ (F := F)) Variants.none c none) E (cc2__gcn_layer_kernel_relu i arg2 harg2 arg3 harg3 arg4 harg4 arg5 harg5 arg6 harg6 arg7 harg7) K := by
  simp only [cc2__gcn_layer_kernel_relu_eq_skeleton]; unfold cc2__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (coverR2 _ _), View.canon_cons_unit_zero (S := S2048x512) hzR2]
  simp only [View.readCov_unit_zero (S := S2048x512) _ hzR2, View.readAt_eq_ld, harg7.read_unread, harg2.read_unread, harg3.read_unread, harg4.read_unread, harg5.read_unread, View.ld_unit_zero (S := S2048x512) hzR2, View.ld_unit_zero (S := S2048x1024) hzR2, View.ld_unit_zero (S := S1024x512) hzR2, View.ld_unit_zero (S := S512x512) hzR2, View.ld_unit_zero (S := S1x512) hzR2]
  rfl

set_option maxHeartbeats 4000000 in
/-- Case B (0 < k < 7): the body adds the block product to the accumulator and touches nothing else. -/
theorem sound_kernelBR2 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R2 i) (hc1 : ¬cond1R2 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accBR2 s a x)) -∗ K ⟨⟩))
      ⊢ wp frame (wpE (defs₀ (F := F)) Variants.none c none) E (cc2__gcn_layer_kernel_relu i arg2 harg2 arg3 harg3 arg4 harg4 arg5 harg5 arg6 harg6 arg7 harg7) K := by
  simp only [cc2__gcn_layer_kernel_relu_eq_skeleton]; unfold cc2__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (coverR2 _ _), View.canon_unit_zero hzR2]
  simp only [View.readAt_eq_ld, harg7.read_unread, harg2.read_unread, harg3.read_unread, View.ld_unit_zero (S := S2048x512) hzR2, View.ld_unit_zero (S := S2048x1024) hzR2, View.ld_unit_zero (S := S1024x512) hzR2]
  rfl

set_option maxHeartbeats 4000000 in
/-- Case C (k = 7): the body adds the block product to the accumulator, then stores the output block computed from the finished accumulator, the weights and the bias row; what the output buffer held before does not matter. -/
theorem sound_kernelCR2 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R2 i) (hc1 : cond1R2 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (outCR2 (accBR2 s a x) w b)
            ∗ owns (c : Thread nD τ) arg7 fullShare (accBR2 s a x)) -∗ K ⟨⟩))
      ⊢ wp frame (wpE (defs₀ (F := F)) Variants.none c none) E (cc2__gcn_layer_kernel_relu i arg2 harg2 arg3 harg3 arg4 harg4 arg5 harg5 arg6 harg6 arg7 harg7) K := by
  simp only [cc2__gcn_layer_kernel_relu_eq_skeleton]; unfold cc2__gcn_layer_kernel_relu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (coverR2 _ _), View.canon_unit_zero hzR2]
    simp only [View.readCov_unit_zero (S := S2048x512) _ hzR2, View.readAt_eq_ld, harg7.read_unread, harg2.read_unread, harg3.read_unread, harg4.read_unread, harg5.read_unread, View.ld_unit_zero (S := S2048x512) hzR2, View.ld_unit_zero (S := S2048x1024) hzR2, View.ld_unit_zero (S := S1024x512) hzR2, View.ld_unit_zero (S := S512x512) hzR2, View.ld_unit_zero (S := S1x512) hzR2]
    rfl
  iexists _; isplitr
  swap; · iexact H7
  ipureintro
  sl_unfold_words
  rw [View.read_writes_eq_canon _ _ _ (coverR2 _ _), View.canon_unit_zero hzR2]
  simp only [View.readCov_unit_zero (S := S2048x512) _ hzR2, View.readAt_eq_ld, harg7.read_unread, harg2.read_unread, harg3.read_unread, harg4.read_unread, harg5.read_unread, View.ld_unit_zero (S := S2048x512) hzR2, View.ld_unit_zero (S := S2048x1024) hzR2, View.ld_unit_zero (S := S1024x512) hzR2, View.ld_unit_zero (S := S512x512) hzR2, View.ld_unit_zero (S := S1x512) hzR2]
  rfl

/-! ## The body obligation, at a generic point -/

/-- What the body is called with at point t: the invariant, the core's debt, and each window's current staging
    buffer at what it holds when the body runs. -/
def bodyPreR2 (c : Dev nD) (t : Fin cfg2.N) : sProp 𝕄 :=
  iprop((datR2 V c).Φ t.castSucc ∗ (datR2 V c).owesAt () t.castSucc
    ∗ (∃ d, owns (c : Thread nD τ) (msR2_0 t) fullShare ((datR2 V c).before 0 t d))
    ∗ (∃ d, owns (c : Thread nD τ) (msR2_1 t) fullShare ((datR2 V c).before 1 t d))
    ∗ (∃ d, owns (c : Thread nD τ) (msR2_2 t) fullShare ((datR2 V c).before 2 t d))
    ∗ (∃ d, owns (c : Thread nD τ) (msR2_3 t) fullShare ((datR2 V c).before 3 t d))
    ∗ (∃ d, owns (c : Thread nD τ) (msR2_4 t) fullShare ((datR2 V c).before 4 t d)))

/-- And what it returns. -/
def bodyPostR2 (c : Dev nD) (t : Fin cfg2.N) : sProp 𝕄 :=
  iprop((datR2 V c).Φ t.succ ∗ (datR2 V c).owesAt () t.succ
    ∗ (datR2 V c).leavesExact 0 t
    ∗ (datR2 V c).leavesExact 1 t
    ∗ (datR2 V c).leavesExact 2 t
    ∗ (datR2 V c).leavesExact 3 t
    ∗ (datR2 V c).leavesExact 4 t)

set_option maxHeartbeats 4000000 in
/-- The body at any point. The inputs' buffers hold their blocks; the residue of the point modulo 8 says which of the
    three cases it is in, and that case's triple applies. The invariant hands the body the accumulator — at what the
    point before left, or at anything before the first point — and takes it back at this point's contents; the
    output's buffer comes back untouched where the window is idle, and at the stored block where k = 7. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2 bodyAt2
  simp only [beforeR2_0, beforeR2_1, beforeR2_2, beforeR2_3]
  rw [show (datR2 V c).owesAt () t.succ = (datR2 V c).owesAt () t.castSucc from rfl]
  rw [show (datR2 V c).Φ t.succ = PhiSR2 V c (t.val + 1) t.isLt from rfl, PhiSR2_succ]
  have hN : t.val < 32 := lt_of_lt_of_eq t.isLt (show cfg2.N = 32 from N_2)
  rw [show (datR2 V c).leavesExact 0 t = owns (c : Thread nD τ) (msR2_0 t) fullShare ((datR2 V c).after 0 t) from by
    unfold Dat.leavesExact; rw [liveAtR2_0 t], afterR2_0]
  rw [show (datR2 V c).leavesExact 1 t = owns (c : Thread nD τ) (msR2_1 t) fullShare ((datR2 V c).after 1 t) from by
    unfold Dat.leavesExact; rw [liveAtR2_1 t], afterR2_1]
  rw [show (datR2 V c).leavesExact 2 t = owns (c : Thread nD τ) (msR2_2 t) fullShare ((datR2 V c).after 2 t) from by
    unfold Dat.leavesExact; rw [liveAtR2_2 t], afterR2_2]
  rw [show (datR2 V c).leavesExact 3 t = owns (c : Thread nD τ) (msR2_3 t) fullShare ((datR2 V c).after 3 t) from by
    unfold Dat.leavesExact; rw [liveAtR2_3 t], afterR2_3]
  by_cases h0 : t.val % 8 = 0
  · have h1 : ¬t.val % 8 = 7 := by omega
    rw [Dat.leavesExact_idle (datR2 V c) 4 t (idleAtR2_4 t (fun h => h1 ((hcond1R2 t).mp h))) (noFlushR2_4 t (fun h => h1 ((hcond1R2 t).mp h)))]
    rw [outsAtR2_A V c t h0]; dsimp only
    by_cases hz : t.val = 0
    · rw [PhiSR2_castSucc V c t, PhiSR2_zero V c _ _ hz, PhiAR2_eq]
      iintro ⟨⟨⟨⟨%d7, HS⟩, HR⟩, Hg⟩, Ho, ⟨%d0, H0⟩, ⟨%d1, H1⟩, ⟨%d2, H2⟩, ⟨%d3, H3⟩, ⟨%d4, H4⟩⟩
      iapply (sound_kernelAR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) ((hcond0R2 t).mpr h0) (fun h => h1 ((hcond1R2 t).mp h)) (iblkR2 V c 0 t) (iblkR2 V c 1 t) (iblkR2 V c 2 t) (iblkR2 V c 3 t) d7 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiSR2_castSucc V c t, PhiSR2_pos V c _ _ hz]
      iintro ⟨⟨HS, HR, Hg⟩, Ho, ⟨%d0, H0⟩, ⟨%d1, H1⟩, ⟨%d2, H2⟩, ⟨%d3, H3⟩, ⟨%d4, H4⟩⟩
      iapply (sound_kernelAR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) ((hcond0R2 t).mpr h0) (fun h => h1 ((hcond1R2 t).mp h)) (iblkR2 V c 0 t) (iblkR2 V c 1 t) (iblkR2 V c 2 t) (iblkR2 V c 3 t) (outsAtR2 V c (t.val - 1) (Nat.lt_of_le_of_lt (Nat.sub_le _ _) t.isLt)).2 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiSR2_castSucc V c t, PhiSR2_pos V c _ _ hz]
    by_cases h1 : t.val % 8 = 7
    · rw [show (datR2 V c).leavesExact 4 t = owns (c : Thread nD τ) (msR2_4 t) fullShare ((datR2 V c).after 4 t) from by
        unfold Dat.leavesExact; rw [liveAtR2_4 t ((hcond1R2 t).mpr h1)], afterR2_4]
      rw [outsAtR2_C V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelCR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) (fun h => h0 ((hcond0R2 t).mp h)) ((hcond1R2 t).mpr h1) (iblkR2 V c 0 t) (iblkR2 V c 1 t) (iblkR2 V c 2 t) (iblkR2 V c 3 t) (outsAtR2 V c (t.val - 1) (Nat.lt_of_le_of_lt (Nat.sub_le _ _) t.isLt)).2 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (datR2 V c) 4 t (idleAtR2_4 t (fun h => h1 ((hcond1R2 t).mp h))) (noFlushR2_4 t (fun h => h1 ((hcond1R2 t).mp h)))]
      rw [outsAtR2_B V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelBR2 c (grid2.coords t) (msR2_0 t) (hsR2_0 t) (msR2_1 t) (hsR2_1 t) (msR2_2 t) (hsR2_2 t) (msR2_3 t) (hsR2_3 t) (msR2_4 t) (hsR2_4 t) scMR2 (Memref.isWhole_whole _) (fun h => h0 ((hcond0R2 t).mp h)) (fun h => h1 ((hcond1R2 t).mp h)) (iblkR2 V c 0 t) (iblkR2 V c 1 t) (iblkR2 V c 2 t) (iblkR2 V c 3 t) (outsAtR2 V c (t.val - 1) (Nat.lt_of_le_of_lt (Nat.sub_le _ _) t.isLt)).2 ((datR2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 2, at every point. -/
theorem body_obligationR2 (c : Dev nD) : BodyObligation (datR2 (F := F) V c) (defs₀ (F := F)) Variants.none () Set.univ := fun t => by
  rw [bigSep_W2, bigSep_W2]
  exact sound_bodyR2 V c t

/-- What the launch hands the region is the invariant before the first point. -/
theorem hinR2 (c : Dev nD) : Pipeline.ΦA spec2 c ⊢ (datR2 V c).Φ 0 := by
  rw [show (datR2 V c).Φ 0 = PhiSR2 V c 0 (Nat.zero_le _) from rfl, PhiSR2_zero V c 0 _ rfl]
  try exact Idealize.SL.BI.Entails.refl _

/-- After any point but the first the invariant gives the scoped buffers and the generator register back: what the
    accumulator holds is forgotten. -/
theorem Phi_outR2 (c : Dev nD) (t : Fin (cfg2.N + 1)) (ht : t.val ≠ 0) : (datR2 V c).Φ t ⊢ Pipeline.ΦA spec2 c := by
  rw [show (datR2 V c).Φ t = PhiSR2 V c t.val (Nat.le_of_lt_succ t.isLt) from rfl, PhiSR2_pos V c _ _ ht, PhiAR2_eq]
  iintro ⟨HS, HR, Hg⟩
  isplitl [HS HR]
  · isplitl [HS]; · iexists _; iexact HS
    iexact HR
  iexact Hg

/-- After the last point the invariant gives the scoped buffers and the generator register back. -/
theorem houtR2 (c : Dev nD) : (datR2 V c).Φ (Fin.last cfg2.N) ⊢ Pipeline.ΦA spec2 c :=
  Phi_outR2 V c _ (by rw [Fin.val_last]; have : cfg2.N = 32 := N_2; omega)

end Cert.KernelIdeal.H

end
-- ==== Proof.KIBody3.lean ====
/- Region 3 (a graph-convolution layer): the kernel body meets the pipeline's obligation at every grid point, and the region invariant's two ends. -/
import proofs.«125958_j34282428956966_1_alg».proof.Proof.KIDefs3
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test: the column-block coordinate is zero. -/
abbrev cond0R3 (i : grid3.Coords) : Prop := (Scalar.cmpi .ne (Scalar.extui (Scalar.cmpi .eq (BitVec.ofNat 32 (i 1).val) 0#32)) 0#32) = 1#1
/-- The second conditional's test: the column-block coordinate is the last. -/
abbrev cond1R3 (i : grid3.Coords) : Prop := k3_cond2 i = 1#1

/-- The zero offsets of a whole-block rectangle, however they are spelt. -/
theorem hzR3 : (![0, 0] : Fin 2 → Nat) = fun _ => 0 := funext fun a => by fin_cases a <;> rfl

/-- A list of stores whose last is a whole-block store covers the block. -/
theorem coverR3 {e : EltTy} (w : S2048x512.Idx → Elt F e) (L : List (View.Piece (Elt F) S2048x512 e)) (y : S2048x512.Idx) :
    ∃ p ∈ (⟨Rect.unit ![0, 0] S2048x512.size inb_S2048x512_S2048x512_0_0, w⟩ : View.Piece (Elt F) S2048x512 e) :: L, y ∈ p.1.set := by
  refine ⟨⟨Rect.unit ![0, 0] S2048x512.size inb_S2048x512_S2048x512_0_0, w⟩, List.mem_cons_self .., ?_⟩
  dsimp only
  exact View.mem_set_unit_zero hzR3 inb_S2048x512_S2048x512_0_0 y

/-! ## The conditions in closed form; where the windows are idle -/

/-- The first test holds at the points with k = 0 — decided over the grid. -/
theorem hcond0R3 : ∀ t : Fin cfg3.N, cond0R3 (grid3.coords t) ↔ t.val % 8 = 0 :=
  (by decide +kernel : ∀ t : Fin grid3.N, cond0R3 (grid3.coords t) ↔ t.val % 8 = 0)
/-- The second test holds at the points with k = 7 — decided over the grid. -/
theorem hcond1R3 : ∀ t : Fin cfg3.N, cond1R3 (grid3.coords t) ↔ t.val % 8 = 7 :=
  (by decide +kernel : ∀ t : Fin grid3.N, cond1R3 (grid3.coords t) ↔ t.val % 8 = 7)

/-- The input windows are never idle. -/
theorem liveAtR3_0 : ∀ t : Fin cfg3.N, cfg3.idle 0 (grid3.coords t) = false := by decide +kernel
theorem liveAtR3_1 : ∀ t : Fin cfg3.N, cfg3.idle 1 (grid3.coords t) = false := by decide +kernel
theorem liveAtR3_2 : ∀ t : Fin cfg3.N, cfg3.idle 2 (grid3.coords t) = false := by decide +kernel
theorem liveAtR3_3 : ∀ t : Fin cfg3.N, cfg3.idle 3 (grid3.coords t) = false := by decide +kernel
/-- The output window is idle, and not written back, at the points with k < 7; live at those with k = 7. -/
theorem idleAtR3_4 : ∀ t : Fin cfg3.N, ¬cond1R3 (grid3.coords t) → cfg3.idle 4 (grid3.coords t) = true := by decide +kernel
theorem noFlushR3_4 : ∀ t : Fin cfg3.N, ¬cond1R3 (grid3.coords t) → (cfg3.win 4).flush t = false := by decide +kernel
theorem liveAtR3_4 : ∀ t : Fin cfg3.N, cond1R3 (grid3.coords t) → cfg3.idle 4 (grid3.coords t) = false := by decide +kernel

/-- Each window's current staging memref at point t, spelled as the pipeline passes it, and its wholeness. -/
abbrev msR3_0 (t : Fin cfg3.N) : Memref sig .tc .vmem S2048x1024 .bf16 := win3_0.stage (cfg3.slots t 0)
abbrev hsR3_0 (t : Fin cfg3.N) : (msR3_0 t).IsWhole := hstage3_0 ((cfg3.slots t 0).cast nbuf3_0)
abbrev msR3_1 (t : Fin cfg3.N) : Memref sig .tc .vmem S1024x512 .bf16 := win3_1.stage (cfg3.slots t 1)
abbrev hsR3_1 (t : Fin cfg3.N) : (msR3_1 t).IsWhole := hstage3_1 ((cfg3.slots t 1).cast nbuf3_1)
abbrev msR3_2 (t : Fin cfg3.N) : Memref sig .tc .vmem S512x512 .bf16 := win3_2.stage (cfg3.slots t 2)
abbrev hsR3_2 (t : Fin cfg3.N) : (msR3_2 t).IsWhole := hstage3_2 ((cfg3.slots t 2).cast nbuf3_2)
abbrev msR3_3 (t : Fin cfg3.N) : Memref sig .tc .vmem S1x512 .f32 := win3_3.stage (cfg3.slots t 3)
abbrev hsR3_3 (t : Fin cfg3.N) : (msR3_3 t).IsWhole := hstage3_3 ((cfg3.slots t 3).cast nbuf3_3)
abbrev msR3_4 (t : Fin cfg3.N) : Memref sig .tc .vmem S2048x512 .f32 := win3_4.stage (cfg3.slots t 4)
abbrev hsR3_4 (t : Fin cfg3.N) : (msR3_4 t).IsWhole := hstage3_4 ((cfg3.slots t 4).cast nbuf3_4)

/-- An input window's current staging buffer holds its block at every point, fetched there or not: unfetched, the
    block index has not moved, and the body leaves the block in place. -/
theorem beforeR3_0 (c : Dev nD) (t : Fin cfg3.N) (d) : (datR3 V c).before 0 t d = iblkR3 V c 0 t :=
  ((datR3 V c).before_in_eq_fetched 0 rfl (fun _ => rfl) (fun _ _ _ => rfl) (fun t => by rw [afterR3_0]; unfold Dat.blockOf iblkR3; rw [A_eqR3]; try rfl) t d).trans
    (by unfold Dat.fetched Dat.blockOf iblkR3; rw [A_eqR3]; try rfl)
theorem beforeR3_1 (c : Dev nD) (t : Fin cfg3.N) (d) : (datR3 V c).before 1 t d = iblkR3 V c 1 t :=
  ((datR3 V c).before_in_eq_fetched 1 rfl (fun _ => rfl) (fun _ _ _ => rfl) (fun t => by rw [afterR3_1]; unfold Dat.blockOf iblkR3; rw [A_eqR3]; try rfl) t d).trans
    (by unfold Dat.fetched Dat.blockOf iblkR3; rw [A_eqR3]; try rfl)
theorem beforeR3_2 (c : Dev nD) (t : Fin cfg3.N) (d) : (datR3 V c).before 2 t d = iblkR3 V c 2 t :=
  ((datR3 V c).before_in_eq_fetched 2 rfl (fun _ => rfl) (fun _ _ _ => rfl) (fun t => by rw [afterR3_2]; unfold Dat.blockOf iblkR3; rw [A_eqR3]; try rfl) t d).trans
    (by unfold Dat.fetched Dat.blockOf iblkR3; rw [A_eqR3]; try rfl)
theorem beforeR3_3 (c : Dev nD) (t : Fin cfg3.N) (d) : (datR3 V c).before 3 t d = iblkR3 V c 3 t :=
  ((datR3 V c).before_in_eq_fetched 3 rfl (fun _ => rfl) (fun _ _ _ => rfl) (fun t => by rw [afterR3_3]; unfold Dat.blockOf iblkR3; rw [A_eqR3]; try rfl) t d).trans
    (by unfold Dat.fetched Dat.blockOf iblkR3; rw [A_eqR3]; try rfl)

/-- What the launch hands the region, with the accumulator's buffer split off the other scoped buffers and read
    as a whole memref at some contents. -/
theorem PhiAR3_eq (c : Dev nD) :
    (Pipeline.ΦA spec3 c : sProp 𝕄)
      = iprop(iprop(iprop((∃ d, owns (c : Thread nD τ) scMR3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scMR3, owns_whole]; try rfl

/-! ## The body's three control cases

One triple per case, over any whole memrefs and any contents of the literal block types. Every load and store of the
body moves a whole block, so a buffer the body stored into reads back as the last store's payload, and a load reads
the buffer's contents; an accumulator cleared and then read back reads the cleared value. -/

set_option maxHeartbeats 4000000 in
/-- Case A (k = 0): the body clears the accumulator, adds the block product to it, and touches nothing else; what the accumulator held before does not matter. -/
theorem sound_kernelAR3 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : cond0R3 i) (hc1 : ¬cond1R3 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accAR3 a x)) -∗ K ⟨⟩))
      ⊢ wp frame (wpE (defs₀ (F := F)) Variants.none c none) E (cc3__gcn_layer_kernel_norelu i arg2 harg2 arg3 harg3 arg4 harg4 arg5 harg5 arg6 harg6 arg7 harg7) K := by
  simp only [cc3__gcn_layer_kernel_norelu_eq_skeleton]; unfold cc3__gcn_layer_kernel_norelu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [View.read_writes_eq_canon _ _ _ (coverR3 _ _), View.canon_cons_unit_zero (S := S2048x512) hzR3]
  simp only [View.readCov_unit_zero (S := S2048x512) _ hzR3, View.readAt_eq_ld, harg7.read_unread, harg2.read_unread, harg3.read_unread, harg4.read_unread, harg5.read_unread, View.ld_unit_zero (S := S2048x512) hzR3, View.ld_unit_zero (S := S2048x1024) hzR3, View.ld_unit_zero (S := S1024x512) hzR3, View.ld_unit_zero (S := S512x512) hzR3, View.ld_unit_zero (S := S1x512) hzR3]
  rfl

set_option maxHeartbeats 4000000 in
/-- Case B (0 < k < 7): the body adds the block product to the accumulator and touches nothing else. -/
theorem sound_kernelBR3 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R3 i) (hc1 : ¬cond1R3 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (xi)
            ∗ owns (c : Thread nD τ) arg7 fullShare (accBR3 s a x)) -∗ K ⟨⟩))
      ⊢ wp frame (wpE (defs₀ (F := F)) Variants.none c none) E (cc3__gcn_layer_kernel_norelu i arg2 harg2 arg3 harg3 arg4 harg4 arg5 harg5 arg6 harg6 arg7 harg7) K := by
  simp only [cc3__gcn_layer_kernel_norelu_eq_skeleton]; unfold cc3__gcn_layer_kernel_norelu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  rw [View.read_writes_eq_canon _ _ _ (coverR3 _ _), View.canon_unit_zero hzR3]
  simp only [View.readAt_eq_ld, harg7.read_unread, harg2.read_unread, harg3.read_unread, View.ld_unit_zero (S := S2048x512) hzR3, View.ld_unit_zero (S := S2048x1024) hzR3, View.ld_unit_zero (S := S1024x512) hzR3]
  rfl

set_option maxHeartbeats 4000000 in
/-- Case C (k = 7): the body adds the block product to the accumulator, then stores the output block computed from the finished accumulator, the weights and the bias row; what the output buffer held before does not matter. -/
theorem sound_kernelCR3 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)
    (hc0 : ¬cond0R3 i) (hc1 : cond1R3 i)
    (a : Vec F S2048x1024 .bf16) (x : Vec F S1024x512 .bf16) (w : Vec F S512x512 .bf16) (b : Vec F S1x512 .f32)
    (s : Vec F S2048x512 .f32) (xi : Vec F S2048x512 .f32) (E : Set ℕ) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ owns (c : Thread nD τ) arg6 fullShare xi ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b ∗ owns (c : Thread nD τ) arg6 fullShare (outCR3 (accBR3 s a x) w b)
            ∗ owns (c : Thread nD τ) arg7 fullShare (accBR3 s a x)) -∗ K ⟨⟩))
      ⊢ wp frame (wpE (defs₀ (F := F)) Variants.none c none) E (cc3__gcn_layer_kernel_norelu i arg2 harg2 arg3 harg3 arg4 harg4 arg5 harg5 arg6 harg6 arg7 harg7) K := by
  simp only [cc3__gcn_layer_kernel_norelu_eq_skeleton]; unfold cc3__gcn_layer_kernel_norelu_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (coverR3 _ _), View.canon_unit_zero hzR3]
    simp only [View.readCov_unit_zero (S := S2048x512) _ hzR3, View.readAt_eq_ld, harg7.read_unread, harg2.read_unread, harg3.read_unread, harg4.read_unread, harg5.read_unread, View.ld_unit_zero (S := S2048x512) hzR3, View.ld_unit_zero (S := S2048x1024) hzR3, View.ld_unit_zero (S := S1024x512) hzR3, View.ld_unit_zero (S := S512x512) hzR3, View.ld_unit_zero (S := S1x512) hzR3]
    rfl
  iexists _; isplitr
  swap; · iexact H7
  ipureintro
  sl_unfold_words
  rw [View.read_writes_eq_canon _ _ _ (coverR3 _ _), View.canon_unit_zero hzR3]
  simp only [View.readCov_unit_zero (S := S2048x512) _ hzR3, View.readAt_eq_ld, harg7.read_unread, harg2.read_unread, harg3.read_unread, harg4.read_unread, harg5.read_unread, View.ld_unit_zero (S := S2048x512) hzR3, View.ld_unit_zero (S := S2048x1024) hzR3, View.ld_unit_zero (S := S1024x512) hzR3, View.ld_unit_zero (S := S512x512) hzR3, View.ld_unit_zero (S := S1x512) hzR3]
  rfl

/-! ## The body obligation, at a generic point -/

/-- What the body is called with at point t: the invariant, the core's debt, and each window's current staging
    buffer at what it holds when the body runs. -/
def bodyPreR3 (c : Dev nD) (t : Fin cfg3.N) : sProp 𝕄 :=
  iprop((datR3 V c).Φ t.castSucc ∗ (datR3 V c).owesAt () t.castSucc
    ∗ (∃ d, owns (c : Thread nD τ) (msR3_0 t) fullShare ((datR3 V c).before 0 t d))
    ∗ (∃ d, owns (c : Thread nD τ) (msR3_1 t) fullShare ((datR3 V c).before 1 t d))
    ∗ (∃ d, owns (c : Thread nD τ) (msR3_2 t) fullShare ((datR3 V c).before 2 t d))
    ∗ (∃ d, owns (c : Thread nD τ) (msR3_3 t) fullShare ((datR3 V c).before 3 t d))
    ∗ (∃ d, owns (c : Thread nD τ) (msR3_4 t) fullShare ((datR3 V c).before 4 t d)))

/-- And what it returns. -/
def bodyPostR3 (c : Dev nD) (t : Fin cfg3.N) : sProp 𝕄 :=
  iprop((datR3 V c).Φ t.succ ∗ (datR3 V c).owesAt () t.succ
    ∗ (datR3 V c).leavesExact 0 t
    ∗ (datR3 V c).leavesExact 1 t
    ∗ (datR3 V c).leavesExact 2 t
    ∗ (datR3 V c).leavesExact 3 t
    ∗ (datR3 V c).leavesExact 4 t)

set_option maxHeartbeats 4000000 in
/-- The body at any point. The inputs' buffers hold their blocks; the residue of the point modulo 8 says which of the
    three cases it is in, and that case's triple applies. The invariant hands the body the accumulator — at what the
    point before left, or at anything before the first point — and takes it back at this point's contents; the
    output's buffer comes back untouched where the window is idle, and at the stored block where k = 7. -/
theorem sound_bodyR3 (c : Dev nD) (t : Fin cfg3.N) :
    bodyPreR3 V c t ⊢ wp frame (wpE (defs₀ (F := F)) Variants.none c none) Set.univ (bodyAt3 t) (fun _ => bodyPostR3 V c t) := by
  unfold bodyPreR3 bodyPostR3 bodyAt3
  simp only [beforeR3_0, beforeR3_1, beforeR3_2, beforeR3_3]
  rw [show (datR3 V c).owesAt () t.succ = (datR3 V c).owesAt () t.castSucc from rfl]
  rw [show (datR3 V c).Φ t.succ = PhiSR3 V c (t.val + 1) t.isLt from rfl, PhiSR3_succ]
  have hN : t.val < 32 := lt_of_lt_of_eq t.isLt (show cfg3.N = 32 from N_3)
  rw [show (datR3 V c).leavesExact 0 t = owns (c : Thread nD τ) (msR3_0 t) fullShare ((datR3 V c).after 0 t) from by
    unfold Dat.leavesExact; rw [liveAtR3_0 t], afterR3_0]
  rw [show (datR3 V c).leavesExact 1 t = owns (c : Thread nD τ) (msR3_1 t) fullShare ((datR3 V c).after 1 t) from by
    unfold Dat.leavesExact; rw [liveAtR3_1 t], afterR3_1]
  rw [show (datR3 V c).leavesExact 2 t = owns (c : Thread nD τ) (msR3_2 t) fullShare ((datR3 V c).after 2 t) from by
    unfold Dat.leavesExact; rw [liveAtR3_2 t], afterR3_2]
  rw [show (datR3 V c).leavesExact 3 t = owns (c : Thread nD τ) (msR3_3 t) fullShare ((datR3 V c).after 3 t) from by
    unfold Dat.leavesExact; rw [liveAtR3_3 t], afterR3_3]
  by_cases h0 : t.val % 8 = 0
  · have h1 : ¬t.val % 8 = 7 := by omega
    rw [Dat.leavesExact_idle (datR3 V c) 4 t (idleAtR3_4 t (fun h => h1 ((hcond1R3 t).mp h))) (noFlushR3_4 t (fun h => h1 ((hcond1R3 t).mp h)))]
    rw [outsAtR3_A V c t h0]; dsimp only
    by_cases hz : t.val = 0
    · rw [PhiSR3_castSucc V c t, PhiSR3_zero V c _ _ hz, PhiAR3_eq]
      iintro ⟨⟨⟨⟨%d7, HS⟩, HR⟩, Hg⟩, Ho, ⟨%d0, H0⟩, ⟨%d1, H1⟩, ⟨%d2, H2⟩, ⟨%d3, H3⟩, ⟨%d4, H4⟩⟩
      iapply (sound_kernelAR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) ((hcond0R3 t).mpr h0) (fun h => h1 ((hcond1R3 t).mp h)) (iblkR3 V c 0 t) (iblkR3 V c 1 t) (iblkR3 V c 2 t) (iblkR3 V c 3 t) d7 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiSR3_castSucc V c t, PhiSR3_pos V c _ _ hz]
      iintro ⟨⟨HS, HR, Hg⟩, Ho, ⟨%d0, H0⟩, ⟨%d1, H1⟩, ⟨%d2, H2⟩, ⟨%d3, H3⟩, ⟨%d4, H4⟩⟩
      iapply (sound_kernelAR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) ((hcond0R3 t).mpr h0) (fun h => h1 ((hcond1R3 t).mp h)) (iblkR3 V c 0 t) (iblkR3 V c 1 t) (iblkR3 V c 2 t) (iblkR3 V c 3 t) (outsAtR3 V c (t.val - 1) (Nat.lt_of_le_of_lt (Nat.sub_le _ _) t.isLt)).2 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiSR3_castSucc V c t, PhiSR3_pos V c _ _ hz]
    by_cases h1 : t.val % 8 = 7
    · rw [show (datR3 V c).leavesExact 4 t = owns (c : Thread nD τ) (msR3_4 t) fullShare ((datR3 V c).after 4 t) from by
        unfold Dat.leavesExact; rw [liveAtR3_4 t ((hcond1R3 t).mpr h1)], afterR3_4]
      rw [outsAtR3_C V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelCR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) (fun h => h0 ((hcond0R3 t).mp h)) ((hcond1R3 t).mpr h1) (iblkR3 V c 0 t) (iblkR3 V c 1 t) (iblkR3 V c 2 t) (iblkR3 V c 3 t) (outsAtR3 V c (t.val - 1) (Nat.lt_of_le_of_lt (Nat.sub_le _ _) t.isLt)).2 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (datR3 V c) 4 t (idleAtR3_4 t (fun h => h1 ((hcond1R3 t).mp h))) (noFlushR3_4 t (fun h => h1 ((hcond1R3 t).mp h)))]
      rw [outsAtR3_B V c t h0 h1]; dsimp only
      iintro ⟨⟨HS, HR, Hg⟩, Ho, ⟨%d0, H0⟩, ⟨%d1, H1⟩, ⟨%d2, H2⟩, ⟨%d3, H3⟩, ⟨%d4, H4⟩⟩
      iapply (sound_kernelBR3 c (grid3.coords t) (msR3_0 t) (hsR3_0 t) (msR3_1 t) (hsR3_1 t) (msR3_2 t) (hsR3_2 t) (msR3_3 t) (hsR3_3 t) (msR3_4 t) (hsR3_4 t) scMR3 (Memref.isWhole_whole _) (fun h => h0 ((hcond0R3 t).mp h)) (fun h => h1 ((hcond1R3 t).mp h)) (iblkR3 V c 0 t) (iblkR3 V c 1 t) (iblkR3 V c 2 t) (iblkR3 V c 3 t) (outsAtR3 V c (t.val - 1) (Nat.lt_of_le_of_lt (Nat.sub_le _ _) t.isLt)).2 ((datR3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 3, at every point. -/
theorem body_obligationR3 (c : Dev nD) : BodyObligation (datR3 (F := F) V c) (defs₀ (F := F)) Variants.none () Set.univ := fun t => by
  rw [bigSep_W3, bigSep_W3]
  exact sound_bodyR3 V c t

/-- What the launch hands the region is the invariant before the first point. -/
theorem hinR3 (c : Dev nD) : Pipeline.ΦA spec3 c ⊢ (datR3 V c).Φ 0 := by
  rw [show (datR3 V c).Φ 0 = PhiSR3 V c 0 (Nat.zero_le _) from rfl, PhiSR3_zero V c 0 _ rfl]
  try exact Idealize.SL.BI.Entails.refl _

/-- After any point but the first the invariant gives the scoped buffers and the generator register back: what the
    accumulator holds is forgotten. -/
theorem Phi_outR3 (c : Dev nD) (t : Fin (cfg3.N + 1)) (ht : t.val ≠ 0) : (datR3 V c).Φ t ⊢ Pipeline.ΦA spec3 c := by
  rw [show (datR3 V c).Φ t = PhiSR3 V c t.val (Nat.le_of_lt_succ t.isLt) from rfl, PhiSR3_pos V c _ _ ht, PhiAR3_eq]
  iintro ⟨HS, HR, Hg⟩
  isplitl [HS HR]
  · isplitl [HS]; · iexists _; iexact HS
    iexact HR
  iexact Hg

/-- After the last point the invariant gives the scoped buffers and the generator register back. -/
theorem houtR3 (c : Dev nD) : (datR3 V c).Φ (Fin.last cfg3.N) ⊢ Pipeline.ΦA spec3 c :=
  Phi_outR3 V c _ (by rw [Fin.val_last]; have : cfg3.N = 32 := N_3; omega)

end Cert.KernelIdeal.H

end
-- ==== Proof.KIRun.lean ====
/- The run of the kernel program: every weakly fair execution of @main terminates, nothing faulting, with the result array at what region 3 leaves and every argument array as launched. -/
import proofs.«125958_j34282428956966_1_alg».proof.Proof.KIVals
import proofs.«125958_j34282428956966_1_alg».proof.Proof.KIBody0
import proofs.«125958_j34282428956966_1_alg».proof.Proof.KIBody1
import proofs.«125958_j34282428956966_1_alg».proof.Proof.KIBody2
import proofs.«125958_j34282428956966_1_alg».proof.Proof.KIBody3

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves: the two facts its exit needs -/

/-- Region 0's exit: each of its arrays holds what the pipeline leaves. An input window's array is never written back,
    so it is the entry contents, which the exit valuation keeps (it changes `main_v46` only); the output window's array
    is `main_v46`, where the exit valuation is by definition what the write-backs fold to. -/
theorem hF0 (c : Dev nD) (w : Fin cfg0.W) :
    (datR0 (atTc (X5 m)) c).arrAt w cfg0.N = atTc (X6 m) c (Pipeline.arrRef spec0 w) := by
  have hin : ∀ w : Fin cfg0.W, (cfg0.win w).isOut = false → Pipeline.arrRef spec0 w ≠ main_v46 →
      (datR0 (atTc (X5 m)) c).arrAt w cfg0.N = atTc (X6 m) c (Pipeline.arrRef spec0 w) := fun w hw hne =>
    ((datR0 (atTc (X5 m)) c).arrAt_in w hw _).trans ((A_eqR0 (atTc (X5 m)) c w).trans
      (Function.update_of_ne (StableHlo.devRef_ne_of_ne hne : (Proc.devRef .tc (Pipeline.arrRef spec0 w) : DevRef τ sig) ≠ Proc.devRef .tc main_v46) _ _).symm)
  match w with
  | ⟨0, _⟩ => exact hin 0 rfl (by decide)
  | ⟨1, _⟩ => exact hin 1 rfl (by decide)
  | ⟨2, _⟩ => exact hin 2 rfl (by decide)
  | ⟨3, _⟩ => exact (Function.update_self (Proc.devRef .tc main_v46 : DevRef τ sig) (o6 m c) (X5 m c)).symm
/-- Region 0's exit: every buffer that is none of its arrays is as it was at entry (it differs from `main_v46`). -/
theorem hrest0 (c : Dev nD) : ∀ b, b ∉ Finset.univ.image (Pipeline.arrRef spec0) → atTc (X6 m) c b = atTc (X5 m) c b :=
  fun b hb => Function.update_of_ne (StableHlo.devRef_ne_of_ne fun e : b = main_v46 =>
    hb (Finset.mem_image.mpr ⟨3, Finset.mem_univ _, (show Pipeline.arrRef spec0 3 = main_v46 from rfl).trans e.symm⟩)) _ _

/-- Region 1's exit: each of its arrays holds what the pipeline leaves. An input window's array is never written back,
    so it is the entry contents, which the exit valuation keeps (it changes `main_v50` only); the output window's array
    is `main_v50`, where the exit valuation is by definition what the write-backs fold to. -/
theorem hF1 (c : Dev nD) (w : Fin cfg1.W) :
    (datR1 (atTc (X7 m)) c).arrAt w cfg1.N = atTc (X8 m) c (Pipeline.arrRef spec1 w) := by
  have hin : ∀ w : Fin cfg1.W, (cfg1.win w).isOut = false → Pipeline.arrRef spec1 w ≠ main_v50 →
      (datR1 (atTc (X7 m)) c).arrAt w cfg1.N = atTc (X8 m) c (Pipeline.arrRef spec1 w) := fun w hw hne =>
    ((datR1 (atTc (X7 m)) c).arrAt_in w hw _).trans ((A_eqR1 (atTc (X7 m)) c w).trans
      (Function.update_of_ne (StableHlo.devRef_ne_of_ne hne : (Proc.devRef .tc (Pipeline.arrRef spec1 w) : DevRef τ sig) ≠ Proc.devRef .tc main_v50) _ _).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self (Proc.devRef .tc main_v50 : DevRef τ sig) (o8 m c) (X7 m c)).symm
/-- Region 1's exit: every buffer that is none of its arrays is as it was at entry (it differs from `main_v50`). -/
theorem hrest1 (c : Dev nD) : ∀ b, b ∉ Finset.univ.image (Pipeline.arrRef spec1) → atTc (X8 m) c b = atTc (X7 m) c b :=
  fun b hb => Function.update_of_ne (StableHlo.devRef_ne_of_ne fun e : b = main_v50 =>
    hb (Finset.mem_image.mpr ⟨4, Finset.mem_univ _, (show Pipeline.arrRef spec1 4 = main_v50 from rfl).trans e.symm⟩)) _ _

/-- Region 2's exit: each of its arrays holds what the pipeline leaves. An input window's array is never written back,
    so it is the entry contents, which the exit valuation keeps (it changes `main_v54` only); the output window's array
    is `main_v54`, where the exit valuation is by definition what the write-backs fold to. -/
theorem hF2 (c : Dev nD) (w : Fin cfg2.W) :
    (datR2 (atTc (X9 m)) c).arrAt w cfg2.N = atTc (X10 m) c (Pipeline.arrRef spec2 w) := by
  have hin : ∀ w : Fin cfg2.W, (cfg2.win w).isOut = false → Pipeline.arrRef spec2 w ≠ main_v54 →
      (datR2 (atTc (X9 m)) c).arrAt w cfg2.N = atTc (X10 m) c (Pipeline.arrRef spec2 w) := fun w hw hne =>
    ((datR2 (atTc (X9 m)) c).arrAt_in w hw _).trans ((A_eqR2 (atTc (X9 m)) c w).trans
      (Function.update_of_ne (StableHlo.devRef_ne_of_ne hne : (Proc.devRef .tc (Pipeline.arrRef spec2 w) : DevRef τ sig) ≠ Proc.devRef .tc main_v54) _ _).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self (Proc.devRef .tc main_v54 : DevRef τ sig) (o10 m c) (X9 m c)).symm
/-- Region 2's exit: every buffer that is none of its arrays is as it was at entry (it differs from `main_v54`). -/
theorem hrest2 (c : Dev nD) : ∀ b, b ∉ Finset.univ.image (Pipeline.arrRef spec2) → atTc (X10 m) c b = atTc (X9 m) c b :=
  fun b hb => Function.update_of_ne (StableHlo.devRef_ne_of_ne fun e : b = main_v54 =>
    hb (Finset.mem_image.mpr ⟨4, Finset.mem_univ _, (show Pipeline.arrRef spec2 4 = main_v54 from rfl).trans e.symm⟩)) _ _

/-- Region 3's exit: each of its arrays holds what the pipeline leaves. An input window's array is never written back,
    so it is the entry contents, which the exit valuation keeps (it changes `main_v58` only); the output window's array
    is `main_v58`, where the exit valuation is by definition what the write-backs fold to. -/
theorem hF3 (c : Dev nD) (w : Fin cfg3.W) :
    (datR3 (atTc (X11 m)) c).arrAt w cfg3.N = atTc (X12 m) c (Pipeline.arrRef spec3 w) := by
  have hin : ∀ w : Fin cfg3.W, (cfg3.win w).isOut = false → Pipeline.arrRef spec3 w ≠ main_v58 →
      (datR3 (atTc (X11 m)) c).arrAt w cfg3.N = atTc (X12 m) c (Pipeline.arrRef spec3 w) := fun w hw hne =>
    ((datR3 (atTc (X11 m)) c).arrAt_in w hw _).trans ((A_eqR3 (atTc (X11 m)) c w).trans
      (Function.update_of_ne (StableHlo.devRef_ne_of_ne hne : (Proc.devRef .tc (Pipeline.arrRef spec3 w) : DevRef τ sig) ≠ Proc.devRef .tc main_v58) _ _).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (Function.update_self (Proc.devRef .tc main_v58 : DevRef τ sig) (o12 m c) (X11 m c)).symm
/-- Region 3's exit: every buffer that is none of its arrays is as it was at entry (it differs from `main_v58`). -/
theorem hrest3 (c : Dev nD) : ∀ b, b ∉ Finset.univ.image (Pipeline.arrRef spec3) → atTc (X12 m) c b = atTc (X11 m) c b :=
  fun b hb => Function.update_of_ne (StableHlo.devRef_ne_of_ne fun e : b = main_v58 =>
    hb (Finset.mem_image.mpr ⟨4, Finset.mem_univ _, (show Pipeline.arrRef spec3 4 = main_v58 from rfl).trans e.symm⟩)) _ _

/-! ## The arguments survive: no host stretch writes one and no region's output array is one -/

/-- A reference that no host stretch writes and that is no region's output array holds at the end of @main what it
    held at launch: the last valuation walks back through the four region steps (each changes one array) and the
    eight host stretches (each changes only what its operations write). -/
theorem X12_of (c : Dev nD) (r : Ref sig .tc) (h58 : r ≠ main_v58) (h3 : r ∉ hostOps3_W) (h54 : r ≠ main_v54) (h2 : r ∉ hostOps2_W)
    (h50 : r ≠ main_v50) (h1 : r ∉ hostOps1_W) (h46 : r ≠ main_v46) (h04 : r ∉ hostOps0_4_W) (h03 : r ∉ hostOps0_3_W)
    (h02 : r ∉ hostOps0_2_W) (h01 : r ∉ hostOps0_1_W) (h00 : r ∉ hostOps0_W) :
    X12 m c (Proc.devRef .tc r) = m ((c : Thread nD τ).loc r) :=
  (Function.update_of_ne (StableHlo.devRef_ne_of_ne h58 : (Proc.devRef .tc r : DevRef τ sig) ≠ Proc.devRef .tc main_v58) _ _).trans <|
  (StableHlo.after_of_writes_sub hostOps3 _ hostOps3_writes h3).trans <|
  (Function.update_of_ne (StableHlo.devRef_ne_of_ne h54 : (Proc.devRef .tc r : DevRef τ sig) ≠ Proc.devRef .tc main_v54) _ _).trans <|
  (StableHlo.after_of_writes_sub hostOps2 _ hostOps2_writes h2).trans <|
  (Function.update_of_ne (StableHlo.devRef_ne_of_ne h50 : (Proc.devRef .tc r : DevRef τ sig) ≠ Proc.devRef .tc main_v50) _ _).trans <|
  (StableHlo.after_of_writes_sub hostOps1 _ hostOps1_writes h1).trans <|
  (Function.update_of_ne (StableHlo.devRef_ne_of_ne h46 : (Proc.devRef .tc r : DevRef τ sig) ≠ Proc.devRef .tc main_v46) _ _).trans <|
  (V5_of m c r h04).trans <| (V4_of m c r h03).trans <| (V3_of m c r h02).trans <| (V2_of m c r h01).trans <| (V1_of m c r h00).trans rfl

/-- The result array at the end of @main is what region 3 leaves there. -/
theorem X12_out (c : Dev nD) : X12 m c (Proc.devRef .tc main_v58) = o12 m c := by
  unfold X12; exact Function.update_self (Proc.devRef .tc main_v58 : DevRef τ sig) (o12 m c) (X11 m c)

/-! ## The proof data of the four pipelines, each at its region's entry contents -/

/-- Every pipeline's proof data at the valuation its region is entered from, as a literal case split so that the
    configuration of pipeline `K` reduces to the printed one. -/
def pdats : (p : Fin 4) → (c : Dev nD) → Dat τ (Elt F) Unit ℕ (UR sig nD τ) ℕ (Pipeline.pin (pcfgs (F := F)) adm p) c
  | ⟨0, _⟩ => fun c => datR0 (atTc (X5 m)) c
  | ⟨1, _⟩ => fun c => datR1 (atTc (X7 m)) c
  | ⟨2, _⟩ => fun c => datR2 (atTc (X9 m)) c
  | ⟨3, _⟩ => fun c => datR3 (atTc (X11 m)) c

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the unscoped buffers through every item: the core's generator register at some state (a
    region's invariant takes it in and gives it back) and the core owing nothing. -/
abbrev R (c : Dev nD) : sProp 𝕄 := iprop((∃ r, prngReg c r) ∗ ∃ W, owes (c : Thread nD τ) (0 : CellTallies nD τ sig Unit) W)
/-- A host stretch as a segment: its operations run over the unscoped buffers from the contents `W`, `R` riding
    along, and leave them at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents region 3 leaves, the generator
    register at some state. -/
abbrev Tₙ (c : Dev nD) : sProp 𝕄 := iprop(StableHlo.held (c : Thread nD τ) (Pipeline.ucRefs τ sig) (X12 m c) ∗ ∃ r, prngReg c r)

/-! ## The regions as segments -/

set_option backward.isDefEq.respectTransparency.types false in
/-- REGION 0 (the embedding layer) over the thread state: entered with every unscoped buffer at `X5`, left with them at `X6`.
    Its windows' arrays are split out of the unscoped buffers at entry and put back at the exit contents; the
    generator register goes into the region invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (atTc (X5 m)) c).loose
  hwaits := Pipeline.hwaits_of_owed_zero _ _ _ _ L lv 0 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (atTc (X5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X5 m) c) (atTc (X6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the first graph-convolution layer) over the thread state: entered with every unscoped buffer at `X7`, left with them at `X8`.
    Its windows' arrays are split out of the unscoped buffers at entry and put back at the exit contents; the
    generator register and the scoped buffers (the accumulator among them) go into the region invariant and come back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (atTc (X7 m)) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (atTc (X7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (atTc (X7 m)) c)
    unfold Pipeline.ΦA
    iintro ⟨Hp, -, Hr⟩
    isplitl [Hr]; · iexact Hr
    iexact Hp
  hout c := by
    rw [Pipeline.ownSems0_none]
    refine BIBase.Entails.trans (houtR1 (atTc (X7 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X7 m) c) (atTc (X8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the second graph-convolution layer) over the thread state: entered with every unscoped buffer at `X9`, left with them at `X10`.
    Its windows' arrays are split out of the unscoped buffers at entry and put back at the exit contents; the
    generator register and the scoped buffers (the accumulator among them) go into the region invariant and come back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligationR2 (atTc (X9 m)) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (atTc (X9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR2 (atTc (X9 m)) c)
    unfold Pipeline.ΦA
    iintro ⟨Hp, -, Hr⟩
    isplitl [Hr]; · iexact Hr
    iexact Hp
  hout c := by
    rw [Pipeline.ownSems0_none]
    refine BIBase.Entails.trans (houtR2 (atTc (X9 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X9 m) c) (atTc (X10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the last graph-convolution layer, no rectifier) over the thread state: entered with every unscoped buffer at `X11`, left with them at `X12`.
    Its windows' arrays are split out of the unscoped buffers at entry and put back at the exit contents; the
    generator register and the scoped buffers (the accumulator among them) go into the region invariant and come back; nothing is owed; the kernel has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligationR3 (atTc (X11 m)) c).loose
  hwaits := Pipeline.hwaits_of_owed_zero _ _ _ _ L lv 3 fun _ _ => rfl
  pre c := iprop(StableHlo.held (c : Thread nD τ) (Pipeline.ucRefs τ sig) (X11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (atTc (X11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR3 (atTc (X11 m)) c)
    unfold Pipeline.ΦA
    iintro ⟨Hp, -, Hr⟩
    isplitl [Hr]; · iexact Hr
    iexact Hp
  hout c := by
    rw [Pipeline.ownSems0_none]
    refine BIBase.Entails.trans (houtR3 (atTc (X11 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X11 m) c) (atTc (X12 m) c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's twelve items in order: the five host stretches that build the normalized adjacency matrix and reshape the
    embedding bias, region 0, then three times a host stretch (format changes and a bias reshape) and a region. Each
    host stretch starts from the contents the item before it leaves. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (X6 m)),
    .region (reg1 m),
    .host (hseg hostOps2 hostOps2_sub hostOps2_fresh (X8 m)),
    .region (reg2 m),
    .host (hseg hostOps3 hostOps3_sub hostOps3_fresh (X10 m)),
    .region (reg3 m) ]

set_option backward.isDefEq.respectTransparency.types false in
/-- The run: from any memory with zero counters @main terminates without a fault; the result array holds what
    region 3 leaves (`o12`) and the ten argument arrays are unchanged. -/
theorem run_main : θ_run defs (onTc (τ := τ) (main (F := F))) ⟨m, fun _ => 0, ρ⟩ (fun r => ∀ c : Dev nD,
      r.2.mem ((c.tc : Thread nD τ).loc main_v58) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X12 m c b)
    (hfin := fun c s' => by
      iintro ⟨⟨Hh, -⟩, HSI⟩
      unfold StableHlo.held
      imodintro
      iapply (pointsTo_read_all (Pipeline.ucRefs τ sig) (fun b => (((c : Thread nD τ)).1, b)) (X12 m c) s')
      isplitl [Hh] <;> iassumption)
    (hQ := fun s h c =>
      ⟨(h c _ (mem_uc main_v58 (by decide))).trans (X12_out m c),
        (h c _ (mem_uc main_arg0 (by decide))).trans (X12_of m c main_arg0 (by decide) (by decide) (by decide) (by decide) (by decide) (by decide) (by decide) (by decide) (by decide) (by decide) (by decide) (by decide)),
        (h c _ (mem_uc main_arg1 (by decide))).trans (X12_of m c main_arg1 (by decide) (by decide) (by decide) (by decide) (by decide) (by decide) (by decide) (by decide) (by decide) (by decide) (by decide) (by decide)),
        (h c _ (mem_uc main_arg2 (by decide))).trans (X12_of m c main_arg2 (by decide) (by decide) (by decide) (by decide) (by decide) (by decide) (by decide) (by decide) (by decide) (by decide) (by decide) (by decide)),
        (h c _ (mem_uc main_arg3 (by decide))).trans (X12_of m c main_arg3 (by decide) (by decide) (by decide) (by decide) (by decide) (by decide) (by decide) (by decide) (by decide) (by decide) (by decide) (by decide)),
        (h c _ (mem_uc main_arg4 (by decide))).trans (X12_of m c main_arg4 (by decide) (by decide) (by decide) (by decide) (by decide) (by decide) (by decide) (by decide) (by decide) (by decide) (by decide) (by decide)),
        (h c _ (mem_uc main_arg5 (by decide))).trans (X12_of m c main_arg5 (by decide) (by decide) (by decide) (by decide) (by decide) (by decide) (by decide) (by decide) (by decide) (by decide) (by decide) (by decide)),
        (h c _ (mem_uc main_arg6 (by decide))).trans (X12_of m c main_arg6 (by decide) (by decide) (by decide) (by decide) (by decide) (by decide) (by decide) (by decide) (by decide) (by decide) (by decide) (by decide)),
        (h c _ (mem_uc main_arg7 (by decide))).trans (X12_of m c main_arg7 (by decide) (by decide) (by decide) (by decide) (by decide) (by decide) (by decide) (by decide) (by decide) (by decide) (by decide) (by decide)),
        (h c _ (mem_uc main_arg8 (by decide))).trans (X12_of m c main_arg8 (by decide) (by decide) (by decide) (by decide) (by decide) (by decide) (by decide) (by decide) (by decide) (by decide) (by decide) (by decide)),
        (h c _ (mem_uc main_arg9 (by decide))).trans (X12_of m c main_arg9 (by decide) (by decide) (by decide) (by decide) (by decide) (by decide) (by decide) (by decide) (by decide) (by decide) (by decide) (by decide))⟩)

end Cert.KernelIdeal.H

end
-- ==== Proof.Spec.lean ====
/-
  The mathematics both programs compute, over the extended reals, index by index.
  `emb X W b`  : the embedding layer, X W + b (b a row broadcast down the 8192 rows).
  `layer act A x W b` : one graph-convolution layer, act ((A x) W + b), A the 8192 x 8192 normalized
  adjacency matrix; the inner sum runs over all 8192 neighbours at once.
  `layerBlk` is the same layer with the neighbour sum taken in eight consecutive chunks of 1024, the
  partial sums added left to right starting from zero: the order in which a kernel that walks the
  adjacency matrix block by block accumulates.  `layerBlk_eq` says the two agree: addition of
  extended reals is commutative and associative, so regrouping a finite sum changes nothing
  (no finiteness of the summands is needed).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

abbrev SX : Shape := ⟨2, ![8192, 128]⟩
abbrev SWe : Shape := ⟨2, ![128, 512]⟩
abbrev SB : Shape := ⟨2, ![1, 512]⟩
abbrev SH : Shape := ⟨2, ![8192, 512]⟩
abbrev SA : Shape := ⟨2, ![8192, 8192]⟩
abbrev SW : Shape := ⟨2, ![512, 512]⟩

/-- The rectifier on the extended reals. -/
def relu (z : EReal) : EReal := max z 0

/-- X W + b at row p, column q, the bias a [1, 512] row. -/
def embAt (X : SX.Idx → EReal) (W : SWe.Idx → EReal) (b : SB.Idx → EReal) (p : Fin 8192) (q : Fin 512) : EReal :=
  (∑ k : Fin 128, X (ix2 p k) * W (ix2 k q)) + b (ix2 (0 : Fin 1) q)
/-- X W + b as an array. -/
def emb (X : SX.Idx → EReal) (W : SWe.Idx → EReal) (b : SB.Idx → EReal) : SH.Idx → EReal :=
  fun i => embAt X W b (i 0) (i 1)

/-- The neighbour sum (A x) at row p, column j. -/
def agg (A : SA.Idx → EReal) (x : SH.Idx → EReal) (p : Fin 8192) (j : Fin 512) : EReal :=
  ∑ k : Fin 8192, A (ix2 p k) * x (ix2 k j)

/-- The same sum taken chunk by chunk: eight chunks of 1024 neighbours, folded left to right from zero. -/
def aggBlk (A : SA.Idx → EReal) (x : SH.Idx → EReal) (p : Fin 8192) (j : Fin 512) : ℕ → EReal
  | 0 => 0
  | n + 1 => aggBlk A x p j n + ∑ kk : Fin 1024, (if h : 1024 * n + kk.val < 8192 then A (ix2 p ⟨1024 * n + kk.val, h⟩) * x (ix2 ⟨1024 * n + kk.val, h⟩ j) else 0)

/-- act ((A x) W + b) at row p, column q. -/
def layerAt (act : EReal → EReal) (A : SA.Idx → EReal) (x : SH.Idx → EReal) (W : SW.Idx → EReal) (b : SB.Idx → EReal) (p : Fin 8192) (q : Fin 512) : EReal :=
  act ((∑ j : Fin 512, agg A x p j * W (ix2 j q)) + b (ix2 (0 : Fin 1) q))
/-- act ((A x) W + b) as an array. -/
def layer (act : EReal → EReal) (A : SA.Idx → EReal) (x : SH.Idx → EReal) (W : SW.Idx → EReal) (b : SB.Idx → EReal) : SH.Idx → EReal :=
  fun i => layerAt act A x W b (i 0) (i 1)

/-- The layer with the neighbour sum accumulated over the eight chunks, at row p, column q. -/
def layerBlkAt (act : EReal → EReal) (A : SA.Idx → EReal) (x : SH.Idx → EReal) (W : SW.Idx → EReal) (b : SB.Idx → EReal) (p : Fin 8192) (q : Fin 512) : EReal :=
  act ((∑ j : Fin 512, aggBlk A x p j 8 * W (ix2 j q)) + b (ix2 (0 : Fin 1) q))
/-- The same as an array. -/
def layerBlk (act : EReal → EReal) (A : SA.Idx → EReal) (x : SH.Idx → EReal) (W : SW.Idx → EReal) (b : SB.Idx → EReal) : SH.Idx → EReal :=
  fun i => layerBlkAt act A x W b (i 0) (i 1)

/-- After n chunks the fold is the sum over the first 1024 n neighbours (a term past 8192 counts as zero):
each step appends the next 1024 terms to the range. -/
theorem aggBlk_range (A : SA.Idx → EReal) (x : SH.Idx → EReal) (p : Fin 8192) (j : Fin 512) (n : ℕ) :
    aggBlk A x p j n = ∑ k ∈ Finset.range (1024 * n),
      (if h : k < 8192 then A (ix2 p ⟨k, h⟩) * x (ix2 ⟨k, h⟩ j) else 0) := by
  induction n with
  | zero => simp [aggBlk]
  | succ n ih =>
    rw [aggBlk, ih, Nat.mul_succ, Finset.sum_range_add]
    exact congrArg _ (Fin.sum_univ_eq_sum_range (fun kk => if h : 1024 * n + kk < 8192 then A (ix2 p ⟨1024 * n + kk, h⟩) * x (ix2 ⟨1024 * n + kk, h⟩ j) else 0) 1024)

/-- Eight chunks of 1024 exhaust the 8192 neighbours. -/
theorem aggBlk_eight (A : SA.Idx → EReal) (x : SH.Idx → EReal) (p : Fin 8192) (j : Fin 512) :
    aggBlk A x p j 8 = agg A x p j := by
  -- the fold is the sum over the first 8192 naturals; read it back as a sum over Fin 8192, where every guard holds
  rw [aggBlk_range, agg]
  refine (Fin.sum_univ_eq_sum_range (fun k => if h : k < 8192 then A (ix2 p ⟨k, h⟩) * x (ix2 ⟨k, h⟩ j) else 0) 8192).symm.trans ?_
  refine Finset.sum_congr rfl (fun k _ => ?_)
  exact dif_pos k.isLt

theorem layerBlkAt_eq (act : EReal → EReal) (A : SA.Idx → EReal) (x : SH.Idx → EReal) (W : SW.Idx → EReal) (b : SB.Idx → EReal)
    (p : Fin 8192) (q : Fin 512) : layerBlkAt act A x W b p q = layerAt act A x W b p q := by
  simp only [layerBlkAt, layerAt, aggBlk_eight]

theorem layerBlk_eq (act : EReal → EReal) (A : SA.Idx → EReal) (x : SH.Idx → EReal) (W : SW.Idx → EReal) (b : SB.Idx → EReal) :
    layerBlk act A x W b = layer act A x W b := by
  funext i; exact layerBlkAt_eq act A x W b (i 0) (i 1)

/-- The whole network: three layers over the embedding, the last without the rectifier. -/
def gcn (A : SA.Idx → EReal) (X : SX.Idx → EReal) (We : SWe.Idx → EReal) (be : SB.Idx → EReal)
    (W1 : SW.Idx → EReal) (b1 : SB.Idx → EReal) (W2 : SW.Idx → EReal) (b2 : SB.Idx → EReal)
    (W3 : SW.Idx → EReal) (b3 : SB.Idx → EReal) : SH.Idx → EReal :=
  layer id A (layer relu A (layer relu A (emb X We be) W1 b1) W2 b2) W3 b3

end Cert.Spec

end
-- ==== Proof.KIVal0.lean ====
/- Region 0 (the embedding layer) at the exact instance: the array it leaves is X W + b. -/
import proofs.«125958_j34282428956966_1_alg».proof.Proof.KIDefs0
import proofs.«125958_j34282428956966_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

/-! ## The body's stored value at an index

The product of the 2048 x 128 feature block with the 128 x 512 weights contracts the block's axis 1 with the weights'
axis 0; the four lemmas below read the operands' coordinates at an output index and a contraction index. -/

theorem lhs_embed_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_embed_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs_embed_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs_embed_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The matrix product into the zero accumulator, at row p and column q: the sum over the 128 shared coordinates. -/
theorem matmul_embed_apply {φ₁ φ₂ : FTy} (x : FVec Ideal S2048x128 φ₁) (w : FVec Ideal S128x512 φ₂) (p : Fin 2048) (q : Fin 512) :
    FloatOps.matmul dot_S2048x128_S128x512_S2048x512_1_0_0_1_n_n none x w (constant (F := Ideal) S2048x512 .f32 0x00000000#32) (ix2 p q)
      = ∑ k : Fin 128, x (ix2 p k) * w (ix2 k q) := by
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p q) ((ValueIdx.contrEquiv1 dot_S2048x128_S128x512_S2048x512_1_0_0_1_n_n 128 rfl rfl).symm k) = ix2 p k := funext fun a => Fin.ext (by
    match a with
    | ⟨0, _⟩ => exact lhs_embed_0 _ _
    | ⟨1, _⟩ => exact (lhs_embed_1 _ _).trans hk)
  have er : dot_S2048x128_S128x512_S2048x512_1_0_0_1_n_n.rhsIdx (ix2 p q) ((ValueIdx.contrEquiv1 dot_S2048x128_S128x512_S2048x512_1_0_0_1_n_n 128 rfl rfl).symm k) = ix2 k q := funext fun a => Fin.ext (by
    match a with
    | ⟨0, _⟩ => exact (rhs_embed_0 _ _).trans hk
    | ⟨1, _⟩ => exact rhs_embed_1 _ _)
  rw [el, er]

/-- The bias row broadcast down the 2048 rows, at row p and column q: the row's entry in column q. -/
theorem bias_embed_apply {α : Type} (b : S1x512.Idx → α) (p : Fin 2048) (q : Fin 512) :
    broadcastTo S2048x512 (shapeCast S1x512 b shapeCasts_S1x512_S1x512) broadcasts_S1x512_S2048x512 (ix2 p q) = b (ix2 (0 : Fin 1) q) := by
  rw [shapeCast_self]
  exact broadcastTo_apply b broadcasts_S1x512_S2048x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-- What the body stores, at row p and column q of its block: the row of the feature block times the column of the
    weights, plus the bias in that column (the narrowing of the operands is the identity on extended reals). -/
theorem k0_pay1_apply (x : Vec Ideal S2048x128 .f32) (w : Vec Ideal S128x512 .f32) (b : Vec Ideal S1x512 .f32) (p : Fin 2048) (q : Fin 512) :
    k0_pay1 (F := Ideal) x w b (ix2 p q) = (∑ k : Fin 128, x (ix2 p k) * w (ix2 k q)) + b (ix2 (0 : Fin 1) q) := by
  unfold k0_pay1
  refine (addf_apply _ _ _).trans ?_
  refine congrArg₂ (· + ·) ?_ (bias_embed_apply b p q)
  refine (matmul_embed_apply _ _ p q).trans ?_
  rfl

/-- The same, at an index of the block not yet split into its coordinates. -/
theorem k0_pay1_at (x : Vec Ideal S2048x128 .f32) (w : Vec Ideal S128x512 .f32) (b : Vec Ideal S1x512 .f32) (j : S2048x512.Idx) :
    k0_pay1 (F := Ideal) x w b j = (∑ k : Fin 128, x (ix2 (j 0) k) * w (ix2 k (j 1))) + b (ix2 (0 : Fin 1) (j 1)) := by
  obtain ⟨p, q, rfl⟩ : ∃ (p : Fin 2048) (q : Fin 512), j = ix2 p q := ⟨j 0, j 1, eq_ix2 j⟩
  exact k0_pay1_apply x w b p q

variable (V : (c : Dev nD) → (b : Ref sig .tc) → Buf (Elt Ideal) ((c : Thread nD τ).loc b))

/-! ## From the blocks to the array -/

theorem zeros2_R0 : (![0, 0] : Fin 2 → Nat) = fun _ => 0 := funext fun a => by fin_cases a <;> rfl

/-- The index maps over the four grid points: the feature window moves down the rows with the output window,
    point t at block row t; the weights and the bias row stay at their one block. -/
theorem idx_embed : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of X W + b. -/
theorem flushedR0_eq (c : Dev nD) (t : Fin cfg0.N) :
    (datR0 (F := Ideal) V c).flushed 3 t
      = ((cfg0.win 3).blk t).view.read (Elt Ideal) (Cert.Spec.emb (V c main_arg0) (V c main_arg2) (V c main_v45)) := by
  show (cfg0.win 3).cut (grid0.coords t) ((datR0 (F := Ideal) V c).after 3 t) = _
  rw [afterR0_3]
  unfold outR0
  rw [View.canon_unit_zero zeros2_R0]
  simp only [View.ld_unit_zero (S := S2048x128) zeros2_R0, View.ld_unit_zero (S := S128x512) zeros2_R0, View.ld_unit_zero (S := S1x512) zeros2_R0]
  obtain ⟨e0, e1, e2, e3, e4, e5, e6, e7⟩ := idx_embed t
  funext j
  refine (k0_pay1_at _ _ _ _).trans ?_
  show _ = Cert.Spec.embAt (V c main_arg0) (V c main_arg2) (V c main_v45) ((((cfg0.win 3).blk t).view.emb j) 0) ((((cfg0.win 3).blk t).view.emb j) 1)
  unfold Cert.Spec.embAt
  have h0 : ∀ k : Fin 128, iblkR0 V c 0 t (ix2 ((win0 3).xinj (grid0.coords t) j 0) k)
      = V c main_arg0 (ix2 (((cfg0.win 3).blk t).view.emb j 0) k) := fun k => by
    show V c main_arg0 (((cfg0.win 0).blk t).view.emb (ix2 ((win0 3).xinj (grid0.coords t) j 0) k)) = _
    refine congrArg (V c main_arg0) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * k.val = k.val; omega
  have h1 : ∀ k : Fin 128, iblkR0 V c 1 t (ix2 k ((win0 3).xinj (grid0.coords t) j 1))
      = V c main_arg2 (ix2 k (((cfg0.win 3).blk t).view.emb j 1)) := fun k => by
    show V c main_arg2 (((cfg0.win 1).blk t).view.emb (ix2 k ((win0 3).xinj (grid0.coords t) j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 512 + 1 * (j 1).val = win0_3.index t (1 : Fin 2) * 512 + 1 * (j 1).val; omega
  have h2 : iblkR0 V c 2 t (ix2 (0 : Fin 1) ((win0 3).xinj (grid0.coords t) j 1))
      = V c main_v45 (ix2 (0 : Fin 1) (((cfg0.win 3).blk t).view.emb j 1)) := by
    show V c main_v45 (((cfg0.win 2).blk t).view.emb (ix2 (0 : Fin 1) ((win0 3).xinj (grid0.coords t) j 1))) = _
    refine congrArg (V c main_v45) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega
  rw [h2]
  exact congrArg (· + _) (Finset.sum_congr rfl fun k _ => by rw [h0 k, h1 k])

/-- An index of the array is in point t's block iff each coordinate is in the block's range on its axis. -/
theorem mem_blkR0 (t : Fin cfg0.N) (i : S8192x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v46).slice (win0_3.rect t)).set ↔ _
  rw [View.set_slice_whole, Rect.mem_set_unit]
  exact Iff.rfl

/-- Every index of the array is in some point's block: row r is in the block of point r / 2048, and every point writes back. -/
theorem coverValR0 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨-, -, -, -, -, -, e6, e7⟩ := idx_embed t
  refine ⟨t, flush0_3 t, ?_⟩
  rw [mem_blkR0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- After region 0 its output array holds the features times the embedding weights plus the bias row. -/
theorem arrR0_eq (c : Dev nD) :
    (datR0 (F := Ideal) V c).arrAt 3 cfg0.N = Cert.Spec.emb (V c main_arg0) (V c main_arg2) (V c main_v45) :=
  (datR0 (F := Ideal) V c).arrAt_eq_of_cover 3 (Cert.Spec.emb (V c main_arg0) (V c main_arg2) (V c main_v45))
    (fun t _ => flushedR0_eq V c t) coverValR0

end Cert.KernelIdeal.H

end
-- ==== Proof.KIVal1.lean ====
/- Region 1 (a graph-convolution layer) at the exact instance: the array it leaves is the layer's value, the neighbour sum taken in the eight chunks the grid walks. -/
import proofs.«125958_j34282428956966_1_alg».proof.Proof.KIDefs1
import proofs.«125958_j34282428956966_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The layer's activation: the rectifier. -/
abbrev actR1 : EReal → EReal := Cert.Spec.relu  -- (the last layer, region 3, has no rectifier: id)

/-! ## The body's three stored values, read at one entry -/

/-- The cleared accumulator is zero everywhere. -/
theorem pay1R1_apply (p : Fin 2048) (q : Fin 512) : (k1_pay1 (F := Ideal)) (ix2 p q) = 0 := by
  unfold k1_pay1
  simp only [shapeCast_self]
  exact Ideal.ofBits_zero_f32

/-- The block product's dimension numbers: a row of the left operand against a column of the right one. -/
theorem lhsAggR1_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhsAggR1_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhsAggR1_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhsAggR1_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The block product into a zero accumulator, at an entry: the sum over the 1024 neighbours of the chunk. -/
theorem mmAggR1_apply (a : FVec Ideal S2048x1024 .bf16) (x : FVec Ideal S1024x512 .bf16) (p : Fin 2048) (q : Fin 512) :
    matmul (F := Ideal) dot_S2048x1024_S1024x512_S2048x512_1_0_0_1_n_n none a x (constant (F := Ideal) S2048x512 .f32 0x00000000#32) (ix2 p q)
      = ∑ kk : Fin 1024, a (ix2 p kk) * x (ix2 kk q) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p q) ((ValueIdx.contrEquiv1 dot_S2048x1024_S1024x512_S2048x512_1_0_0_1_n_n 1024 rfl rfl).symm k) = ix2 p k := funext fun a => Fin.ext (by
    match a with
    | ⟨0, _⟩ => exact lhsAggR1_0 _ _
    | ⟨1, _⟩ => exact (lhsAggR1_1 _ _).trans hk)
  have er : dot_S2048x1024_S1024x512_S2048x512_1_0_0_1_n_n.rhsIdx (ix2 p q) ((ValueIdx.contrEquiv1 dot_S2048x1024_S1024x512_S2048x512_1_0_0_1_n_n 1024 rfl rfl).symm k) = ix2 k q := funext fun a => Fin.ext (by
    match a with
    | ⟨0, _⟩ => exact (rhsAggR1_0 _ _).trans hk
    | ⟨1, _⟩ => exact rhsAggR1_1 _ _)
  rw [el, er]

/-- The accumulating store: what was there plus the block product. -/
theorem pay2R1_apply (s : Vec Ideal S2048x512 .f32) (a : Vec Ideal S2048x1024 .bf16) (x : Vec Ideal S1024x512 .bf16)
    (p : Fin 2048) (q : Fin 512) :
    k1_pay2 (F := Ideal) s a x (ix2 p q) = s (ix2 p q) + ∑ kk : Fin 1024, a (ix2 p kk) * x (ix2 kk q) := by
  unfold k1_pay2
  simp only [shapeCast_self]
  exact congrArg (s (ix2 p q) + ·) (mmAggR1_apply a x p q)

/-- The output product's dimension numbers: a row of the aggregated features against a column of the weights. -/
theorem lhsOutR1_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsOutR1_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsOutR1_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsOutR1_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The output product into a zero accumulator, at an entry: the sum over the 512 feature columns. -/
theorem mmOutR1_apply (s : FVec Ideal S2048x512 .bf16) (w : FVec Ideal S512x512 .bf16) (p : Fin 2048) (q : Fin 512) :
    matmul (F := Ideal) dot_S2048x512_S512x512_S2048x512_1_0_0_1_n_n none s w (constant (F := Ideal) S2048x512 .f32 0x00000000#32) (ix2 p q)
      = ∑ j : Fin 512, s (ix2 p j) * w (ix2 j q) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhsOutR1_0 _ _
    | ⟨1, _⟩ => exact (lhsOutR1_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhsOutR1_0 _ _).trans hk
    | ⟨1, _⟩ => exact rhsOutR1_1 _ _)
  rw [el, er]

/-- The bias row broadcast down the block's rows, at an entry: the row's entry in that column. -/
theorem biasR1_apply (b : Vec Ideal S1x512 .f32) (p : Fin 2048) (q : Fin 512) :
    broadcastTo S2048x512 b broadcasts_S1x512_S2048x512 (ix2 p q) = b (ix2 (0 : Fin 1) q) := by
  refine broadcastTo_apply b broadcasts_S1x512_S2048x512 (ix2 p q) (ix2 (0 : Fin 1) q) fun a => ?_
  match a with
  | ⟨0, _⟩ => rfl
  | ⟨1, _⟩ => rfl

/-- The output store: the activation of (accumulator times weights plus bias). -/
theorem pay3R1_apply (s : Vec Ideal S2048x512 .f32) (w : Vec Ideal S512x512 .bf16) (b : Vec Ideal S1x512 .f32)
    (p : Fin 2048) (q : Fin 512) :
    k1_pay3 (F := Ideal) s w b (ix2 p q) = actR1 ((∑ j : Fin 512, s (ix2 p j) * w (ix2 j q)) + b (ix2 (0 : Fin 1) q)) := by
  unfold k1_pay3
  simp only [shapeCast_self]
  show max (_ + _) (Ideal.ofBits .f32 0x00000000#32) = Cert.Spec.relu _
  rw [Ideal.ofBits_zero_f32, biasR1_apply, mmOutR1_apply]
  rfl

/-! ## Where a block sits in its array -/

/-- The block indices over the grid: point t = 8 i + k reads block (i, k) of the adjacency matrix, row block k of
    the features, the whole weights and bias, and writes row block i of the output. -/
theorem idxR1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idxR1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idxR1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idxR1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idxR1_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

theorem NR1 : cfg1.N = 32 := N_1

/-- An entry of the adjacency block at point t is the matrix's entry 2048 (t / 8) rows down, 1024 (t % 8) columns along. -/
theorem iblkR1_0_apply (c : Dev nD) (t : Fin cfg1.N) (r : Fin 2048) (kk : Fin 1024) (p u : Fin 8192)
    (hp : p.val = 2048 * (t.val / 8) + r.val) (hu : u.val = 1024 * (t.val % 8) + kk.val) :
    (iblkR1 V c 0 t : Vec Ideal S2048x1024 .bf16) (ix2 r kk) = (V c (Pipeline.arrRef spec1 0) : Cert.Spec.SA.Idx → EReal) (ix2 p u) := by
  unfold iblkR1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 2048 + 1 * r.val = p.val; rw [(idxR1_0 t).1, hp]; omega
  | ⟨1, _⟩ => show win1_0.index t (1 : Fin 2) * 1024 + 1 * kk.val = u.val; rw [(idxR1_0 t).2, hu]; omega

/-- An entry of the feature block at point t is the features' entry 1024 (t % 8) rows down. -/
theorem iblkR1_1_apply (c : Dev nD) (t : Fin cfg1.N) (kk : Fin 1024) (j : Fin 512) (u : Fin 8192) (j' : Fin 512)
    (hu : u.val = 1024 * (t.val % 8) + kk.val) (hj : j'.val = j.val) :
    (iblkR1 V c 1 t : Vec Ideal S1024x512 .bf16) (ix2 kk j) = (V c (Pipeline.arrRef spec1 1) : Cert.Spec.SH.Idx → EReal) (ix2 u j') := by
  unfold iblkR1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 1024 + 1 * kk.val = u.val; rw [(idxR1_1 t).1, hu]; omega
  | ⟨1, _⟩ => show win1_1.index t (1 : Fin 2) * 512 + 1 * j.val = j'.val; rw [(idxR1_1 t).2, hj]; omega

/-- The weights' block is the whole matrix. -/
theorem iblkR1_2_apply (c : Dev nD) (t : Fin cfg1.N) (j q j' q' : Fin 512) (hj : j'.val = j.val) (hq : q'.val = q.val) :
    (iblkR1 V c 2 t : Vec Ideal S512x512 .bf16) (ix2 j q) = (V c (Pipeline.arrRef spec1 2) : Cert.Spec.SW.Idx → EReal) (ix2 j' q') := by
  unfold iblkR1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 512 + 1 * j.val = j'.val; rw [(idxR1_2 t).1, hj]; omega
  | ⟨1, _⟩ => show win1_2.index t (1 : Fin 2) * 512 + 1 * q.val = q'.val; rw [(idxR1_2 t).2, hq]; omega

/-- The bias block is the whole row. -/
theorem iblkR1_3_apply (c : Dev nD) (t : Fin cfg1.N) (z : Fin 1) (q q' : Fin 512) (hq : q'.val = q.val) :
    (iblkR1 V c 3 t : Vec Ideal S1x512 .f32) (ix2 z q) = (V c (Pipeline.arrRef spec1 3) : Cert.Spec.SB.Idx → EReal) (ix2 (0 : Fin 1) q') := by
  unfold iblkR1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 1 + 1 * z.val = 0; rw [(idxR1_3 t).1]; omega
  | ⟨1, _⟩ => show win1_3.index t (1 : Fin 2) * 512 + 1 * q.val = q'.val; rw [(idxR1_3 t).2, hq]; omega

/-! ## The accumulator after each point -/

/-- The product of an adjacency block and a feature block, at an entry. -/
def bprodR1 (a : Vec Ideal S2048x1024 .bf16) (x : Vec Ideal S1024x512 .bf16) (r : Fin 2048) (j : Fin 512) : EReal :=
  ∑ kk : Fin 1024, a (ix2 r kk) * x (ix2 kk j)

/-- When the blocks are chunk k of row p of a matrix A and of the rows of X, their product at an entry is chunk k of
    the neighbour sum. -/
theorem bprodR1_eq (A : Cert.Spec.SA.Idx → EReal) (X : Cert.Spec.SH.Idx → EReal)
    (a : Vec Ideal S2048x1024 .bf16) (x : Vec Ideal S1024x512 .bf16) (r : Fin 2048) (j : Fin 512) (p : Fin 8192)
    (k : ℕ) (hk : k < 8)
    (ha : ∀ (kk : Fin 1024) (u : Fin 8192), u.val = 1024 * k + kk.val → a (ix2 r kk) = A (ix2 p u))
    (hx : ∀ (kk : Fin 1024) (u : Fin 8192), u.val = 1024 * k + kk.val → x (ix2 kk j) = X (ix2 u j)) :
    bprodR1 a x r j = ∑ kk : Fin 1024, (if h : 1024 * k + kk.val < 8192 then
      A (ix2 p ⟨1024 * k + kk.val, h⟩) * X (ix2 ⟨1024 * k + kk.val, h⟩ j) else 0) := by
  unfold bprodR1
  refine Finset.sum_congr rfl fun kk _ => ?_
  have h : 1024 * k + kk.val < 8192 := by have := kk.isLt; omega
  rw [dif_pos h, ha kk ⟨_, h⟩ rfl, hx kk ⟨_, h⟩ rfl]

/-- So adding it to the first k chunks gives the first k + 1. -/
theorem aggStepR1 (A : Cert.Spec.SA.Idx → EReal) (X : Cert.Spec.SH.Idx → EReal)
    (a : Vec Ideal S2048x1024 .bf16) (x : Vec Ideal S1024x512 .bf16) (r : Fin 2048) (j : Fin 512) (p : Fin 8192)
    (k : ℕ) (hk : k < 8)
    (ha : ∀ (kk : Fin 1024) (u : Fin 8192), u.val = 1024 * k + kk.val → a (ix2 r kk) = A (ix2 p u))
    (hx : ∀ (kk : Fin 1024) (u : Fin 8192), u.val = 1024 * k + kk.val → x (ix2 kk j) = X (ix2 u j))
    (s : EReal) (hs : s = Cert.Spec.aggBlk A X p j k) :
    s + bprodR1 a x r j = Cert.Spec.aggBlk A X p j (k + 1) := by
  rw [hs, bprodR1_eq A X a x r j p k hk ha hx]
  rfl

/-- After a point with k = 0 the accumulator holds the first chunk. -/
theorem accAR1_apply (c : Dev nD) (t : Fin cfg1.N) (h0 : t.val % 8 = 0) (r : Fin 2048) (j : Fin 512) (p : Fin 8192)
    (hp : p.val = 2048 * (t.val / 8) + r.val) :
    (outsAtR1 V c t.val t.isLt).2 (ix2 r j)
      = Cert.Spec.aggBlk (V c (Pipeline.arrRef spec1 0)) (V c (Pipeline.arrRef spec1 1)) p j 1 := by
  rw [outsAtR1_A V c t h0]
  dsimp only
  refine (pay2R1_apply (k1_pay1 (F := Ideal)) (iblkR1 V c 0 t) (iblkR1 V c 1 t) r j).trans ?_
  exact aggStepR1 (V c (Pipeline.arrRef spec1 0)) (V c (Pipeline.arrRef spec1 1)) (iblkR1 V c 0 t) (iblkR1 V c 1 t) r j p 0 (by omega)
    (fun kk u hu => iblkR1_0_apply V c t r kk p u hp (by rw [hu, h0]))
    (fun kk u hu => iblkR1_1_apply V c t kk j u j (by rw [hu, h0]) rfl)
    (k1_pay1 (F := Ideal) (ix2 r j)) (pay1R1_apply r j)

/-- After a point with k > 0 the accumulator holds what the point before left plus this point's block product. -/
theorem accBR1_apply (c : Dev nD) (t : Fin cfg1.N) (h0 : ¬t.val % 8 = 0) (r : Fin 2048) (j : Fin 512) :
    (outsAtR1 V c t.val t.isLt).2 (ix2 r j)
      = (outsAtR1 V c (t.val - 1) (Nat.lt_of_le_of_lt (Nat.sub_le _ _) t.isLt)).2 (ix2 r j)
        + bprodR1 (iblkR1 V c 0 t) (iblkR1 V c 1 t) r j := by
  by_cases h1 : t.val % 8 = 7
  · rw [outsAtR1_C V c t h0 h1]
    dsimp only
    exact pay2R1_apply (outsAtR1 V c (t.val - 1) (Nat.lt_of_le_of_lt (Nat.sub_le _ _) t.isLt)).2 (iblkR1 V c 0 t) (iblkR1 V c 1 t) r j
  · rw [outsAtR1_B V c t h0 h1]
    dsimp only
    exact pay2R1_apply (outsAtR1 V c (t.val - 1) (Nat.lt_of_le_of_lt (Nat.sub_le _ _) t.isLt)).2 (iblkR1 V c 0 t) (iblkR1 V c 1 t) r j

/-- The invariant: after point 8 i + k the accumulator's row r holds the first k + 1 chunks of the neighbour sum
    at row 2048 i + r, added in the order the grid walks them. -/
theorem accR1_eq (c : Dev nD) : ∀ (n : ℕ) (hn : n < cfg1.N) (r : Fin 2048) (j : Fin 512) (p : Fin 8192),
    p.val = 2048 * (n / 8) + r.val →
    (outsAtR1 V c n hn).2 (ix2 r j)
      = Cert.Spec.aggBlk (V c (Pipeline.arrRef spec1 0)) (V c (Pipeline.arrRef spec1 1)) p j (n % 8 + 1) := by
  intro n
  induction n with
  | zero => intro hn r j p hp; exact accAR1_apply V c ⟨0, hn⟩ rfl r j p hp
  | succ n ih =>
    intro hn r j p hp
    by_cases h0 : (n + 1) % 8 = 0
    · rw [h0]; exact accAR1_apply V c ⟨n + 1, hn⟩ h0 r j p hp
    · have hn' : n < cfg1.N := Nat.lt_of_succ_lt hn
      have e1 : (n + 1) / 8 = n / 8 := by omega
      have e2 : (n + 1) % 8 = n % 8 + 1 := by omega
      have hk : n % 8 + 1 < 8 := by omega
      refine (accBR1_apply V c ⟨n + 1, hn⟩ h0 r j).trans ?_
      rw [e2]
      exact aggStepR1 (V c (Pipeline.arrRef spec1 0)) (V c (Pipeline.arrRef spec1 1))
        (iblkR1 V c 0 ⟨n + 1, hn⟩) (iblkR1 V c 1 ⟨n + 1, hn⟩) r j p (n % 8 + 1) hk
        (fun kk u hu => iblkR1_0_apply V c ⟨n + 1, hn⟩ r kk p u hp (hu.trans (by rw [← e2])))
        (fun kk u hu => iblkR1_1_apply V c ⟨n + 1, hn⟩ kk j u j (hu.trans (by rw [← e2])) rfl)
        ((outsAtR1 V c n hn').2 (ix2 r j)) (ih hn' r j p (by rw [hp, e1]))

/-! ## The stored output block, and the array -/

/-- At a point with k = 7 the stored output block holds the layer's value at the block's rows. -/
theorem outR1_apply (c : Dev nD) (t : Fin cfg1.N) (h7 : t.val % 8 = 7) (r : Fin 2048) (q : Fin 512) (p : Fin 8192) (q' : Fin 512)
    (hp : p.val = 2048 * (t.val / 8) + r.val) (hq : q'.val = q.val) :
    (outsAtR1 V c t.val t.isLt).1 (ix2 r q)
      = Cert.Spec.layerBlkAt actR1 (V c (Pipeline.arrRef spec1 0)) (V c (Pipeline.arrRef spec1 1)) (V c (Pipeline.arrRef spec1 2)) (V c (Pipeline.arrRef spec1 3)) p q' := by
  have h0 : ¬t.val % 8 = 0 := by omega
  have e : (outsAtR1 V c t.val t.isLt).1 = outCR1 (outsAtR1 V c t.val t.isLt).2 (iblkR1 V c 2 t) (iblkR1 V c 3 t) := by
    rw [outsAtR1_C V c t h0 h7]
  rw [e]
  refine (pay3R1_apply (outsAtR1 V c t.val t.isLt).2 (iblkR1 V c 2 t) (iblkR1 V c 3 t) r q).trans ?_
  unfold Cert.Spec.layerBlkAt
  refine congrArg actR1 (congrArg₂ (fun (u v : EReal) => u + v) (Finset.sum_congr rfl fun j _ => ?_) (iblkR1_3_apply V c t 0 q q' hq))
  exact congrArg₂ (fun (u v : EReal) => u * v) ((accR1_eq V c t.val t.isLt r j p hp).trans (by rw [h7])) (iblkR1_2_apply V c t j q j q' rfl hq)

/-- What a point with k = 7 writes back is its block of the layer's value. -/
theorem flushedR1_eq (c : Dev nD) (t : Fin cfg1.N) (hf : (cfg1.win 4).flush t = true) :
    (datR1 (F := Ideal) V c).flushed 4 t = ((cfg1.win 4).blk t).view.read (Elt Ideal)
      (Cert.Spec.layerBlk actR1 (V c (Pipeline.arrRef spec1 0)) (V c (Pipeline.arrRef spec1 1)) (V c (Pipeline.arrRef spec1 2)) (V c (Pipeline.arrRef spec1 3))) := by
  have h7 : t.val % 8 = 7 := (flush1_4 t).mp hf
  refine funext fun (y : S2048x512.Idx) => ?_
  obtain ⟨r, q, rfl⟩ : ∃ (r : Fin 2048) (q : Fin 512), y = ix2 r q := ⟨y 0, y 1, eq_ix2 y⟩
  rw [View.read_apply]
  show (outsAtR1 V c t.val t.isLt).1 (ix2 r q)
    = Cert.Spec.layerBlk actR1 (V c (Pipeline.arrRef spec1 0)) (V c (Pipeline.arrRef spec1 1)) (V c (Pipeline.arrRef spec1 2)) (V c (Pipeline.arrRef spec1 3)) _
  exact outR1_apply V c t h7 r q _ _
    (by show win1_4.index t (0 : Fin 2) * 2048 + 1 * r.val = _; rw [(idxR1_4 t).1]; omega)
    (by show win1_4.index t (1 : Fin 2) * 512 + 1 * q.val = _; rw [(idxR1_4 t).2]; omega)

/-- Row p of the output is written back by point 8 (p / 2048) + 7. -/
theorem coverValR1 (c : Dev nD) (i : S8192x512.Idx) :
    ∃ t : Fin cfg1.N, (cfg1.win 4).flush t = true ∧ i ∈ ((cfg1.win 4).blk t).view.set := by
  have h0 : (i 0).val < 8192 := idx2_lt0 i
  have h1 : (i 1).val < 512 := idx2_lt1 i
  have hN : 8 * ((i 0).val / 2048) + 7 < cfg1.N := by rw [NR1]; omega
  refine ⟨⟨8 * ((i 0).val / 2048) + 7, hN⟩, (flush1_4 _).mpr (by show (8 * ((i 0).val / 2048) + 7) % 8 = 7; omega), ?_⟩
  show i ∈ ((View.whole (Pipeline.arrRef spec1 4)).slice (win1_4.rect ⟨8 * ((i 0).val / 2048) + 7, hN⟩)).set
  rw [View.set_slice_whole, Rect.mem_set_unit]
  intro a
  match a with
  | ⟨0, _⟩ =>
    show win1_4.index ⟨8 * ((i 0).val / 2048) + 7, hN⟩ (0 : Fin 2) * 2048 ≤ (i 0).val
      ∧ (i 0).val < win1_4.index ⟨8 * ((i 0).val / 2048) + 7, hN⟩ (0 : Fin 2) * 2048 + 2048
    rw [(idxR1_4 ⟨8 * ((i 0).val / 2048) + 7, hN⟩).1]
    dsimp only
    omega
  | ⟨1, _⟩ =>
    show win1_4.index ⟨8 * ((i 0).val / 2048) + 7, hN⟩ (1 : Fin 2) * 512 ≤ (i 1).val
      ∧ (i 1).val < win1_4.index ⟨8 * ((i 0).val / 2048) + 7, hN⟩ (1 : Fin 2) * 512 + 512
    rw [(idxR1_4 ⟨8 * ((i 0).val / 2048) + 7, hN⟩).2]
    omega

/-- After region 1 its output array holds act ((A x) W + b), the sum over neighbours accumulated chunk by chunk. -/
theorem arrR1_eq (c : Dev nD) :
    (datR1 (F := Ideal) V c).arrAt 4 cfg1.N
      = Cert.Spec.layerBlk actR1 (V c (Pipeline.arrRef spec1 0)) (V c (Pipeline.arrRef spec1 1)) (V c (Pipeline.arrRef spec1 2)) (V c (Pipeline.arrRef spec1 3)) :=
  (datR1 (F := Ideal) V c).arrAt_eq_of_cover 4
    (Cert.Spec.layerBlk actR1 (V c (Pipeline.arrRef spec1 0)) (V c (Pipeline.arrRef spec1 1)) (V c (Pipeline.arrRef spec1 2)) (V c (Pipeline.arrRef spec1 3)))
    (fun t hf => flushedR1_eq V c t hf) (coverValR1 c)

end Cert.KernelIdeal.H

end
-- ==== Proof.KIVal2.lean ====
/- Region 2 (a graph-convolution layer) at the exact instance: the array it leaves is the layer's value, the neighbour sum taken in the eight chunks the grid walks. -/
import proofs.«125958_j34282428956966_1_alg».proof.Proof.KIDefs2
import proofs.«125958_j34282428956966_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The layer's activation: the rectifier. -/
abbrev actR2 : EReal → EReal := Cert.Spec.relu  -- (the last layer, region 3, has no rectifier: id)

/-! ## The body's three stored values, read at one entry -/

/-- The cleared accumulator is zero everywhere. -/
theorem pay1R2_apply (p : Fin 2048) (q : Fin 512) : (k2_pay1 (F := Ideal)) (ix2 p q) = 0 := by
  unfold k2_pay1
  simp only [shapeCast_self]
  exact Ideal.ofBits_zero_f32

/-- The block product's dimension numbers: a row of the left operand against a column of the right one. -/
theorem lhsAggR2_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhsAggR2_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhsAggR2_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhsAggR2_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The block product into a zero accumulator, at an entry: the sum over the 1024 neighbours of the chunk. -/
theorem mmAggR2_apply (a : FVec Ideal S2048x1024 .bf16) (x : FVec Ideal S1024x512 .bf16) (p : Fin 2048) (q : Fin 512) :
    matmul (F := Ideal) dot_S2048x1024_S1024x512_S2048x512_1_0_0_1_n_n none a x (constant (F := Ideal) S2048x512 .f32 0x00000000#32) (ix2 p q)
      = ∑ kk : Fin 1024, a (ix2 p kk) * x (ix2 kk q) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p q) ((ValueIdx.contrEquiv1 dot_S2048x1024_S1024x512_S2048x512_1_0_0_1_n_n 1024 rfl rfl).symm k) = ix2 p k := funext fun a => Fin.ext (by
    match a with
    | ⟨0, _⟩ => exact lhsAggR2_0 _ _
    | ⟨1, _⟩ => exact (lhsAggR2_1 _ _).trans hk)
  have er : dot_S2048x1024_S1024x512_S2048x512_1_0_0_1_n_n.rhsIdx (ix2 p q) ((ValueIdx.contrEquiv1 dot_S2048x1024_S1024x512_S2048x512_1_0_0_1_n_n 1024 rfl rfl).symm k) = ix2 k q := funext fun a => Fin.ext (by
    match a with
    | ⟨0, _⟩ => exact (rhsAggR2_0 _ _).trans hk
    | ⟨1, _⟩ => exact rhsAggR2_1 _ _)
  rw [el, er]

/-- The accumulating store: what was there plus the block product. -/
theorem pay2R2_apply (s : Vec Ideal S2048x512 .f32) (a : Vec Ideal S2048x1024 .bf16) (x : Vec Ideal S1024x512 .bf16)
    (p : Fin 2048) (q : Fin 512) :
    k2_pay2 (F := Ideal) s a x (ix2 p q) = s (ix2 p q) + ∑ kk : Fin 1024, a (ix2 p kk) * x (ix2 kk q) := by
  unfold k2_pay2
  simp only [shapeCast_self]
  exact congrArg (s (ix2 p q) + ·) (mmAggR2_apply a x p q)

/-- The output product's dimension numbers: a row of the aggregated features against a column of the weights. -/
theorem lhsOutR2_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsOutR2_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsOutR2_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsOutR2_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The output product into a zero accumulator, at an entry: the sum over the 512 feature columns. -/
theorem mmOutR2_apply (s : FVec Ideal S2048x512 .bf16) (w : FVec Ideal S512x512 .bf16) (p : Fin 2048) (q : Fin 512) :
    matmul (F := Ideal) dot_S2048x512_S512x512_S2048x512_1_0_0_1_n_n none s w (constant (F := Ideal) S2048x512 .f32 0x00000000#32) (ix2 p q)
      = ∑ j : Fin 512, s (ix2 p j) * w (ix2 j q) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhsOutR2_0 _ _
    | ⟨1, _⟩ => exact (lhsOutR2_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhsOutR2_0 _ _).trans hk
    | ⟨1, _⟩ => exact rhsOutR2_1 _ _)
  rw [el, er]

/-- The bias row broadcast down the block's rows, at an entry: the row's entry in that column. -/
theorem biasR2_apply (b : Vec Ideal S1x512 .f32) (p : Fin 2048) (q : Fin 512) :
    broadcastTo S2048x512 b broadcasts_S1x512_S2048x512 (ix2 p q) = b (ix2 (0 : Fin 1) q) := by
  refine broadcastTo_apply b broadcasts_S1x512_S2048x512 (ix2 p q) (ix2 (0 : Fin 1) q) fun a => ?_
  match a with
  | ⟨0, _⟩ => rfl
  | ⟨1, _⟩ => rfl

/-- The output store: the activation of (accumulator times weights plus bias). -/
theorem pay3R2_apply (s : Vec Ideal S2048x512 .f32) (w : Vec Ideal S512x512 .bf16) (b : Vec Ideal S1x512 .f32)
    (p : Fin 2048) (q : Fin 512) :
    k2_pay3 (F := Ideal) s w b (ix2 p q) = actR2 ((∑ j : Fin 512, s (ix2 p j) * w (ix2 j q)) + b (ix2 (0 : Fin 1) q)) := by
  unfold k2_pay3
  simp only [shapeCast_self]
  show max (_ + _) (Ideal.ofBits .f32 0x00000000#32) = Cert.Spec.relu _
  rw [Ideal.ofBits_zero_f32, biasR2_apply, mmOutR2_apply]
  rfl

/-! ## Where a block sits in its array -/

/-- The block indices over the grid: point t = 8 i + k reads block (i, k) of the adjacency matrix, row block k of
    the features, the whole weights and bias, and writes row block i of the output. -/
theorem idxR2_0 : ∀ t : Fin cfg2.N, win2_0.index t (0 : Fin 2) = t.val / 8 ∧ win2_0.index t (1 : Fin 2) = t.val % 8 :=
  (by decide +kernel : ∀ t : Fin grid2.N, win2_0.index t (0 : Fin 2) = t.val / 8 ∧ win2_0.index t (1 : Fin 2) = t.val % 8)
theorem idxR2_1 : ∀ t : Fin cfg2.N, win2_1.index t (0 : Fin 2) = t.val % 8 ∧ win2_1.index t (1 : Fin 2) = 0 :=
  (by decide +kernel : ∀ t : Fin grid2.N, win2_1.index t (0 : Fin 2) = t.val % 8 ∧ win2_1.index t (1 : Fin 2) = 0)
theorem idxR2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idxR2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idxR2_4 : ∀ t : Fin cfg2.N, win2_4.index t (0 : Fin 2) = t.val / 8 ∧ win2_4.index t (1 : Fin 2) = 0 :=
  (by decide +kernel : ∀ t : Fin grid2.N, win2_4.index t (0 : Fin 2) = t.val / 8 ∧ win2_4.index t (1 : Fin 2) = 0)

theorem NR2 : cfg2.N = 32 := N_2

/-- An entry of the adjacency block at point t is the matrix's entry 2048 (t / 8) rows down, 1024 (t % 8) columns along. -/
theorem iblkR2_0_apply (c : Dev nD) (t : Fin cfg2.N) (r : Fin 2048) (kk : Fin 1024) (p u : Fin 8192)
    (hp : p.val = 2048 * (t.val / 8) + r.val) (hu : u.val = 1024 * (t.val % 8) + kk.val) :
    (iblkR2 V c 0 t : Vec Ideal S2048x1024 .bf16) (ix2 r kk) = (V c (Pipeline.arrRef spec2 0) : Cert.Spec.SA.Idx → EReal) (ix2 p u) := by
  unfold iblkR2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2048 + 1 * r.val = p.val; rw [(idxR2_0 t).1, hp]; omega
  | ⟨1, _⟩ => show win2_0.index t (1 : Fin 2) * 1024 + 1 * kk.val = u.val; rw [(idxR2_0 t).2, hu]; omega

/-- An entry of the feature block at point t is the features' entry 1024 (t % 8) rows down. -/
theorem iblkR2_1_apply (c : Dev nD) (t : Fin cfg2.N) (kk : Fin 1024) (j : Fin 512) (u : Fin 8192) (j' : Fin 512)
    (hu : u.val = 1024 * (t.val % 8) + kk.val) (hj : j'.val = j.val) :
    (iblkR2 V c 1 t : Vec Ideal S1024x512 .bf16) (ix2 kk j) = (V c (Pipeline.arrRef spec2 1) : Cert.Spec.SH.Idx → EReal) (ix2 u j') := by
  unfold iblkR2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 1024 + 1 * kk.val = u.val; rw [(idxR2_1 t).1, hu]; omega
  | ⟨1, _⟩ => show win2_1.index t (1 : Fin 2) * 512 + 1 * j.val = j'.val; rw [(idxR2_1 t).2, hj]; omega

/-- The weights' block is the whole matrix. -/
theorem iblkR2_2_apply (c : Dev nD) (t : Fin cfg2.N) (j q j' q' : Fin 512) (hj : j'.val = j.val) (hq : q'.val = q.val) :
    (iblkR2 V c 2 t : Vec Ideal S512x512 .bf16) (ix2 j q) = (V c (Pipeline.arrRef spec2 2) : Cert.Spec.SW.Idx → EReal) (ix2 j' q') := by
  unfold iblkR2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 512 + 1 * j.val = j'.val; rw [(idxR2_2 t).1, hj]; omega
  | ⟨1, _⟩ => show win2_2.index t (1 : Fin 2) * 512 + 1 * q.val = q'.val; rw [(idxR2_2 t).2, hq]; omega

/-- The bias block is the whole row. -/
theorem iblkR2_3_apply (c : Dev nD) (t : Fin cfg2.N) (z : Fin 1) (q q' : Fin 512) (hq : q'.val = q.val) :
    (iblkR2 V c 3 t : Vec Ideal S1x512 .f32) (ix2 z q) = (V c (Pipeline.arrRef spec2 3) : Cert.Spec.SB.Idx → EReal) (ix2 (0 : Fin 1) q') := by
  unfold iblkR2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 1 + 1 * z.val = 0; rw [(idxR2_3 t).1]; omega
  | ⟨1, _⟩ => show win2_3.index t (1 : Fin 2) * 512 + 1 * q.val = q'.val; rw [(idxR2_3 t).2, hq]; omega

/-! ## The accumulator after each point -/

/-- The product of an adjacency block and a feature block, at an entry. -/
def bprodR2 (a : Vec Ideal S2048x1024 .bf16) (x : Vec Ideal S1024x512 .bf16) (r : Fin 2048) (j : Fin 512) : EReal :=
  ∑ kk : Fin 1024, a (ix2 r kk) * x (ix2 kk j)

/-- When the blocks are chunk k of row p of a matrix A and of the rows of X, their product at an entry is chunk k of
    the neighbour sum. -/
theorem bprodR2_eq (A : Cert.Spec.SA.Idx → EReal) (X : Cert.Spec.SH.Idx → EReal)
    (a : Vec Ideal S2048x1024 .bf16) (x : Vec Ideal S1024x512 .bf16) (r : Fin 2048) (j : Fin 512) (p : Fin 8192)
    (k : ℕ) (hk : k < 8)
    (ha : ∀ (kk : Fin 1024) (u : Fin 8192), u.val = 1024 * k + kk.val → a (ix2 r kk) = A (ix2 p u))
    (hx : ∀ (kk : Fin 1024) (u : Fin 8192), u.val = 1024 * k + kk.val → x (ix2 kk j) = X (ix2 u j)) :
    bprodR2 a x r j = ∑ kk : Fin 1024, (if h : 1024 * k + kk.val < 8192 then
      A (ix2 p ⟨1024 * k + kk.val, h⟩) * X (ix2 ⟨1024 * k + kk.val, h⟩ j) else 0) := by
  unfold bprodR2
  refine Finset.sum_congr rfl fun kk _ => ?_
  have h : 1024 * k + kk.val < 8192 := by have := kk.isLt; omega
  rw [dif_pos h, ha kk ⟨_, h⟩ rfl, hx kk ⟨_, h⟩ rfl]

/-- So adding it to the first k chunks gives the first k + 1. -/
theorem aggStepR2 (A : Cert.Spec.SA.Idx → EReal) (X : Cert.Spec.SH.Idx → EReal)
    (a : Vec Ideal S2048x1024 .bf16) (x : Vec Ideal S1024x512 .bf16) (r : Fin 2048) (j : Fin 512) (p : Fin 8192)
    (k : ℕ) (hk : k < 8)
    (ha : ∀ (kk : Fin 1024) (u : Fin 8192), u.val = 1024 * k + kk.val → a (ix2 r kk) = A (ix2 p u))
    (hx : ∀ (kk : Fin 1024) (u : Fin 8192), u.val = 1024 * k + kk.val → x (ix2 kk j) = X (ix2 u j))
    (s : EReal) (hs : s = Cert.Spec.aggBlk A X p j k) :
    s + bprodR2 a x r j = Cert.Spec.aggBlk A X p j (k + 1) := by
  rw [hs, bprodR2_eq A X a x r j p k hk ha hx]
  rfl

/-- After a point with k = 0 the accumulator holds the first chunk. -/
theorem accAR2_apply (c : Dev nD) (t : Fin cfg2.N) (h0 : t.val % 8 = 0) (r : Fin 2048) (j : Fin 512) (p : Fin 8192)
    (hp : p.val = 2048 * (t.val / 8) + r.val) :
    (outsAtR2 V c t.val t.isLt).2 (ix2 r j)
      = Cert.Spec.aggBlk (V c (Pipeline.arrRef spec2 0)) (V c (Pipeline.arrRef spec2 1)) p j 1 := by
  rw [outsAtR2_A V c t h0]
  dsimp only
  refine (pay2R2_apply (k2_pay1 (F := Ideal)) (iblkR2 V c 0 t) (iblkR2 V c 1 t) r j).trans ?_
  exact aggStepR2 (V c (Pipeline.arrRef spec2 0)) (V c (Pipeline.arrRef spec2 1)) (iblkR2 V c 0 t) (iblkR2 V c 1 t) r j p 0 (by omega)
    (fun kk u hu => iblkR2_0_apply V c t r kk p u hp (by rw [hu, h0]))
    (fun kk u hu => iblkR2_1_apply V c t kk j u j (by rw [hu, h0]) rfl)
    (k2_pay1 (F := Ideal) (ix2 r j)) (pay1R2_apply r j)

/-- After a point with k > 0 the accumulator holds what the point before left plus this point's block product. -/
theorem accBR2_apply (c : Dev nD) (t : Fin cfg2.N) (h0 : ¬t.val % 8 = 0) (r : Fin 2048) (j : Fin 512) :
    (outsAtR2 V c t.val t.isLt).2 (ix2 r j)
      = (outsAtR2 V c (t.val - 1) (Nat.lt_of_le_of_lt (Nat.sub_le _ _) t.isLt)).2 (ix2 r j)
        + bprodR2 (iblkR2 V c 0 t) (iblkR2 V c 1 t) r j := by
  by_cases h1 : t.val % 8 = 7
  · rw [outsAtR2_C V c t h0 h1]
    dsimp only
    exact pay2R2_apply (outsAtR2 V c (t.val - 1) (Nat.lt_of_le_of_lt (Nat.sub_le _ _) t.isLt)).2 (iblkR2 V c 0 t) (iblkR2 V c 1 t) r j
  · rw [outsAtR2_B V c t h0 h1]
    dsimp only
    exact pay2R2_apply (outsAtR2 V c (t.val - 1) (Nat.lt_of_le_of_lt (Nat.sub_le _ _) t.isLt)).2 (iblkR2 V c 0 t) (iblkR2 V c 1 t) r j

/-- The invariant: after point 8 i + k the accumulator's row r holds the first k + 1 chunks of the neighbour sum
    at row 2048 i + r, added in the order the grid walks them. -/
theorem accR2_eq (c : Dev nD) : ∀ (n : ℕ) (hn : n < cfg2.N) (r : Fin 2048) (j : Fin 512) (p : Fin 8192),
    p.val = 2048 * (n / 8) + r.val →
    (outsAtR2 V c n hn).2 (ix2 r j)
      = Cert.Spec.aggBlk (V c (Pipeline.arrRef spec2 0)) (V c (Pipeline.arrRef spec2 1)) p j (n % 8 + 1) := by
  intro n
  induction n with
  | zero => intro hn r j p hp; exact accAR2_apply V c ⟨0, hn⟩ rfl r j p hp
  | succ n ih =>
    intro hn r j p hp
    by_cases h0 : (n + 1) % 8 = 0
    · rw [h0]; exact accAR2_apply V c ⟨n + 1, hn⟩ h0 r j p hp
    · have hn' : n < cfg2.N := Nat.lt_of_succ_lt hn
      have e1 : (n + 1) / 8 = n / 8 := by omega
      have e2 : (n + 1) % 8 = n % 8 + 1 := by omega
      have hk : n % 8 + 1 < 8 := by omega
      refine (accBR2_apply V c ⟨n + 1, hn⟩ h0 r j).trans ?_
      rw [e2]
      exact aggStepR2 (V c (Pipeline.arrRef spec2 0)) (V c (Pipeline.arrRef spec2 1))
        (iblkR2 V c 0 ⟨n + 1, hn⟩) (iblkR2 V c 1 ⟨n + 1, hn⟩) r j p (n % 8 + 1) hk
        (fun kk u hu => iblkR2_0_apply V c ⟨n + 1, hn⟩ r kk p u hp (hu.trans (by rw [← e2])))
        (fun kk u hu => iblkR2_1_apply V c ⟨n + 1, hn⟩ kk j u j (hu.trans (by rw [← e2])) rfl)
        ((outsAtR2 V c n hn').2 (ix2 r j)) (ih hn' r j p (by rw [hp, e1]))

/-! ## The stored output block, and the array -/

/-- At a point with k = 7 the stored output block holds the layer's value at the block's rows. -/
theorem outR2_apply (c : Dev nD) (t : Fin cfg2.N) (h7 : t.val % 8 = 7) (r : Fin 2048) (q : Fin 512) (p : Fin 8192) (q' : Fin 512)
    (hp : p.val = 2048 * (t.val / 8) + r.val) (hq : q'.val = q.val) :
    (outsAtR2 V c t.val t.isLt).1 (ix2 r q)
      = Cert.Spec.layerBlkAt actR2 (V c (Pipeline.arrRef spec2 0)) (V c (Pipeline.arrRef spec2 1)) (V c (Pipeline.arrRef spec2 2)) (V c (Pipeline.arrRef spec2 3)) p q' := by
  have h0 : ¬t.val % 8 = 0 := by omega
  have e : (outsAtR2 V c t.val t.isLt).1 = outCR2 (outsAtR2 V c t.val t.isLt).2 (iblkR2 V c 2 t) (iblkR2 V c 3 t) := by
    rw [outsAtR2_C V c t h0 h7]
  rw [e]
  refine (pay3R2_apply (outsAtR2 V c t.val t.isLt).2 (iblkR2 V c 2 t) (iblkR2 V c 3 t) r q).trans ?_
  unfold Cert.Spec.layerBlkAt
  refine congrArg actR2 (congrArg₂ (fun (u v : EReal) => u + v) (Finset.sum_congr rfl fun j _ => ?_) (iblkR2_3_apply V c t 0 q q' hq))
  exact congrArg₂ (fun (u v : EReal) => u * v) ((accR2_eq V c t.val t.isLt r j p hp).trans (by rw [h7])) (iblkR2_2_apply V c t j q j q' rfl hq)

/-- What a point with k = 7 writes back is its block of the layer's value. -/
theorem flushedR2_eq (c : Dev nD) (t : Fin cfg2.N) (hf : (cfg2.win 4).flush t = true) :
    (datR2 (F := Ideal) V c).flushed 4 t = ((cfg2.win 4).blk t).view.read (Elt Ideal)
      (Cert.Spec.layerBlk actR2 (V c (Pipeline.arrRef spec2 0)) (V c (Pipeline.arrRef spec2 1)) (V c (Pipeline.arrRef spec2 2)) (V c (Pipeline.arrRef spec2 3))) := by
  have h7 : t.val % 8 = 7 := (flush2_4 t).mp hf
  refine funext fun (y : S2048x512.Idx) => ?_
  obtain ⟨r, q, rfl⟩ : ∃ (r : Fin 2048) (q : Fin 512), y = ix2 r q := ⟨y 0, y 1, eq_ix2 y⟩
  rw [View.read_apply]
  show (outsAtR2 V c t.val t.isLt).1 (ix2 r q)
    = Cert.Spec.layerBlk actR2 (V c (Pipeline.arrRef spec2 0)) (V c (Pipeline.arrRef spec2 1)) (V c (Pipeline.arrRef spec2 2)) (V c (Pipeline.arrRef spec2 3)) _
  exact outR2_apply V c t h7 r q _ _
    (by show win2_4.index t (0 : Fin 2) * 2048 + 1 * r.val = _; rw [(idxR2_4 t).1]; omega)
    (by show win2_4.index t (1 : Fin 2) * 512 + 1 * q.val = _; rw [(idxR2_4 t).2]; omega)

/-- Row p of the output is written back by point 8 (p / 2048) + 7. -/
theorem coverValR2 (c : Dev nD) (i : S8192x512.Idx) :
    ∃ t : Fin cfg2.N, (cfg2.win 4).flush t = true ∧ i ∈ ((cfg2.win 4).blk t).view.set := by
  have h0 : (i 0).val < 8192 := idx2_lt0 i
  have h1 : (i 1).val < 512 := idx2_lt1 i
  have hN : 8 * ((i 0).val / 2048) + 7 < cfg2.N := by rw [NR2]; omega
  refine ⟨⟨8 * ((i 0).val / 2048) + 7, hN⟩, (flush2_4 _).mpr (by show (8 * ((i 0).val / 2048) + 7) % 8 = 7; omega), ?_⟩
  show i ∈ ((View.whole (Pipeline.arrRef spec2 4)).slice (win2_4.rect ⟨8 * ((i 0).val / 2048) + 7, hN⟩)).set
  rw [View.set_slice_whole, Rect.mem_set_unit]
  intro a
  match a with
  | ⟨0, _⟩ =>
    show win2_4.index ⟨8 * ((i 0).val / 2048) + 7, hN⟩ (0 : Fin 2) * 2048 ≤ (i 0).val
      ∧ (i 0).val < win2_4.index ⟨8 * ((i 0).val / 2048) + 7, hN⟩ (0 : Fin 2) * 2048 + 2048
    rw [(idxR2_4 ⟨8 * ((i 0).val / 2048) + 7, hN⟩).1]
    dsimp only
    omega
  | ⟨1, _⟩ =>
    show win2_4.index ⟨8 * ((i 0).val / 2048) + 7, hN⟩ (1 : Fin 2) * 512 ≤ (i 1).val
      ∧ (i 1).val < win2_4.index ⟨8 * ((i 0).val / 2048) + 7, hN⟩ (1 : Fin 2) * 512 + 512
    rw [(idxR2_4 ⟨8 * ((i 0).val / 2048) + 7, hN⟩).2]
    omega

/-- After region 2 its output array holds act ((A x) W + b), the sum over neighbours accumulated chunk by chunk. -/
theorem arrR2_eq (c : Dev nD) :
    (datR2 (F := Ideal) V c).arrAt 4 cfg2.N
      = Cert.Spec.layerBlk actR2 (V c (Pipeline.arrRef spec2 0)) (V c (Pipeline.arrRef spec2 1)) (V c (Pipeline.arrRef spec2 2)) (V c (Pipeline.arrRef spec2 3)) :=
  (datR2 (F := Ideal) V c).arrAt_eq_of_cover 4
    (Cert.Spec.layerBlk actR2 (V c (Pipeline.arrRef spec2 0)) (V c (Pipeline.arrRef spec2 1)) (V c (Pipeline.arrRef spec2 2)) (V c (Pipeline.arrRef spec2 3)))
    (fun t hf => flushedR2_eq V c t hf) (coverValR2 c)

end Cert.KernelIdeal.H

end
-- ==== Proof.KIVal3.lean ====
/- Region 3 (a graph-convolution layer) at the exact instance: the array it leaves is the layer's value, the neighbour sum taken in the eight chunks the grid walks. -/
import proofs.«125958_j34282428956966_1_alg».proof.Proof.KIDefs3
import proofs.«125958_j34282428956966_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The layer's activation: the rectifier. -/
abbrev actR3 : EReal → EReal := id

/-! ## The body's three stored values, read at one entry -/

/-- The cleared accumulator is zero everywhere. -/
theorem pay1R3_apply (p : Fin 2048) (q : Fin 512) : (k3_pay1 (F := Ideal)) (ix2 p q) = 0 := by
  unfold k3_pay1
  simp only [shapeCast_self]
  exact Ideal.ofBits_zero_f32

/-- The block product's dimension numbers: a row of the left operand against a column of the right one. -/
theorem lhsAggR3_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhsAggR3_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhsAggR3_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhsAggR3_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The block product into a zero accumulator, at an entry: the sum over the 1024 neighbours of the chunk. -/
theorem mmAggR3_apply (a : FVec Ideal S2048x1024 .bf16) (x : FVec Ideal S1024x512 .bf16) (p : Fin 2048) (q : Fin 512) :
    matmul (F := Ideal) dot_S2048x1024_S1024x512_S2048x512_1_0_0_1_n_n none a x (constant (F := Ideal) S2048x512 .f32 0x00000000#32) (ix2 p q)
      = ∑ kk : Fin 1024, a (ix2 p kk) * x (ix2 kk q) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p q) ((ValueIdx.contrEquiv1 dot_S2048x1024_S1024x512_S2048x512_1_0_0_1_n_n 1024 rfl rfl).symm k) = ix2 p k := funext fun a => Fin.ext (by
    match a with
    | ⟨0, _⟩ => exact lhsAggR3_0 _ _
    | ⟨1, _⟩ => exact (lhsAggR3_1 _ _).trans hk)
  have er : dot_S2048x1024_S1024x512_S2048x512_1_0_0_1_n_n.rhsIdx (ix2 p q) ((ValueIdx.contrEquiv1 dot_S2048x1024_S1024x512_S2048x512_1_0_0_1_n_n 1024 rfl rfl).symm k) = ix2 k q := funext fun a => Fin.ext (by
    match a with
    | ⟨0, _⟩ => exact (rhsAggR3_0 _ _).trans hk
    | ⟨1, _⟩ => exact rhsAggR3_1 _ _)
  rw [el, er]

/-- The accumulating store: what was there plus the block product. -/
theorem pay2R3_apply (s : Vec Ideal S2048x512 .f32) (a : Vec Ideal S2048x1024 .bf16) (x : Vec Ideal S1024x512 .bf16)
    (p : Fin 2048) (q : Fin 512) :
    k3_pay2 (F := Ideal) s a x (ix2 p q) = s (ix2 p q) + ∑ kk : Fin 1024, a (ix2 p kk) * x (ix2 kk q) := by
  unfold k3_pay2
  simp only [shapeCast_self]
  exact congrArg (s (ix2 p q) + ·) (mmAggR3_apply a x p q)

/-- The output product's dimension numbers: a row of the aggregated features against a column of the weights. -/
theorem lhsOutR3_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsOutR3_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsOutR3_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsOutR3_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The output product into a zero accumulator, at an entry: the sum over the 512 feature columns. -/
theorem mmOutR3_apply (s : FVec Ideal S2048x512 .bf16) (w : FVec Ideal S512x512 .bf16) (p : Fin 2048) (q : Fin 512) :
    matmul (F := Ideal) dot_S2048x512_S512x512_S2048x512_1_0_0_1_n_n none s w (constant (F := Ideal) S2048x512 .f32 0x00000000#32) (ix2 p q)
      = ∑ j : Fin 512, s (ix2 p j) * w (ix2 j q) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhsOutR3_0 _ _
    | ⟨1, _⟩ => exact (lhsOutR3_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhsOutR3_0 _ _).trans hk
    | ⟨1, _⟩ => exact rhsOutR3_1 _ _)
  rw [el, er]

/-- The bias row broadcast down the block's rows, at an entry: the row's entry in that column. -/
theorem biasR3_apply (b : Vec Ideal S1x512 .f32) (p : Fin 2048) (q : Fin 512) :
    broadcastTo S2048x512 b broadcasts_S1x512_S2048x512 (ix2 p q) = b (ix2 (0 : Fin 1) q) := by
  refine broadcastTo_apply b broadcasts_S1x512_S2048x512 (ix2 p q) (ix2 (0 : Fin 1) q) fun a => ?_
  match a with
  | ⟨0, _⟩ => rfl
  | ⟨1, _⟩ => rfl

/-- The output store: the activation of (accumulator times weights plus bias). -/
theorem pay3R3_apply (s : Vec Ideal S2048x512 .f32) (w : Vec Ideal S512x512 .bf16) (b : Vec Ideal S1x512 .f32)
    (p : Fin 2048) (q : Fin 512) :
    k3_pay3 (F := Ideal) s w b (ix2 p q) = actR3 ((∑ j : Fin 512, s (ix2 p j) * w (ix2 j q)) + b (ix2 (0 : Fin 1) q)) := by
  unfold k3_pay3
  simp only [shapeCast_self]
  show _ + _ = _
  rw [biasR3_apply, mmOutR3_apply]
  rfl

/-! ## Where a block sits in its array -/

/-- The block indices over the grid: point t = 8 i + k reads block (i, k) of the adjacency matrix, row block k of
    the features, the whole weights and bias, and writes row block i of the output. -/
theorem idxR3_0 : ∀ t : Fin cfg3.N, win3_0.index t (0 : Fin 2) = t.val / 8 ∧ win3_0.index t (1 : Fin 2) = t.val % 8 :=
  (by decide +kernel : ∀ t : Fin grid3.N, win3_0.index t (0 : Fin 2) = t.val / 8 ∧ win3_0.index t (1 : Fin 2) = t.val % 8)
theorem idxR3_1 : ∀ t : Fin cfg3.N, win3_1.index t (0 : Fin 2) = t.val % 8 ∧ win3_1.index t (1 : Fin 2) = 0 :=
  (by decide +kernel : ∀ t : Fin grid3.N, win3_1.index t (0 : Fin 2) = t.val % 8 ∧ win3_1.index t (1 : Fin 2) = 0)
theorem idxR3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idxR3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idxR3_4 : ∀ t : Fin cfg3.N, win3_4.index t (0 : Fin 2) = t.val / 8 ∧ win3_4.index t (1 : Fin 2) = 0 :=
  (by decide +kernel : ∀ t : Fin grid3.N, win3_4.index t (0 : Fin 2) = t.val / 8 ∧ win3_4.index t (1 : Fin 2) = 0)

theorem NR3 : cfg3.N = 32 := N_3

/-- An entry of the adjacency block at point t is the matrix's entry 2048 (t / 8) rows down, 1024 (t % 8) columns along. -/
theorem iblkR3_0_apply (c : Dev nD) (t : Fin cfg3.N) (r : Fin 2048) (kk : Fin 1024) (p u : Fin 8192)
    (hp : p.val = 2048 * (t.val / 8) + r.val) (hu : u.val = 1024 * (t.val % 8) + kk.val) :
    (iblkR3 V c 0 t : Vec Ideal S2048x1024 .bf16) (ix2 r kk) = (V c (Pipeline.arrRef spec3 0) : Cert.Spec.SA.Idx → EReal) (ix2 p u) := by
  unfold iblkR3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 2048 + 1 * r.val = p.val; rw [(idxR3_0 t).1, hp]; omega
  | ⟨1, _⟩ => show win3_0.index t (1 : Fin 2) * 1024 + 1 * kk.val = u.val; rw [(idxR3_0 t).2, hu]; omega

/-- An entry of the feature block at point t is the features' entry 1024 (t % 8) rows down. -/
theorem iblkR3_1_apply (c : Dev nD) (t : Fin cfg3.N) (kk : Fin 1024) (j : Fin 512) (u : Fin 8192) (j' : Fin 512)
    (hu : u.val = 1024 * (t.val % 8) + kk.val) (hj : j'.val = j.val) :
    (iblkR3 V c 1 t : Vec Ideal S1024x512 .bf16) (ix2 kk j) = (V c (Pipeline.arrRef spec3 1) : Cert.Spec.SH.Idx → EReal) (ix2 u j') := by
  unfold iblkR3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 1024 + 1 * kk.val = u.val; rw [(idxR3_1 t).1, hu]; omega
  | ⟨1, _⟩ => show win3_1.index t (1 : Fin 2) * 512 + 1 * j.val = j'.val; rw [(idxR3_1 t).2, hj]; omega

/-- The weights' block is the whole matrix. -/
theorem iblkR3_2_apply (c : Dev nD) (t : Fin cfg3.N) (j q j' q' : Fin 512) (hj : j'.val = j.val) (hq : q'.val = q.val) :
    (iblkR3 V c 2 t : Vec Ideal S512x512 .bf16) (ix2 j q) = (V c (Pipeline.arrRef spec3 2) : Cert.Spec.SW.Idx → EReal) (ix2 j' q') := by
  unfold iblkR3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 512 + 1 * j.val = j'.val; rw [(idxR3_2 t).1, hj]; omega
  | ⟨1, _⟩ => show win3_2.index t (1 : Fin 2) * 512 + 1 * q.val = q'.val; rw [(idxR3_2 t).2, hq]; omega

/-- The bias block is the whole row. -/
theorem iblkR3_3_apply (c : Dev nD) (t : Fin cfg3.N) (z : Fin 1) (q q' : Fin 512) (hq : q'.val = q.val) :
    (iblkR3 V c 3 t : Vec Ideal S1x512 .f32) (ix2 z q) = (V c (Pipeline.arrRef spec3 3) : Cert.Spec.SB.Idx → EReal) (ix2 (0 : Fin 1) q') := by
  unfold iblkR3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * z.val = 0; rw [(idxR3_3 t).1]; omega
  | ⟨1, _⟩ => show win3_3.index t (1 : Fin 2) * 512 + 1 * q.val = q'.val; rw [(idxR3_3 t).2, hq]; omega

/-! ## The accumulator after each point -/

/-- The product of an adjacency block and a feature block, at an entry. -/
def bprodR3 (a : Vec Ideal S2048x1024 .bf16) (x : Vec Ideal S1024x512 .bf16) (r : Fin 2048) (j : Fin 512) : EReal :=
  ∑ kk : Fin 1024, a (ix2 r kk) * x (ix2 kk j)

/-- When the blocks are chunk k of row p of a matrix A and of the rows of X, their product at an entry is chunk k of
    the neighbour sum. -/
theorem bprodR3_eq (A : Cert.Spec.SA.Idx → EReal) (X : Cert.Spec.SH.Idx → EReal)
    (a : Vec Ideal S2048x1024 .bf16) (x : Vec Ideal S1024x512 .bf16) (r : Fin 2048) (j : Fin 512) (p : Fin 8192)
    (k : ℕ) (hk : k < 8)
    (ha : ∀ (kk : Fin 1024) (u : Fin 8192), u.val = 1024 * k + kk.val → a (ix2 r kk) = A (ix2 p u))
    (hx : ∀ (kk : Fin 1024) (u : Fin 8192), u.val = 1024 * k + kk.val → x (ix2 kk j) = X (ix2 u j)) :
    bprodR3 a x r j = ∑ kk : Fin 1024, (if h : 1024 * k + kk.val < 8192 then
      A (ix2 p ⟨1024 * k + kk.val, h⟩) * X (ix2 ⟨1024 * k + kk.val, h⟩ j) else 0) := by
  unfold bprodR3
  refine Finset.sum_congr rfl fun kk _ => ?_
  have h : 1024 * k + kk.val < 8192 := by have := kk.isLt; omega
  rw [dif_pos h, ha kk ⟨_, h⟩ rfl, hx kk ⟨_, h⟩ rfl]

/-- So adding it to the first k chunks gives the first k + 1. -/
theorem aggStepR3 (A : Cert.Spec.SA.Idx → EReal) (X : Cert.Spec.SH.Idx → EReal)
    (a : Vec Ideal S2048x1024 .bf16) (x : Vec Ideal S1024x512 .bf16) (r : Fin 2048) (j : Fin 512) (p : Fin 8192)
    (k : ℕ) (hk : k < 8)
    (ha : ∀ (kk : Fin 1024) (u : Fin 8192), u.val = 1024 * k + kk.val → a (ix2 r kk) = A (ix2 p u))
    (hx : ∀ (kk : Fin 1024) (u : Fin 8192), u.val = 1024 * k + kk.val → x (ix2 kk j) = X (ix2 u j))
    (s : EReal) (hs : s = Cert.Spec.aggBlk A X p j k) :
    s + bprodR3 a x r j = Cert.Spec.aggBlk A X p j (k + 1) := by
  rw [hs, bprodR3_eq A X a x r j p k hk ha hx]
  rfl

/-- After a point with k = 0 the accumulator holds the first chunk. -/
theorem accAR3_apply (c : Dev nD) (t : Fin cfg3.N) (h0 : t.val % 8 = 0) (r : Fin 2048) (j : Fin 512) (p : Fin 8192)
    (hp : p.val = 2048 * (t.val / 8) + r.val) :
    (outsAtR3 V c t.val t.isLt).2 (ix2 r j)
      = Cert.Spec.aggBlk (V c (Pipeline.arrRef spec3 0)) (V c (Pipeline.arrRef spec3 1)) p j 1 := by
  rw [outsAtR3_A V c t h0]
  dsimp only
  refine (pay2R3_apply (k3_pay1 (F := Ideal)) (iblkR3 V c 0 t) (iblkR3 V c 1 t) r j).trans ?_
  exact aggStepR3 (V c (Pipeline.arrRef spec3 0)) (V c (Pipeline.arrRef spec3 1)) (iblkR3 V c 0 t) (iblkR3 V c 1 t) r j p 0 (by omega)
    (fun kk u hu => iblkR3_0_apply V c t r kk p u hp (by rw [hu, h0]))
    (fun kk u hu => iblkR3_1_apply V c t kk j u j (by rw [hu, h0]) rfl)
    (k3_pay1 (F := Ideal) (ix2 r j)) (pay1R3_apply r j)

/-- After a point with k > 0 the accumulator holds what the point before left plus this point's block product. -/
theorem accBR3_apply (c : Dev nD) (t : Fin cfg3.N) (h0 : ¬t.val % 8 = 0) (r : Fin 2048) (j : Fin 512) :
    (outsAtR3 V c t.val t.isLt).2 (ix2 r j)
      = (outsAtR3 V c (t.val - 1) (Nat.lt_of_le_of_lt (Nat.sub_le _ _) t.isLt)).2 (ix2 r j)
        + bprodR3 (iblkR3 V c 0 t) (iblkR3 V c 1 t) r j := by
  by_cases h1 : t.val % 8 = 7
  · rw [outsAtR3_C V c t h0 h1]
    dsimp only
    exact pay2R3_apply (outsAtR3 V c (t.val - 1) (Nat.lt_of_le_of_lt (Nat.sub_le _ _) t.isLt)).2 (iblkR3 V c 0 t) (iblkR3 V c 1 t) r j
  · rw [outsAtR3_B V c t h0 h1]
    dsimp only
    exact pay2R3_apply (outsAtR3 V c (t.val - 1) (Nat.lt_of_le_of_lt (Nat.sub_le _ _) t.isLt)).2 (iblkR3 V c 0 t) (iblkR3 V c 1 t) r j

/-- The invariant: after point 8 i + k the accumulator's row r holds the first k + 1 chunks of the neighbour sum
    at row 2048 i + r, added in the order the grid walks them. -/
theorem accR3_eq (c : Dev nD) : ∀ (n : ℕ) (hn : n < cfg3.N) (r : Fin 2048) (j : Fin 512) (p : Fin 8192),
    p.val = 2048 * (n / 8) + r.val →
    (outsAtR3 V c n hn).2 (ix2 r j)
      = Cert.Spec.aggBlk (V c (Pipeline.arrRef spec3 0)) (V c (Pipeline.arrRef spec3 1)) p j (n % 8 + 1) := by
  intro n
  induction n with
  | zero => intro hn r j p hp; exact accAR3_apply V c ⟨0, hn⟩ rfl r j p hp
  | succ n ih =>
    intro hn r j p hp
    by_cases h0 : (n + 1) % 8 = 0
    · rw [h0]; exact accAR3_apply V c ⟨n + 1, hn⟩ h0 r j p hp
    · have hn' : n < cfg3.N := Nat.lt_of_succ_lt hn
      have e1 : (n + 1) / 8 = n / 8 := by omega
      have e2 : (n + 1) % 8 = n % 8 + 1 := by omega
      have hk : n % 8 + 1 < 8 := by omega
      refine (accBR3_apply V c ⟨n + 1, hn⟩ h0 r j).trans ?_
      rw [e2]
      exact aggStepR3 (V c (Pipeline.arrRef spec3 0)) (V c (Pipeline.arrRef spec3 1))
        (iblkR3 V c 0 ⟨n + 1, hn⟩) (iblkR3 V c 1 ⟨n + 1, hn⟩) r j p (n % 8 + 1) hk
        (fun kk u hu => iblkR3_0_apply V c ⟨n + 1, hn⟩ r kk p u hp (hu.trans (by rw [← e2])))
        (fun kk u hu => iblkR3_1_apply V c ⟨n + 1, hn⟩ kk j u j (hu.trans (by rw [← e2])) rfl)
        ((outsAtR3 V c n hn').2 (ix2 r j)) (ih hn' r j p (by rw [hp, e1]))

/-! ## The stored output block, and the array -/

/-- At a point with k = 7 the stored output block holds the layer's value at the block's rows. -/
theorem outR3_apply (c : Dev nD) (t : Fin cfg3.N) (h7 : t.val % 8 = 7) (r : Fin 2048) (q : Fin 512) (p : Fin 8192) (q' : Fin 512)
    (hp : p.val = 2048 * (t.val / 8) + r.val) (hq : q'.val = q.val) :
    (outsAtR3 V c t.val t.isLt).1 (ix2 r q)
      = Cert.Spec.layerBlkAt actR3 (V c (Pipeline.arrRef spec3 0)) (V c (Pipeline.arrRef spec3 1)) (V c (Pipeline.arrRef spec3 2)) (V c (Pipeline.arrRef spec3 3)) p q' := by
  have h0 : ¬t.val % 8 = 0 := by omega
  have e : (outsAtR3 V c t.val t.isLt).1 = outCR3 (outsAtR3 V c t.val t.isLt).2 (iblkR3 V c 2 t) (iblkR3 V c 3 t) := by
    rw [outsAtR3_C V c t h0 h7]
  rw [e]
  refine (pay3R3_apply (outsAtR3 V c t.val t.isLt).2 (iblkR3 V c 2 t) (iblkR3 V c 3 t) r q).trans ?_
  unfold Cert.Spec.layerBlkAt
  refine congrArg actR3 (congrArg₂ (fun (u v : EReal) => u + v) (Finset.sum_congr rfl fun j _ => ?_) (iblkR3_3_apply V c t 0 q q' hq))
  exact congrArg₂ (fun (u v : EReal) => u * v) ((accR3_eq V c t.val t.isLt r j p hp).trans (by rw [h7])) (iblkR3_2_apply V c t j q j q' rfl hq)

/-- What a point with k = 7 writes back is its block of the layer's value. -/
theorem flushedR3_eq (c : Dev nD) (t : Fin cfg3.N) (hf : (cfg3.win 4).flush t = true) :
    (datR3 (F := Ideal) V c).flushed 4 t = ((cfg3.win 4).blk t).view.read (Elt Ideal)
      (Cert.Spec.layerBlk actR3 (V c (Pipeline.arrRef spec3 0)) (V c (Pipeline.arrRef spec3 1)) (V c (Pipeline.arrRef spec3 2)) (V c (Pipeline.arrRef spec3 3))) := by
  have h7 : t.val % 8 = 7 := (flush3_4 t).mp hf
  refine funext fun (y : S2048x512.Idx) => ?_
  obtain ⟨r, q, rfl⟩ : ∃ (r : Fin 2048) (q : Fin 512), y = ix2 r q := ⟨y 0, y 1, eq_ix2 y⟩
  rw [View.read_apply]
  show (outsAtR3 V c t.val t.isLt).1 (ix2 r q)
    = Cert.Spec.layerBlk actR3 (V c (Pipeline.arrRef spec3 0)) (V c (Pipeline.arrRef spec3 1)) (V c (Pipeline.arrRef spec3 2)) (V c (Pipeline.arrRef spec3 3)) _
  exact outR3_apply V c t h7 r q _ _
    (by show win3_4.index t (0 : Fin 2) * 2048 + 1 * r.val = _; rw [(idxR3_4 t).1]; omega)
    (by show win3_4.index t (1 : Fin 2) * 512 + 1 * q.val = _; rw [(idxR3_4 t).2]; omega)

/-- Row p of the output is written back by point 8 (p / 2048) + 7. -/
theorem coverValR3 (c : Dev nD) (i : S8192x512.Idx) :
    ∃ t : Fin cfg3.N, (cfg3.win 4).flush t = true ∧ i ∈ ((cfg3.win 4).blk t).view.set := by
  have h0 : (i 0).val < 8192 := idx2_lt0 i
  have h1 : (i 1).val < 512 := idx2_lt1 i
  have hN : 8 * ((i 0).val / 2048) + 7 < cfg3.N := by rw [NR3]; omega
  refine ⟨⟨8 * ((i 0).val / 2048) + 7, hN⟩, (flush3_4 _).mpr (by show (8 * ((i 0).val / 2048) + 7) % 8 = 7; omega), ?_⟩
  show i ∈ ((View.whole (Pipeline.arrRef spec3 4)).slice (win3_4.rect ⟨8 * ((i 0).val / 2048) + 7, hN⟩)).set
  rw [View.set_slice_whole, Rect.mem_set_unit]
  intro a
  match a with
  | ⟨0, _⟩ =>
    show win3_4.index ⟨8 * ((i 0).val / 2048) + 7, hN⟩ (0 : Fin 2) * 2048 ≤ (i 0).val
      ∧ (i 0).val < win3_4.index ⟨8 * ((i 0).val / 2048) + 7, hN⟩ (0 : Fin 2) * 2048 + 2048
    rw [(idxR3_4 ⟨8 * ((i 0).val / 2048) + 7, hN⟩).1]
    dsimp only
    omega
  | ⟨1, _⟩ =>
    show win3_4.index ⟨8 * ((i 0).val / 2048) + 7, hN⟩ (1 : Fin 2) * 512 ≤ (i 1).val
      ∧ (i 1).val < win3_4.index ⟨8 * ((i 0).val / 2048) + 7, hN⟩ (1 : Fin 2) * 512 + 512
    rw [(idxR3_4 ⟨8 * ((i 0).val / 2048) + 7, hN⟩).2]
    omega

/-- After region 3 its output array holds act ((A x) W + b), the sum over neighbours accumulated chunk by chunk. -/
theorem arrR3_eq (c : Dev nD) :
    (datR3 (F := Ideal) V c).arrAt 4 cfg3.N
      = Cert.Spec.layerBlk actR3 (V c (Pipeline.arrRef spec3 0)) (V c (Pipeline.arrRef spec3 1)) (V c (Pipeline.arrRef spec3 2)) (V c (Pipeline.arrRef spec3 3)) :=
  (datR3 (F := Ideal) V c).arrAt_eq_of_cover 4
    (Cert.Spec.layerBlk actR3 (V c (Pipeline.arrRef spec3 0)) (V c (Pipeline.arrRef spec3 1)) (V c (Pipeline.arrRef spec3 2)) (V c (Pipeline.arrRef spec3 3)))
    (fun t hf => flushedR3_eq V c t hf) (coverValR3 c)

end Cert.KernelIdeal.H

end
-- ==== Proof.SpecRow.lean ====
/-
  A bias vector of 512 entries read as the [1, 512] row both programs broadcast down the rows: however the
  row is made (a reshape, or a broadcast along a new leading unit axis), entry (0, q) is entry q.
-/
import proofs.«125958_j34282428956966_1_alg».proof.Proof.Spec

noncomputable section

namespace Cert.Spec

open Idealize.ShloMosaic Idealize.ShloMosaic.ValueIdx

abbrev SV : Shape := ⟨1, ![512]⟩

/-- The [1, 512] row of a vector of 512 entries. -/
def rowOf (b : SV.Idx → EReal) : SB.Idx → EReal := fun i => b (ix1 (i 1))

end Cert.Spec

end
-- ==== Proof.KIAdj.lean ====
/-
  The normalized adjacency matrix the kernel program's host prefix builds from the edge table is the one the
  reference program builds: the two programs run the same operations in the same order, so the contents of each
  intermediate buffer is the reference's stage function of the edge table.  Proved for any float values, one
  stretch of host operations at a time: an operation's result at its own buffer is its function of its operands'
  contents, and at any other buffer what was there.
-/
import proofs.«125958_j34282428956966_1_alg».proof.Proof.KIVals
import proofs.«125958_j34282428956966_1_alg».proof.Proof.RefRead
import Idealize.ShloMosaic.Lib.StableHlo.Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.StableHlo in
/-- One operation's result read at a buffer: at its own buffer its function's value, at another what was there; repeated. -/
macro "results_loop" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The long stretch in three pieces -/

/-- The first 23 operations of the long stretch: up to the index pairs the scatter reads. -/
abbrev opsA1 : List (HloOp τ sig (Elt F)) :=
  [ StableHlo.unary main_v4 main_v6 (uitofp .f32 : (⟨S8192x16, .i1⟩ : BufTy).Contents (Elt F) → (⟨S8192x16, .f32⟩ : BufTy).Contents (Elt F)),
    StableHlo.nullary main_cst (constant S_ .f32 0x00000000#32),
    StableHlo.unary main_cst main_v7 (broadcastInDim S8192x8192 ![] bcast_S_S8192x8192 : (⟨S_, .f32⟩ : BufTy).Contents (Elt F) → (⟨S8192x8192, .f32⟩ : BufTy).Contents (Elt F)),
    StableHlo.reshape main_v2 main_v8 rfl shapeCasts_S8192x16_S131072,
    StableHlo.reshape main_v5 main_v9 rfl shapeCasts_S8192x16_S131072,
    StableHlo.reshape main_v6 main_v10 rfl shapeCasts_S8192x16_S131072,
    StableHlo.nullary main_c_1 (constantI S_ 32 0#32),
    StableHlo.unary main_c_1 main_v11 (broadcastInDim S131072 ![] bcast_S_S131072 : (⟨S_, .i32⟩ : BufTy).Contents (Elt F) → (⟨S131072, .i32⟩ : BufTy).Contents (Elt F)),
    StableHlo.binary main_v8 main_v11 main_v12 (cmpi .slt : (⟨S131072, .i32⟩ : BufTy).Contents (Elt F) → (⟨S131072, .i32⟩ : BufTy).Contents (Elt F) → (⟨S131072, .i1⟩ : BufTy).Contents (Elt F)),
    StableHlo.nullary main_c_2 (constantI S_ 32 8192#32),
    StableHlo.unary main_c_2 main_v13 (broadcastInDim S131072 ![] bcast_S_S131072 : (⟨S_, .i32⟩ : BufTy).Contents (Elt F) → (⟨S131072, .i32⟩ : BufTy).Contents (Elt F)),
    StableHlo.binary main_v8 main_v13 main_v14 (addi : (⟨S131072, .i32⟩ : BufTy).Contents (Elt F) → (⟨S131072, .i32⟩ : BufTy).Contents (Elt F) → (⟨S131072, .i32⟩ : BufTy).Contents (Elt F)),
    StableHlo.ternary main_v12 main_v14 main_v8 main_v15 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_3 (constantI S_ 32 0#32),
    StableHlo.unary main_c_3 main_v16 (broadcastInDim S131072 ![] bcast_S_S131072 : (⟨S_, .i32⟩ : BufTy).Contents (Elt F) → (⟨S131072, .i32⟩ : BufTy).Contents (Elt F)),
    StableHlo.binary main_v9 main_v16 main_v17 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 8192#32),
    StableHlo.unary main_c_4 main_v18 (broadcastInDim S131072 ![] bcast_S_S131072 : (⟨S_, .i32⟩ : BufTy).Contents (Elt F) → (⟨S131072, .i32⟩ : BufTy).Contents (Elt F)),
    StableHlo.binary main_v9 main_v18 main_v19 (addi : (⟨S131072, .i32⟩ : BufTy).Contents (Elt F) → (⟨S131072, .i32⟩ : BufTy).Contents (Elt F) → (⟨S131072, .i32⟩ : BufTy).Contents (Elt F)),
    StableHlo.ternary main_v17 main_v19 main_v9 main_v20 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v15 main_v21 (broadcastInDim S131072x1 ![0] bcast_S131072_S131072x1_0 : (⟨S131072, .i32⟩ : BufTy).Contents (Elt F) → (⟨S131072x1, .i32⟩ : BufTy).Contents (Elt F)),
    StableHlo.unary main_v20 main_v22 (broadcastInDim S131072x1 ![0] bcast_S131072_S131072x1_0 : (⟨S131072, .i32⟩ : BufTy).Contents (Elt F) → (⟨S131072x1, .i32⟩ : BufTy).Contents (Elt F)),
    StableHlo.binary main_v21 main_v22 main_v23 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)) ]
/-- The next 9: the scatter, the identity matrix, their sum. -/
abbrev opsA2 : List (HloOp τ sig (Elt F)) :=
  [ StableHlo.ternary main_v7 main_v23 main_v10 main_v24 ((fun x i u => Host.scatterAdd scatter_S8192x8192_S131072x2_S131072_n_01_01_1 x i u) : (⟨S8192x8192, .f32⟩ : BufTy).Contents (Elt F) → (⟨S131072x2, .i32⟩ : BufTy).Contents (Elt F) → (⟨S131072, .f32⟩ : BufTy).Contents (Elt F) → (⟨S8192x8192, .f32⟩ : BufTy).Contents (Elt F)),
    StableHlo.nullary main_v25 (iotaInDim S8192x8192 32 0),
    StableHlo.nullary main_v26 (iotaInDim S8192x8192 32 1),
    StableHlo.nullary main_c_5 (constantI S_ 32 0#32),
    StableHlo.unary main_c_5 main_v27 (broadcastInDim S8192x8192 ![] bcast_S_S8192x8192 : (⟨S_, .i32⟩ : BufTy).Contents (Elt F) → (⟨S8192x8192, .i32⟩ : BufTy).Contents (Elt F)),
    StableHlo.binary main_v25 main_v27 main_v28 (addi : (⟨S8192x8192, .i32⟩ : BufTy).Contents (Elt F) → (⟨S8192x8192, .i32⟩ : BufTy).Contents (Elt F) → (⟨S8192x8192, .i32⟩ : BufTy).Contents (Elt F)),
    StableHlo.binary main_v28 main_v26 main_v29 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v29 main_v30 (uitofp .f32 : (⟨S8192x8192, .i1⟩ : BufTy).Contents (Elt F) → (⟨S8192x8192, .f32⟩ : BufTy).Contents (Elt F)),
    StableHlo.binary main_v24 main_v30 main_v31 (addf : (⟨S8192x8192, .f32⟩ : BufTy).Contents (Elt F) → (⟨S8192x8192, .f32⟩ : BufTy).Contents (Elt F) → (⟨S8192x8192, .f32⟩ : BufTy).Contents (Elt F)) ]
/-- The last 9: the row sums, their sign test and their power. -/
abbrev opsB : List (HloOp τ sig (Elt F)) :=
  [ StableHlo.nullary main_cst_6 (constant S_ .f32 0x00000000#32),
    StableHlo.binary main_v31 main_cst_6 main_v32 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_7 (constant S_ .f32 0x00000000#32),
    StableHlo.unary main_cst_7 main_v33 (broadcastInDim S8192 ![] bcast_S_S8192 : (⟨S_, .f32⟩ : BufTy).Contents (Elt F) → (⟨S8192, .f32⟩ : BufTy).Contents (Elt F)),
    StableHlo.binary main_v32 main_v33 main_v34 (cmpf .ogt : (⟨S8192, .f32⟩ : BufTy).Contents (Elt F) → (⟨S8192, .f32⟩ : BufTy).Contents (Elt F) → (⟨S8192, .i1⟩ : BufTy).Contents (Elt F)),
    StableHlo.nullary main_cst_8 (constant S_ .f32 0xBF000000#32),
    StableHlo.unary main_cst_8 main_v35 (broadcastInDim S8192 ![] bcast_S_S8192 : (⟨S_, .f32⟩ : BufTy).Contents (Elt F) → (⟨S8192, .f32⟩ : BufTy).Contents (Elt F)),
    StableHlo.binary main_v32 main_v35 main_v36 (Host.powf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x00000000#32) ]

theorem hostOps0_2_split (W : Valuation τ sig (Elt F)) :
    StableHlo.after hostOps0_2 W = StableHlo.after opsB (StableHlo.after opsA2 (StableHlo.after opsA1 W)) := rfl

section Stretch
variable (W : Valuation τ sig (Elt F)) (x1 : (⟨S8192x16, .i32⟩ : BufTy).Contents (Elt F))

/-! ## Each stretch from given contents -/

theorem s0_v2 : StableHlo.after hostOps0 W (Proc.devRef .tc main_v2) = Cert.ReferenceIdeal.ReadP.val_main_v2 (F := F) := by
  after_results; rfl
theorem s0_v4 : StableHlo.after hostOps0 W (Proc.devRef .tc main_v4) = Cert.ReferenceIdeal.ReadP.val_main_v4 (F := F) (W (Proc.devRef .tc main_arg1)) := by
  after_results; rfl
theorem s0_c0 : StableHlo.after hostOps0 W (Proc.devRef .tc main_c_0) = Cert.ReferenceIdeal.ReadP.val_main_c_0 (F := F) := by
  after_results; rfl

theorem s1_v5 (h4 : W (Proc.devRef .tc main_v4) = Cert.ReferenceIdeal.ReadP.val_main_v4 (F := F) x1)
    (h1 : W (Proc.devRef .tc main_arg1) = x1) (h0 : W (Proc.devRef .tc main_c_0) = Cert.ReferenceIdeal.ReadP.val_main_c_0 (F := F)) :
    StableHlo.after hostOps0_1 W (Proc.devRef .tc main_v5) = Cert.ReferenceIdeal.ReadP.val_main_v5 (F := F) x1 := by
  after_results; rw [h4, h1, h0]; rfl

set_option maxHeartbeats 4000000 in
theorem sA1_v23 (h2 : W (Proc.devRef .tc main_v2) = Cert.ReferenceIdeal.ReadP.val_main_v2 (F := F))
    (h5 : W (Proc.devRef .tc main_v5) = Cert.ReferenceIdeal.ReadP.val_main_v5 (F := F) x1) :
    StableHlo.after opsA1 W (Proc.devRef .tc main_v23) = Cert.ReferenceIdeal.ReadP.val_main_v23 (F := F) x1 := by
  after_results_simp; results_loop; rw [h2, h5]; rfl
theorem sA1_v7 : StableHlo.after opsA1 W (Proc.devRef .tc main_v7) = Cert.ReferenceIdeal.ReadP.val_main_v7 (F := F) := by
  after_results_simp; rfl
theorem sA1_v10 (h4 : W (Proc.devRef .tc main_v4) = Cert.ReferenceIdeal.ReadP.val_main_v4 (F := F) x1) :
    StableHlo.after opsA1 W (Proc.devRef .tc main_v10) = Cert.ReferenceIdeal.ReadP.val_main_v10 (F := F) x1 := by
  after_results_simp; rw [h4]; rfl

theorem sA2_v31 (h7 : W (Proc.devRef .tc main_v7) = Cert.ReferenceIdeal.ReadP.val_main_v7 (F := F))
    (h23 : W (Proc.devRef .tc main_v23) = Cert.ReferenceIdeal.ReadP.val_main_v23 (F := F) x1)
    (h10 : W (Proc.devRef .tc main_v10) = Cert.ReferenceIdeal.ReadP.val_main_v10 (F := F) x1) :
    StableHlo.after opsA2 W (Proc.devRef .tc main_v31) = Cert.ReferenceIdeal.ReadP.val_main_v31 (F := F) x1 := by
  after_results_simp; rw [h7, h23, h10]; rfl

theorem sB_v31 : StableHlo.after opsB W (Proc.devRef .tc main_v31) = W (Proc.devRef .tc main_v31) := by
  after_results_simp
theorem sB_v34 (h31 : W (Proc.devRef .tc main_v31) = Cert.ReferenceIdeal.ReadP.val_main_v31 (F := F) x1) :
    StableHlo.after opsB W (Proc.devRef .tc main_v34) = Cert.ReferenceIdeal.ReadP.val_main_v34 (F := F) x1 := by
  after_results_simp; rw [h31]; rfl
theorem sB_v36 (h31 : W (Proc.devRef .tc main_v31) = Cert.ReferenceIdeal.ReadP.val_main_v31 (F := F) x1) :
    StableHlo.after opsB W (Proc.devRef .tc main_v36) = Cert.ReferenceIdeal.ReadP.val_main_v36 (F := F) x1 := by
  after_results_simp; rw [h31]; rfl
theorem sB_cst9 : StableHlo.after opsB W (Proc.devRef .tc main_cst_9) = Cert.ReferenceIdeal.ReadP.val_main_cst_9 (F := F) := by
  after_results_simp; rfl

theorem s3_v37 (h34 : W (Proc.devRef .tc main_v34) = Cert.ReferenceIdeal.ReadP.val_main_v34 (F := F) x1)
    (h36 : W (Proc.devRef .tc main_v36) = Cert.ReferenceIdeal.ReadP.val_main_v36 (F := F) x1)
    (h9 : W (Proc.devRef .tc main_cst_9) = Cert.ReferenceIdeal.ReadP.val_main_cst_9 (F := F)) :
    StableHlo.after hostOps0_3 W (Proc.devRef .tc main_v37) = Cert.ReferenceIdeal.ReadP.val_main_v37 (F := F) x1 := by
  after_results; rw [h34, h36, h9]; rfl

theorem s4_v43 (h31 : W (Proc.devRef .tc main_v31) = Cert.ReferenceIdeal.ReadP.val_main_v31 (F := F) x1)
    (h37 : W (Proc.devRef .tc main_v37) = Cert.ReferenceIdeal.ReadP.val_main_v37 (F := F) x1) :
    StableHlo.after hostOps0_4 W (Proc.devRef .tc main_v43) = Cert.ReferenceIdeal.ReadP.val_main_v43 (F := F) x1 := by
  after_results; rw [h31, h37]; rfl
/-- The adjacency matrix in the kernels' storage format: the format change of the matrix just built. -/
theorem s4_v44 (h31 : W (Proc.devRef .tc main_v31) = Cert.ReferenceIdeal.ReadP.val_main_v31 (F := F) x1)
    (h37 : W (Proc.devRef .tc main_v37) = Cert.ReferenceIdeal.ReadP.val_main_v37 (F := F) x1) :
    StableHlo.after hostOps0_4 W (Proc.devRef .tc main_v44)
      = (truncf .bf16 (Cert.ReferenceIdeal.ReadP.val_main_v43 (F := F) x1) bitsLt_bf16_f32 : (⟨S8192x8192, .bf16⟩ : BufTy).Contents (Elt F)) := by
  after_results; rw [h31, h37]; rfl
/-- The embedding bias as a row: the reshape of the argument. -/
theorem s4_v45 :
    StableHlo.after hostOps0_4 W (Proc.devRef .tc main_v45)
      = (fun i => shapeCast S1x512 (W (Proc.devRef .tc main_arg3)) shapeCasts_S512_S1x512 i : (⟨S1x512, .f32⟩ : BufTy).Contents (Elt F)) := by
  after_results; rfl

end Stretch

/-! ## From the launch memory -/

section Launch
variable (m : (ℓ : Loc nD τ sig) → Buf (Elt F) ℓ) (c : Dev nD)

/-- The edge table as launched. -/
abbrev edges : (⟨S8192x16, .i32⟩ : BufTy).Contents (Elt F) := m ((c : Thread nD τ).loc main_arg1)

theorem V1_v2 : V1 m c main_v2 = Cert.ReferenceIdeal.ReadP.val_main_v2 (F := F) := s0_v2 _
theorem V1_v4 : V1 m c main_v4 = Cert.ReferenceIdeal.ReadP.val_main_v4 (F := F) (edges m c) := s0_v4 _
theorem V1_c0 : V1 m c main_c_0 = Cert.ReferenceIdeal.ReadP.val_main_c_0 (F := F) := s0_c0 _
theorem V1_arg1 : V1 m c main_arg1 = edges m c := V1_of m c main_arg1 (by decide)

theorem V2_v5 : V2 m c main_v5 = Cert.ReferenceIdeal.ReadP.val_main_v5 (F := F) (edges m c) :=
  s1_v5 _ _ (V1_v4 m c) (V1_arg1 m c) (V1_c0 m c)
theorem V2_v2 : V2 m c main_v2 = Cert.ReferenceIdeal.ReadP.val_main_v2 (F := F) := (V2_of m c main_v2 (by decide)).trans (V1_v2 m c)
theorem V2_v4 : V2 m c main_v4 = Cert.ReferenceIdeal.ReadP.val_main_v4 (F := F) (edges m c) := (V2_of m c main_v4 (by decide)).trans (V1_v4 m c)

theorem V3_v31 : V3 m c main_v31 = Cert.ReferenceIdeal.ReadP.val_main_v31 (F := F) (edges m c) := by
  show StableHlo.after hostOps0_2 (V2 m c) (Proc.devRef .tc main_v31) = _
  rw [hostOps0_2_split, sB_v31]
  exact sA2_v31 _ _ (sA1_v7 _) (sA1_v23 _ _ (V2_v2 m c) (V2_v5 m c)) (sA1_v10 _ _ (V2_v4 m c))
theorem V3_v34 : V3 m c main_v34 = Cert.ReferenceIdeal.ReadP.val_main_v34 (F := F) (edges m c) := by
  show StableHlo.after hostOps0_2 (V2 m c) (Proc.devRef .tc main_v34) = _
  rw [hostOps0_2_split]
  exact sB_v34 _ _ (sA2_v31 _ _ (sA1_v7 _) (sA1_v23 _ _ (V2_v2 m c) (V2_v5 m c)) (sA1_v10 _ _ (V2_v4 m c)))
theorem V3_v36 : V3 m c main_v36 = Cert.ReferenceIdeal.ReadP.val_main_v36 (F := F) (edges m c) := by
  show StableHlo.after hostOps0_2 (V2 m c) (Proc.devRef .tc main_v36) = _
  rw [hostOps0_2_split]
  exact sB_v36 _ _ (sA2_v31 _ _ (sA1_v7 _) (sA1_v23 _ _ (V2_v2 m c) (V2_v5 m c)) (sA1_v10 _ _ (V2_v4 m c)))
theorem V3_cst9 : V3 m c main_cst_9 = Cert.ReferenceIdeal.ReadP.val_main_cst_9 (F := F) := by
  show StableHlo.after hostOps0_2 (V2 m c) (Proc.devRef .tc main_cst_9) = _
  rw [hostOps0_2_split]
  exact sB_cst9 _

theorem V4_v37 : V4 m c main_v37 = Cert.ReferenceIdeal.ReadP.val_main_v37 (F := F) (edges m c) :=
  s3_v37 _ _ (V3_v34 m c) (V3_v36 m c) (V3_cst9 m c)
theorem V4_v31 : V4 m c main_v31 = Cert.ReferenceIdeal.ReadP.val_main_v31 (F := F) (edges m c) := (V4_of m c main_v31 (by decide)).trans (V3_v31 m c)

/-- The normalized adjacency matrix before the first region is the reference's, of the same edge table. -/
theorem V5_v43 : V5 m c main_v43 = Cert.ReferenceIdeal.ReadP.val_main_v43 (F := F) (edges m c) :=
  s4_v43 _ _ (V4_v31 m c) (V4_v37 m c)
/-- Its copy in the kernels' storage format. -/
theorem V5_v44 : V5 m c main_v44
    = (truncf .bf16 (Cert.ReferenceIdeal.ReadP.val_main_v43 (F := F) (edges m c)) bitsLt_bf16_f32 : (⟨S8192x8192, .bf16⟩ : BufTy).Contents (Elt F)) :=
  s4_v44 _ _ (V4_v31 m c) (V4_v37 m c)

end Launch

end Cert.KernelIdeal.H

end
-- ==== Proof.KIChain.lean ====
/- The kernel program's result at the exact instance, as the network's value: the four regions' arrays chained through the host stretches between them (format changes, which are the identity over the extended reals, and reshapes of the bias vectors), with the neighbour sums regrouped. -/
import proofs.«125958_j34282428956966_1_alg».proof.Proof.KIVals
import proofs.«125958_j34282428956966_1_alg».proof.Proof.KIVal0
import proofs.«125958_j34282428956966_1_alg».proof.Proof.KIVal1
import proofs.«125958_j34282428956966_1_alg».proof.Proof.KIVal2
import proofs.«125958_j34282428956966_1_alg».proof.Proof.KIVal3
import proofs.«125958_j34282428956966_1_alg».proof.Proof.SpecRow
import proofs.«125958_j34282428956966_1_alg».proof.Proof.RefRead
import proofs.«125958_j34282428956966_1_alg».proof.Proof.KIAdj
import Idealize.ShloMosaic.Lib.StableHlo.Run
import Idealize.ShloMosaic.Lib.ValueIdx
import Idealize.ShloMosaic.Lib.ValueLayout

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## A bias vector reshaped to a row -/

/-- The reshape of a 512-vector to [1, 512] is its row. -/
theorem shapeCast_rowOf (b : Cert.Spec.SV.Idx → EReal) (h : Cert.Spec.SV.ShapeCasts Cert.Spec.SB) :
    (fun i => shapeCast Cert.Spec.SB b h i) = Cert.Spec.rowOf b := by
  funext i
  obtain ⟨u, q, rfl⟩ : ∃ (u : Fin 1) (q : Fin 512), i = ValueIdx.ix2 u q := ⟨i 0, i 1, ValueIdx.eq_ix2 i⟩
  exact ValueIdx.shapeCast_a_1a_apply b h u q

/-! ## What the stretches between the regions leave, from given contents (the exact instance) -/

section Stretch
variable (W : Valuation τ sig (Elt Ideal))

theorem h1_v47 : (StableHlo.after hostOps1 W (Proc.devRef .tc main_v47) : Cert.Spec.SH.Idx → EReal) = W (Proc.devRef .tc main_v46) := by
  after_results; rfl
theorem h1_v48 : (StableHlo.after hostOps1 W (Proc.devRef .tc main_v48) : Cert.Spec.SW.Idx → EReal) = W (Proc.devRef .tc main_arg4) := by
  after_results; rfl
theorem h1_v49 : (StableHlo.after hostOps1 W (Proc.devRef .tc main_v49) : Cert.Spec.SB.Idx → EReal) = Cert.Spec.rowOf (W (Proc.devRef .tc main_arg5)) := by
  after_results; exact shapeCast_rowOf _ _

theorem h2_v51 : (StableHlo.after hostOps2 W (Proc.devRef .tc main_v51) : Cert.Spec.SH.Idx → EReal) = W (Proc.devRef .tc main_v50) := by
  after_results; rfl
theorem h2_v52 : (StableHlo.after hostOps2 W (Proc.devRef .tc main_v52) : Cert.Spec.SW.Idx → EReal) = W (Proc.devRef .tc main_arg6) := by
  after_results; rfl
theorem h2_v53 : (StableHlo.after hostOps2 W (Proc.devRef .tc main_v53) : Cert.Spec.SB.Idx → EReal) = Cert.Spec.rowOf (W (Proc.devRef .tc main_arg7)) := by
  after_results; exact shapeCast_rowOf _ _

theorem h3_v55 : (StableHlo.after hostOps3 W (Proc.devRef .tc main_v55) : Cert.Spec.SH.Idx → EReal) = W (Proc.devRef .tc main_v54) := by
  after_results; rfl
theorem h3_v56 : (StableHlo.after hostOps3 W (Proc.devRef .tc main_v56) : Cert.Spec.SW.Idx → EReal) = W (Proc.devRef .tc main_arg8) := by
  after_results; rfl
theorem h3_v57 : (StableHlo.after hostOps3 W (Proc.devRef .tc main_v57) : Cert.Spec.SB.Idx → EReal) = Cert.Spec.rowOf (W (Proc.devRef .tc main_arg9)) := by
  after_results; exact shapeCast_rowOf _ _

theorem h04_v45 : (StableHlo.after hostOps0_4 W (Proc.devRef .tc main_v45) : Cert.Spec.SB.Idx → EReal) = Cert.Spec.rowOf (W (Proc.devRef .tc main_arg3)) := by
  after_results; exact shapeCast_rowOf _ _

end Stretch

/-! ## Equal operands, equal layers -/

theorem emb_congr {X X' : Cert.Spec.SX.Idx → EReal} {W W' : Cert.Spec.SWe.Idx → EReal} {b b' : Cert.Spec.SB.Idx → EReal}
    (h1 : X = X') (h2 : W = W') (h3 : b = b') : Cert.Spec.emb X W b = Cert.Spec.emb X' W' b' := by
  rw [h1, h2, h3]

/-- The layer with its neighbour sum taken chunk by chunk, at operands equal to given ones, is the layer at those. -/
theorem layer_of_blk {act : EReal → EReal} {A A' : Cert.Spec.SA.Idx → EReal} {x x' : Cert.Spec.SH.Idx → EReal}
    {W W' : Cert.Spec.SW.Idx → EReal} {b b' : Cert.Spec.SB.Idx → EReal}
    (hA : A = A') (hx : x = x') (hW : W = W') (hb : b = b') :
    Cert.Spec.layerBlk act A x W b = Cert.Spec.layer act A' x' W' b' := by
  rw [hA, hx, hW, hb, Cert.Spec.layerBlk_eq]

section Chain
variable (m : (ℓ : Loc nD τ sig) → Buf (Elt Ideal) ℓ) (c : Dev nD)

/-! ## Buffers a stretch or a region leaves alone -/

theorem X4_launch (r : Ref sig .tc) (h0 : r ∉ hostOps0_W) (h1 : r ∉ hostOps0_1_W) (h2 : r ∉ hostOps0_2_W) (h3 : r ∉ hostOps0_3_W) :
    V4 m c r = m ((c : Thread nD τ).loc r) :=
  (V4_of m c r h3).trans <| (V3_of m c r h2).trans <| (V2_of m c r h1).trans <| (V1_of m c r h0).trans rfl
theorem X5_launch (r : Ref sig .tc) (h0 : r ∉ hostOps0_W) (h1 : r ∉ hostOps0_1_W) (h2 : r ∉ hostOps0_2_W) (h3 : r ∉ hostOps0_3_W)
    (h4 : r ∉ hostOps0_4_W) : X5 m c r = m ((c : Thread nD τ).loc r) :=
  (V5_of m c r h4).trans (X4_launch m c r h0 h1 h2 h3)

theorem X6_of (r : Ref sig .tc) (h : r ≠ main_v46) : X6 m c r = X5 m c r := by
  unfold X6; exact Function.update_of_ne (StableHlo.devRef_ne_of_ne h) _ _
theorem X6_self : X6 m c main_v46 = o6 m c := by
  unfold X6; exact Function.update_self _ _ _
theorem X7_of (r : Ref sig .tc) (h : r ∉ hostOps1_W) : X7 m c r = X6 m c r :=
  StableHlo.after_of_writes_sub hostOps1 _ hostOps1_writes h
theorem X8_of (r : Ref sig .tc) (h : r ≠ main_v50) : X8 m c r = X7 m c r := by
  unfold X8; exact Function.update_of_ne (StableHlo.devRef_ne_of_ne h) _ _
theorem X8_self : X8 m c main_v50 = o8 m c := by
  unfold X8; exact Function.update_self _ _ _
theorem X9_of (r : Ref sig .tc) (h : r ∉ hostOps2_W) : X9 m c r = X8 m c r :=
  StableHlo.after_of_writes_sub hostOps2 _ hostOps2_writes h
theorem X10_of (r : Ref sig .tc) (h : r ≠ main_v54) : X10 m c r = X9 m c r := by
  unfold X10; exact Function.update_of_ne (StableHlo.devRef_ne_of_ne h) _ _
theorem X10_self : X10 m c main_v54 = o10 m c := by
  unfold X10; exact Function.update_self _ _ _
theorem X11_of (r : Ref sig .tc) (h : r ∉ hostOps3_W) : X11 m c r = X10 m c r :=
  StableHlo.after_of_writes_sub hostOps3 _ hostOps3_writes h

/-- A buffer written by nothing after the host prefix: as the prefix left it, up to each later item. -/
theorem X8_keep (r : Ref sig .tc) (h46 : r ≠ main_v46) (h1 : r ∉ hostOps1_W) (h50 : r ≠ main_v50) : X8 m c r = X5 m c r :=
  (X8_of m c r h50).trans <| (X7_of m c r h1).trans (X6_of m c r h46)
theorem X10_keep (r : Ref sig .tc) (h46 : r ≠ main_v46) (h1 : r ∉ hostOps1_W) (h50 : r ≠ main_v50) (h2 : r ∉ hostOps2_W)
    (h54 : r ≠ main_v54) : X10 m c r = X5 m c r :=
  (X10_of m c r h54).trans <| (X9_of m c r h2).trans (X8_keep m c r h46 h1 h50)

/-! ## The adjacency matrix at each layer -/

/-- The normalized adjacency matrix of the edge table. -/
abbrev Adj : Cert.Spec.SA.Idx → EReal :=
  Cert.ReferenceIdeal.ReadP.val_main_v43 (F := Ideal) (m ((c : Thread nD τ).loc main_arg1))

/-- Before region 0 the matrix in the kernels' storage format is the matrix: the format change is the identity. -/
theorem X5_v44 : (X5 m c main_v44 : Cert.Spec.SA.Idx → EReal) = Adj m c := (V5_v44 m c).trans rfl
theorem X7_v44 : (X7 m c main_v44 : Cert.Spec.SA.Idx → EReal) = Adj m c :=
  ((X7_of m c main_v44 (by decide)).trans (X6_of m c main_v44 (by decide))).trans (X5_v44 m c)
theorem X9_v44 : (X9 m c main_v44 : Cert.Spec.SA.Idx → EReal) = Adj m c :=
  ((X9_of m c main_v44 (by decide)).trans (X8_keep m c main_v44 (by decide) (by decide) (by decide))).trans (X5_v44 m c)
theorem X11_v44 : (X11 m c main_v44 : Cert.Spec.SA.Idx → EReal) = Adj m c :=
  ((X11_of m c main_v44 (by decide)).trans (X10_keep m c main_v44 (by decide) (by decide) (by decide) (by decide) (by decide))).trans (X5_v44 m c)

/-! ## The four regions -/

/-- Region 0 leaves the embedding. -/
theorem o6_eq : o6 m c = Cert.Spec.emb (m ((c : Thread nD τ).loc main_arg0)) (m ((c : Thread nD τ).loc main_arg2))
    (Cert.Spec.rowOf (m ((c : Thread nD τ).loc main_arg3))) := by
  unfold o6
  refine (arrR0_eq (atTc (X5 m)) c).trans (emb_congr ?_ ?_ ?_)
  · exact X5_launch m c main_arg0 (by decide) (by decide) (by decide) (by decide) (by decide)
  · exact X5_launch m c main_arg2 (by decide) (by decide) (by decide) (by decide) (by decide)
  · exact (h04_v45 (V4 m c)).trans (congrArg Cert.Spec.rowOf (X4_launch m c main_arg3 (by decide) (by decide) (by decide) (by decide)))

/-- Region 1 leaves the first layer over what region 0 left. -/
theorem o8_eq : o8 m c = Cert.Spec.layer Cert.Spec.relu (Adj m c) (o6 m c) (m ((c : Thread nD τ).loc main_arg4))
    (Cert.Spec.rowOf (m ((c : Thread nD τ).loc main_arg5))) := by
  unfold o8
  refine (arrR1_eq (atTc (X7 m)) c).trans (layer_of_blk ?_ ?_ ?_ ?_)
  · exact X7_v44 m c
  · exact (h1_v47 (X6 m c)).trans (X6_self m c)
  · exact (h1_v48 (X6 m c)).trans ((X6_of m c main_arg4 (by decide)).trans (X5_launch m c main_arg4 (by decide) (by decide) (by decide) (by decide) (by decide)))
  · exact (h1_v49 (X6 m c)).trans (congrArg Cert.Spec.rowOf ((X6_of m c main_arg5 (by decide)).trans (X5_launch m c main_arg5 (by decide) (by decide) (by decide) (by decide) (by decide))))

/-- Region 2 leaves the second layer over what region 1 left. -/
theorem o10_eq : o10 m c = Cert.Spec.layer Cert.Spec.relu (Adj m c) (o8 m c) (m ((c : Thread nD τ).loc main_arg6))
    (Cert.Spec.rowOf (m ((c : Thread nD τ).loc main_arg7))) := by
  unfold o10
  refine (arrR2_eq (atTc (X9 m)) c).trans (layer_of_blk ?_ ?_ ?_ ?_)
  · exact X9_v44 m c
  · exact (h2_v51 (X8 m c)).trans (X8_self m c)
  · exact (h2_v52 (X8 m c)).trans ((X8_keep m c main_arg6 (by decide) (by decide) (by decide)).trans (X5_launch m c main_arg6 (by decide) (by decide) (by decide) (by decide) (by decide)))
  · exact (h2_v53 (X8 m c)).trans (congrArg Cert.Spec.rowOf ((X8_keep m c main_arg7 (by decide) (by decide) (by decide)).trans (X5_launch m c main_arg7 (by decide) (by decide) (by decide) (by decide) (by decide))))

/-- Region 3 leaves the last layer, without the rectifier, over what region 2 left. -/
theorem o12_eq' : o12 m c = Cert.Spec.layer id (Adj m c) (o10 m c) (m ((c : Thread nD τ).loc main_arg8))
    (Cert.Spec.rowOf (m ((c : Thread nD τ).loc main_arg9))) := by
  unfold o12
  refine (arrR3_eq (atTc (X11 m)) c).trans (layer_of_blk ?_ ?_ ?_ ?_)
  · exact X11_v44 m c
  · exact (h3_v55 (X10 m c)).trans (X10_self m c)
  · exact (h3_v56 (X10 m c)).trans ((X10_keep m c main_arg8 (by decide) (by decide) (by decide) (by decide) (by decide)).trans (X5_launch m c main_arg8 (by decide) (by decide) (by decide) (by decide) (by decide)))
  · exact (h3_v57 (X10 m c)).trans (congrArg Cert.Spec.rowOf ((X10_keep m c main_arg9 (by decide) (by decide) (by decide) (by decide) (by decide)).trans (X5_launch m c main_arg9 (by decide) (by decide) (by decide) (by decide) (by decide))))

end Chain

variable (m : (ℓ : Loc nD τ sig) → Buf (Elt Ideal) ℓ)

/-- The kernel program's result array is the network's value at the arguments: the adjacency matrix the shared host
    operations build from the edge table, three graph-convolution layers over the embedding. -/
theorem o12_eq (c : Dev nD) :
    o12 (F := Ideal) m c
      = Cert.Spec.gcn (Cert.ReferenceIdeal.ReadP.val_main_v43 (F := Ideal) (m ((c : Thread nD τ).loc main_arg1)))
          (m ((c : Thread nD τ).loc main_arg0)) (m ((c : Thread nD τ).loc main_arg2)) (Cert.Spec.rowOf (m ((c : Thread nD τ).loc main_arg3)))
          (m ((c : Thread nD τ).loc main_arg4)) (Cert.Spec.rowOf (m ((c : Thread nD τ).loc main_arg5)))
          (m ((c : Thread nD τ).loc main_arg6)) (Cert.Spec.rowOf (m ((c : Thread nD τ).loc main_arg7)))
          (m ((c : Thread nD τ).loc main_arg8)) (Cert.Spec.rowOf (m ((c : Thread nD τ).loc main_arg9))) := by
  rw [o12_eq', o10_eq, o8_eq, o6_eq]
  rfl

end Cert.KernelIdeal.H

end
-- ==== Proof.RefVal.lean ====
/- The reference program's result at the exact instance, as the network's value. -/
import proofs.«125958_j34282428956966_1_alg».proof.Proof.RefRead
import proofs.«125958_j34282428956966_1_alg».proof.Proof.SpecRow
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.ReferenceIdeal.ReadP

open Idealize.ShloMosaic.ValueIdx
open scoped BigOperators

/-- The embedding stage: X W + b, the bias row broadcast down the rows. -/
theorem emb_stage (x0 : (⟨S8192x128, .f32⟩ : BufTy).Contents (Elt Ideal)) (x2 : (⟨S128x512, .f32⟩ : BufTy).Contents (Elt Ideal))
    (x3 : (⟨S512, .f32⟩ : BufTy).Contents (Elt Ideal)) :
    val_main_v47 (F := Ideal) x0 x2 x3 = Cert.Spec.emb x0 x2 (Cert.Spec.rowOf x3) := by
  funext i
  obtain ⟨p, q, rfl⟩ : ∃ (p : Fin 8192) (q : Fin 512), i = ix2 p q := ⟨i 0, i 1, eq_ix2 i⟩
  have el : ∀ k : Fin 128, lidx_main_v44 (ix2 p q) k = ix2 p k := fun k =>
    funext fun a => Fin.ext (by match a with | ⟨0, _⟩ => rfl | ⟨1, _⟩ => rfl)
  have er : ∀ k : Fin 128, ridx_main_v44 (ix2 p q) k = ix2 k q := fun k =>
    funext fun a => Fin.ext (by match a with | ⟨0, _⟩ => rfl | ⟨1, _⟩ => rfl)
  have eb : idx_main_v45 (idx_main_v46 (ix2 p q)) = ix1 q :=
    funext fun a => Fin.ext (by match a with | ⟨0, _⟩ => rfl)
  rw [val_main_v47_apply, val_main_v44_apply, val_main_v46_apply, val_main_v45_apply, eb]
  simp only [el, er, Ideal.addf_def]
  rfl

/-- The first layer: the rectifier of (A x) W + b over the embedding. -/
theorem layer1 (x0 : (⟨S8192x128, .f32⟩ : BufTy).Contents (Elt Ideal)) (x1 : (⟨S8192x16, .i32⟩ : BufTy).Contents (Elt Ideal)) (x2 : (⟨S128x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) :
    val_main_v53 (F := Ideal) x0 x1 x2 x3 x4 x5
      = Cert.Spec.layer Cert.Spec.relu (val_main_v43 (F := Ideal) x1) (val_main_v47 (F := Ideal) x0 x2 x3) x4 (Cert.Spec.rowOf x5) := by
  funext i
  obtain ⟨p, q, rfl⟩ : ∃ (p : Fin 8192) (q : Fin 512), i = ix2 p q := ⟨i 0, i 1, eq_ix2 i⟩
  have el : ∀ j : Fin 512, lidx_main_v49 (ix2 p q) j = ix2 p j := fun j =>
    funext fun a => Fin.ext (by match a with | ⟨0, _⟩ => rfl | ⟨1, _⟩ => rfl)
  have er : ∀ j : Fin 512, ridx_main_v49 (ix2 p q) j = ix2 j q := fun j =>
    funext fun a => Fin.ext (by match a with | ⟨0, _⟩ => rfl | ⟨1, _⟩ => rfl)
  have el' : ∀ (j : Fin 512) (k : Fin 8192), lidx_main_v48 (ix2 p j) k = ix2 p k := fun j k =>
    funext fun a => Fin.ext (by match a with | ⟨0, _⟩ => rfl | ⟨1, _⟩ => rfl)
  have er' : ∀ (j : Fin 512) (k : Fin 8192), ridx_main_v48 (ix2 p j) k = ix2 k j := fun j k =>
    funext fun a => Fin.ext (by match a with | ⟨0, _⟩ => rfl | ⟨1, _⟩ => rfl)
  have eb : idx_main_v50 (idx_main_v51 (ix2 p q)) = ix1 q :=
    funext fun a => Fin.ext (by match a with | ⟨0, _⟩ => rfl)
  rw [val_main_v53_apply, val_main_v52_apply, val_main_v49_apply, val_main_v51_apply, val_main_v50_apply, val_main_call2_v0_apply, val_main_call2_cst_apply, eb]
  simp only [val_main_v48_apply]
  generalize val_main_v43 (F := Ideal) x1 = A
  generalize val_main_v47 (F := Ideal) x0 x2 x3 = y
  simp only [el, er, el', er', Ideal.addf_def, Ideal.maximumf_def, Ideal.ofBits_def, Ideal.ofBits_zero_f32]
  rfl

/-- The second layer, over the first layer's output. -/
theorem layer2 (x0 : (⟨S8192x128, .f32⟩ : BufTy).Contents (Elt Ideal)) (x1 : (⟨S8192x16, .i32⟩ : BufTy).Contents (Elt Ideal)) (x2 : (⟨S128x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) :
    val_main_v59 (F := Ideal) x0 x1 x2 x3 x4 x5 x6 x7
      = Cert.Spec.layer Cert.Spec.relu (val_main_v43 (F := Ideal) x1) (val_main_v53 (F := Ideal) x0 x1 x2 x3 x4 x5) x6 (Cert.Spec.rowOf x7) := by
  funext i
  obtain ⟨p, q, rfl⟩ : ∃ (p : Fin 8192) (q : Fin 512), i = ix2 p q := ⟨i 0, i 1, eq_ix2 i⟩
  have el : ∀ j : Fin 512, lidx_main_v55 (ix2 p q) j = ix2 p j := fun j =>
    funext fun a => Fin.ext (by match a with | ⟨0, _⟩ => rfl | ⟨1, _⟩ => rfl)
  have er : ∀ j : Fin 512, ridx_main_v55 (ix2 p q) j = ix2 j q := fun j =>
    funext fun a => Fin.ext (by match a with | ⟨0, _⟩ => rfl | ⟨1, _⟩ => rfl)
  have el' : ∀ (j : Fin 512) (k : Fin 8192), lidx_main_v54 (ix2 p j) k = ix2 p k := fun j k =>
    funext fun a => Fin.ext (by match a with | ⟨0, _⟩ => rfl | ⟨1, _⟩ => rfl)
  have er' : ∀ (j : Fin 512) (k : Fin 8192), ridx_main_v54 (ix2 p j) k = ix2 k j := fun j k =>
    funext fun a => Fin.ext (by match a with | ⟨0, _⟩ => rfl | ⟨1, _⟩ => rfl)
  have eb : idx_main_v56 (idx_main_v57 (ix2 p q)) = ix1 q :=
    funext fun a => Fin.ext (by match a with | ⟨0, _⟩ => rfl)
  rw [val_main_v59_apply, val_main_v58_apply, val_main_v55_apply, val_main_v57_apply, val_main_v56_apply, val_main_call3_v0_apply, val_main_call3_cst_apply, eb]
  simp only [val_main_v54_apply]
  generalize val_main_v43 (F := Ideal) x1 = A
  generalize val_main_v53 (F := Ideal) x0 x1 x2 x3 x4 x5 = y
  simp only [el, er, el', er', Ideal.addf_def, Ideal.maximumf_def, Ideal.ofBits_def, Ideal.ofBits_zero_f32]
  rfl

/-- The last layer, without the rectifier, over the second layer's output. -/
theorem layer3 (x0 : (⟨S8192x128, .f32⟩ : BufTy).Contents (Elt Ideal)) (x1 : (⟨S8192x16, .i32⟩ : BufTy).Contents (Elt Ideal)) (x2 : (⟨S128x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) :
    val_main_v64 (F := Ideal) x0 x1 x2 x3 x4 x5 x6 x7 x8 x9
      = Cert.Spec.layer id (val_main_v43 (F := Ideal) x1) (val_main_v59 (F := Ideal) x0 x1 x2 x3 x4 x5 x6 x7) x8 (Cert.Spec.rowOf x9) := by
  funext i
  obtain ⟨p, q, rfl⟩ : ∃ (p : Fin 8192) (q : Fin 512), i = ix2 p q := ⟨i 0, i 1, eq_ix2 i⟩
  have el : ∀ j : Fin 512, lidx_main_v61 (ix2 p q) j = ix2 p j := fun j =>
    funext fun a => Fin.ext (by match a with | ⟨0, _⟩ => rfl | ⟨1, _⟩ => rfl)
  have er : ∀ j : Fin 512, ridx_main_v61 (ix2 p q) j = ix2 j q := fun j =>
    funext fun a => Fin.ext (by match a with | ⟨0, _⟩ => rfl | ⟨1, _⟩ => rfl)
  have el' : ∀ (j : Fin 512) (k : Fin 8192), lidx_main_v60 (ix2 p j) k = ix2 p k := fun j k =>
    funext fun a => Fin.ext (by match a with | ⟨0, _⟩ => rfl | ⟨1, _⟩ => rfl)
  have er' : ∀ (j : Fin 512) (k : Fin 8192), ridx_main_v60 (ix2 p j) k = ix2 k j := fun j k =>
    funext fun a => Fin.ext (by match a with | ⟨0, _⟩ => rfl | ⟨1, _⟩ => rfl)
  have eb : idx_main_v62 (idx_main_v63 (ix2 p q)) = ix1 q :=
    funext fun a => Fin.ext (by match a with | ⟨0, _⟩ => rfl)
  rw [val_main_v64_apply, val_main_v61_apply, val_main_v63_apply, val_main_v62_apply, eb]
  simp only [val_main_v60_apply]
  generalize val_main_v43 (F := Ideal) x1 = A
  generalize val_main_v59 (F := Ideal) x0 x1 x2 x3 x4 x5 x6 x7 = y
  simp only [el, er, el', er', Ideal.addf_def]
  rfl

/-- The reference's result, read one operation at a time, is the network's value: the adjacency matrix its host
    operations build from the edge table, three graph-convolution layers over the embedding. -/
theorem ref_eq (x0 : (⟨S8192x128, .f32⟩ : BufTy).Contents (Elt Ideal)) (x1 : (⟨S8192x16, .i32⟩ : BufTy).Contents (Elt Ideal))
    (x2 : (⟨S128x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal)) :
    val_main_v64 (F := Ideal) x0 x1 x2 x3 x4 x5 x6 x7 x8 x9
      = Cert.Spec.gcn (val_main_v43 (F := Ideal) x1) x0 x2 (Cert.Spec.rowOf x3) x4 (Cert.Spec.rowOf x5) x6 (Cert.Spec.rowOf x7) x8 (Cert.Spec.rowOf x9) := by
  rw [layer3, layer2, layer1, emb_stage]
  rfl

end Cert.ReferenceIdeal.RefVal

end
-- ==== Proof.lean ====
/-
  The certificate of the graph-convolution network kernel against its reference.
  Both programs build the same normalized adjacency matrix A from the edge table with the same host
  operations.  The kernel program then runs four pipelined regions: X W_emb + b_emb, and three layers
  act ((A x) W + b), each walking A in 2048 x 1024 blocks and adding the block products into an
  accumulator over the eight column blocks of a row block; the reference takes each product whole.
  Over the extended reals a sum may be regrouped freely, and a change of float format is the identity, so the
  two results agree index by index, with no use of the inputs' finiteness.
  The frames: each program runs to the end without a fault and leaves its arguments as launched — for the
  kernel program (at both instances) by the launch of its twelve items over the pipelines' proof data, for the
  reference by its host run.
-/
import proofs.«125958_j34282428956966_1_alg».proof.Defs
import proofs.«125958_j34282428956966_1_alg».proof.Proof.Gen.Kernel
import proofs.«125958_j34282428956966_1_alg».proof.Proof.Gen.KernelIdeal
import proofs.«125958_j34282428956966_1_alg».proof.Proof.Gen.ReferenceIdeal
import proofs.«125958_j34282428956966_1_alg».proof.Proof.Gen.Pre_finite_inputs
import proofs.«125958_j34282428956966_1_alg».proof.Proof.KBRun
import proofs.«125958_j34282428956966_1_alg».proof.Proof.KIRun
import proofs.«125958_j34282428956966_1_alg».proof.Proof.KIChain
import proofs.«125958_j34282428956966_1_alg».proof.Proof.RefVal
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.H.run_main (F := Bits) m ρ)

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.H.run_main (F := Ideal) m ρ)

/-- The reference runs and keeps its arguments: its host run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the network's value at the shared arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.H.o12 (F := Ideal) m c, Cert.KernelIdeal.H.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v64 m' c = Cert.KernelIdeal.H.o12 (F := Ideal) m c
  rw [Cert.ReferenceIdeal.ReadP.val_main_v64_eq, Cert.ReferenceIdeal.RefVal.ref_eq, Cert.KernelIdeal.H.o12_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
